-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096 : Shape := ⟨2, ![16, 4096]⟩
abbrev S2048x504 : Shape := ⟨2, ![2048, 504]⟩
abbrev S5x8 : Shape := ⟨2, ![5, 8]⟩
abbrev S512 : Shape := ⟨1, ![512]⟩
abbrev S_ : Shape := ⟨0, ![]⟩

class Facts : Prop where
  bcast_S_S2048x504 : S_.BroadcastsInDim S2048x504 (![] : Fin 0 → Fin S2048x504.rank)
  reducesTo_S2048x504_S_d0_1 : S2048x504.ReducesTo [0, 1] S_
  h_S_ : 0 < S_.numel
  bcast_S_S5x8 : S_.BroadcastsInDim S5x8 (![] : Fin 0 → Fin S5x8.rank)
  reducesTo_S5x8_S_d0_1 : S5x8.ReducesTo [0, 1] S_
  bcast_S_S512 : S_.BroadcastsInDim S512 (![] : Fin 0 → Fin S512.rank)
  reducesTo_S512_S_d0 : S512.ReducesTo [0] S_
  bcast_S_S16x4096 : S_.BroadcastsInDim S16x4096 (![] : Fin 0 → Fin S16x4096.rank)
  reducesTo_S16x4096_S_d0_1 : S16x4096.ReducesTo [0, 1] S_

variable [Facts]

def fn_part1 {F : FTy → Type} [FloatOps F] (main_arg0 : IVec S16x4096 32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_c_6 : IVec S_ 32 := constantI S_ 32 0#32
  let main_v19 : IVec S16x4096 32 := broadcastInDim S16x4096 ![] bcast_S_S16x4096 main_c_6
  let main_v20 : IVec S16x4096 1 := cmpi .sge main_arg0 main_v19
  let main_c_7 : IVec S_ 32 := constantI S_ 32 2048#32
  let main_v21 : IVec S16x4096 32 := broadcastInDim S16x4096 ![] bcast_S_S16x4096 main_c_7
  let main_v22 : IVec S16x4096 1 := cmpi .slt main_arg0 main_v21
  let main_v23 : IVec S16x4096 1 := andi main_v20 main_v22
  let main_c_8 : IVec S_ 1 := constantI S_ 1 1#1
  let main_v24 : IVec S_ 1 := (fun x v => Host.reduce IntOp.andi x v reducesTo_S16x4096_S_d0_1 h_S_) main_v23 main_c_8
  let main_v25 : IVec S_ 1 := andi main_v18 main_v24
  main_v25

def fn {F : FTy → Type} [FloatOps F] (main_arg0 : IVec S16x4096 32) (main_arg1 : FVec F S2048x504 .f32) (main_arg2 : FVec F S5x8 .f32) (main_arg3 : FVec F S512 .f32) (main_arg4 : FVec F S512 .f32) : IVec S_ 1 :=
  let main_v0 : FVec F S2048x504 .f32 := Host.absf main_arg1
  let main_cst : FVec F S_ .f32 := constant S_ .f32 0x7F800000#32
  let main_v1 : FVec F S2048x504 .f32 := broadcastInDim S2048x504 ![] bcast_S_S2048x504 main_cst
  let main_v2 : IVec S2048x504 1 := cmpf .olt main_v0 main_v1
  let main_c : IVec S_ 1 := constantI S_ 1 1#1
  let main_v3 : IVec S_ 1 := (fun x v => Host.reduce IntOp.andi x v reducesTo_S2048x504_S_d0_1 h_S_) main_v2 main_c
  let main_v4 : FVec F S5x8 .f32 := Host.absf main_arg2
  let main_cst_0 : FVec F S_ .f32 := constant S_ .f32 0x7F800000#32
  let main_v5 : FVec F S5x8 .f32 := broadcastInDim S5x8 ![] bcast_S_S5x8 main_cst_0
  let main_v6 : IVec S5x8 1 := cmpf .olt main_v4 main_v5
  let main_c_1 : IVec S_ 1 := constantI S_ 1 1#1
  let main_v7 : IVec S_ 1 := (fun x v => Host.reduce IntOp.andi x v reducesTo_S5x8_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg0 main_v13 main_v16
-- ==== Kernel.lean ====
abbrev S16x4096 : Shape := ⟨2, ![16, 4096]⟩
abbrev S2048x504 : Shape := ⟨2, ![2048, 504]⟩
abbrev S5x8 : Shape := ⟨2, ![5, 8]⟩
abbrev S512 : Shape := ⟨1, ![512]⟩
abbrev S_ : Shape := ⟨0, ![]⟩
abbrev S2048 : Shape := ⟨1, ![2048]⟩
abbrev S2048x1 : Shape := ⟨2, ![2048, 1]⟩
abbrev S2048x8 : Shape := ⟨2, ![2048, 8]⟩
abbrev S2048x512 : Shape := ⟨2, ![2048, 512]⟩
abbrev S1x512 : Shape := ⟨2, ![1, 512]⟩
abbrev S16x4096x512 : Shape := ⟨3, ![16, 4096, 512]⟩
abbrev S8x256 : Shape := ⟨2, ![8, 256]⟩
abbrev S8x256x512 : Shape := ⟨3, ![8, 256, 512]⟩
abbrev S8x256x1 : Shape := ⟨3, ![8, 256, 1]⟩
abbrev S8x256x256 : Shape := ⟨3, ![8, 256, 256]⟩
abbrev S256x512 : Shape := ⟨2, ![256, 512]⟩
abbrev S2048x256 : Shape := ⟨2, ![2048, 256]⟩

abbrev nBuf : Space → Nat
  | .hbm => 95
  | .vmem => 7
  | .smem => 0
  | _ => 0

abbrev bufTy : (tb : Table) → Fin (tcTables nBuf tb) → BufTy
  | .hbm, ⟨0, _⟩ => ⟨S16x4096, .i32⟩
  | .hbm, ⟨1, _⟩ => ⟨S2048x504, .f32⟩
  | .hbm, ⟨2, _⟩ => ⟨S5x8, .f32⟩
  | .hbm, ⟨3, _⟩ => ⟨S512, .f32⟩
  | .hbm, ⟨4, _⟩ => ⟨S512, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S16x4096, .i32⟩
  | .hbm, ⟨9, _⟩ => ⟨S16x4096, .i32⟩
  | .hbm, ⟨10, _⟩ => ⟨S_, .i32⟩
  | .hbm, ⟨11, _⟩ => ⟨S16x4096, .i32⟩
  | .hbm, ⟨12, _⟩ => ⟨S16x4096, .i32⟩
  | .hbm, ⟨13, _⟩ => ⟨S2048, .i32⟩
  | .hbm, ⟨14, _⟩ => ⟨S_, .i32⟩
  | .hbm, ⟨15, _⟩ => ⟨S2048, .i32⟩
  | .hbm, ⟨16, _⟩ => ⟨S2048, .i1⟩
  | .hbm, ⟨17, _⟩ => ⟨S2048, .i32⟩
  | .hbm, ⟨18, _⟩ => ⟨S_, .i32⟩
  | .hbm, ⟨19, _⟩ => ⟨S2048, .i32⟩
  | .hbm, ⟨20, _⟩ => ⟨S2048, .i1⟩
  | .hbm, ⟨21, _⟩ => ⟨S2048, .i32⟩
  | .hbm, ⟨22, _⟩ => ⟨S_, .i32⟩
  | .hbm, ⟨23, _⟩ => ⟨S2048, .i32⟩
  | .hbm, ⟨24, _⟩ => ⟨S2048, .i1⟩
  | .hbm, ⟨25, _⟩ => ⟨S2048, .i32⟩
  | .hbm, ⟨26, _⟩ => ⟨S_, .i32⟩
  | .hbm, ⟨27, _⟩ => ⟨S2048, .i32⟩
  | .hbm, ⟨28, _⟩ => ⟨S2048, .i1⟩
  | .hbm, ⟨29, _⟩ => ⟨S2048, .i32⟩
  | .hbm, ⟨30, _⟩ => ⟨S2048, .i32⟩
  | .hbm, ⟨31, _⟩ => ⟨S2048, .i32⟩
  | .hbm, ⟨32, _⟩ => ⟨S2048, .i32⟩
  | .hbm, ⟨33, _⟩ => ⟨S_, .i32⟩
  | .hbm, ⟨34, _⟩ => ⟨S2048, .i32⟩
  | .hbm, ⟨35, _⟩ => ⟨S2048, .i1⟩
  | .hbm, ⟨36, _⟩ => ⟨S_, .i32⟩
  | .hbm, ⟨37, _⟩ => ⟨S2048, .i32⟩
  | .hbm, ⟨38, _⟩ => ⟨S2048, .i32⟩
  | .hbm, ⟨39, _⟩ => ⟨S2048, .i32⟩
  | .hbm, ⟨40, _⟩ => ⟨S2048x1, .i32⟩
  | .hbm, ⟨41, _⟩ => ⟨S2048x8, .f32⟩
  | .hbm, ⟨42, _⟩ => ⟨S2048x512, .f32⟩
  | .hbm, ⟨43, _⟩ => ⟨S_, .f32⟩
  | .hbm, ⟨44, _⟩ => ⟨S2048, .f32⟩
  | .hbm, ⟨45, _⟩ => ⟨S2048x1, .f32⟩
  | .hbm, ⟨46, _⟩ => ⟨S_, .f32⟩
  | .hbm, ⟨47, _⟩ => ⟨S2048x1, .f32⟩
  | .hbm, ⟨48, _⟩ => ⟨S2048x1, .f32⟩
  | .hbm, ⟨49, _⟩ => ⟨S_, .i32⟩
  | .hbm, ⟨50, _⟩ => ⟨S_, .f32⟩
  | .hbm, ⟨51, _⟩ => ⟨S2048, .f32⟩
  | .hbm, ⟨52, _⟩ => ⟨S2048x1, .f32⟩
  | .hbm, ⟨53, _⟩ => ⟨S_, .f32⟩
  | .hbm, ⟨54, _⟩ => ⟨S2048x1, .f32⟩
  | .hbm, ⟨55, _⟩ => ⟨S2048x1, .f32⟩
  | .hbm, ⟨56, _⟩ => ⟨S2048x512, .f32⟩
  | .hbm, ⟨57, _⟩ => ⟨S2048x512, .f32⟩
  | .hbm, ⟨58, _⟩ => ⟨S2048x512, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S2048, .f32⟩
  | .hbm, ⟨64, _⟩ => ⟨S2048x1, .f32⟩
  | .hbm, ⟨65, _⟩ => ⟨S2048x1, .f32⟩
  | .hbm, ⟨66, _⟩ => ⟨S2048x1, .f32⟩
  | .hbm, ⟨67, _⟩ => ⟨S_, .f32⟩
  | .hbm, ⟨68, _⟩ => ⟨S_, .i1⟩
  | .hbm, ⟨69, _⟩ => ⟨S_, .f32⟩
  | .hbm, ⟨70, _⟩ => ⟨S_, .f32⟩
  | .hbm, ⟨71, _⟩ => ⟨S2048x1, .f32⟩
  | .hbm, ⟨72, _⟩ => ⟨S2048x1, .f32⟩
  | .hbm, ⟨73, _⟩ => ⟨S2048x512, .f32⟩
  | .hbm, ⟨74, _⟩ => ⟨S2048x512, .f32⟩
  | .hbm, ⟨75, _⟩ => ⟨S_, .f32⟩
  | .hbm, ⟨76, _⟩ => ⟨S2048x1, .f32⟩
  | .hbm, ⟨77, _⟩ => ⟨S2048x1, .f32⟩
  | .hbm, ⟨78, _⟩ => ⟨S2048x1, .f32⟩
  | .hbm, ⟨79, _⟩ => ⟨S2048x512, .f32⟩
  | .hbm, ⟨80, _⟩ => ⟨S2048x512, .f32⟩
  | .hbm, ⟨81, _⟩ => ⟨S1x512, .f32⟩
  | .hbm, ⟨82, _⟩ => ⟨S2048x512, .f32⟩
  | .hbm, ⟨83, _⟩ => ⟨S2048x512, .f32⟩
  | .hbm, ⟨84, _⟩ => ⟨S1x512, .f32⟩
  | .hbm, ⟨85, _⟩ => ⟨S2048x512, .f32⟩
  | .hbm, ⟨86, _⟩ => ⟨S2048x512, .f32⟩
  | .hbm, ⟨87, _⟩ => ⟨S_, .f32⟩
  | .hbm, ⟨88, _⟩ => ⟨S2048x512, .f32⟩
  | .hbm, ⟨89, _⟩ => ⟨S2048x512, .f32⟩
  | .hbm, ⟨90, _⟩ => ⟨S2048x512, .bf16⟩
  | .hbm, ⟨91, _⟩ => ⟨S2048x512, .f32⟩
  | .hbm, ⟨92, _⟩ => ⟨S2048x512, .f32⟩
  | .hbm, ⟨93, _⟩ => ⟨S2048x512, .bf16⟩
  | .hbm, ⟨94, _⟩ => ⟨S16x4096x512, .f32⟩
  | .local _ .vmem, ⟨0, _⟩ => ⟨S8x256, .i32⟩
  | .local _ .vmem, ⟨1, _⟩ => ⟨S8x256, .i32⟩
  | .local _ .vmem, ⟨2, _⟩ => ⟨S2048x512, .bf16⟩
  | .local _ .vmem, ⟨3, _⟩ => ⟨S2048x512, .bf16⟩
  | .local _ .vmem, ⟨4, _⟩ => ⟨S8x256x512, .f32⟩
  | .local _ .vmem, ⟨5, _⟩ => ⟨S8x256x512, .f32⟩
  | .local _ .vmem, ⟨6, _⟩ => ⟨S2048x512, .f32⟩
  | _, _ => ⟨S16x4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v0 : Ref sig .tc := ⟨.hbm, 12, rfl⟩
abbrev main_v1 : Ref sig .tc := ⟨.hbm, 13, rfl⟩
abbrev main_c_1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_c_2 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_c_3 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c_4 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c_5 : Ref sig .tc := ⟨.hbm, 33, rfl⟩
abbrev main_v17 : Ref sig .tc := ⟨.hbm, 34, rfl⟩
abbrev main_v18 : Ref sig .tc := ⟨.hbm, 35, rfl⟩
abbrev main_c_6 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst : Ref sig .tc := ⟨.hbm, 43, rfl⟩
abbrev main_v25 : Ref sig .tc := ⟨.hbm, 44, rfl⟩
abbrev main_v26 : Ref sig .tc := ⟨.hbm, 45, rfl⟩
abbrev main_cst_7 : Ref sig .tc := ⟨.hbm, 46, rfl⟩
abbrev main_v27 : Ref sig .tc := ⟨.hbm, 47, rfl⟩
abbrev main_v28 : Ref sig .tc := ⟨.hbm, 48, rfl⟩
abbrev main_c_8 : Ref sig .tc := ⟨.hbm, 49, rfl⟩
abbrev main_call1_cst : Ref sig .tc := ⟨.hbm, 50, rfl⟩
abbrev main_call1_v0 : Ref sig .tc := ⟨.hbm, 51, rfl⟩
abbrev main_call1_v1 : Ref sig .tc := ⟨.hbm, 52, rfl⟩
abbrev main_call1_cst_0 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_call1_v5 : Ref sig .tc := ⟨.hbm, 57, rfl⟩
abbrev main_call1_v6 : Ref sig .tc := ⟨.hbm, 58, rfl⟩
abbrev main_call1_v7 : Ref sig .tc := ⟨.hbm, 59, rfl⟩
abbrev main_call1_cst_1 : Ref sig .tc := ⟨.hbm, 60, rfl⟩
abbrev main_call1_v8 : Ref sig .tc := ⟨.hbm, 61, rfl⟩
abbrev main_call1_cst_2 : Ref sig .tc := ⟨.hbm, 62, rfl⟩
abbrev main_call1_v9 : Ref sig .tc := ⟨.hbm, 63, rfl⟩
abbrev main_call1_v10 : Ref sig .tc := ⟨.hbm, 64, rfl⟩
abbrev main_call1_v11 : Ref sig .tc := ⟨.hbm, 65, rfl⟩
abbrev main_call1_v12 : Ref sig .tc := ⟨.hbm, 66, rfl⟩
abbrev main_call1_cst_3 : Ref sig .tc := ⟨.hbm, 67, rfl⟩
abbrev main_call1_v13 : Ref sig .tc := ⟨.hbm, 68, rfl⟩
abbrev main_call1_cst_4 : Ref sig .tc := ⟨.hbm, 69, rfl⟩
abbrev main_call1_call0_v0 : Ref sig .tc := ⟨.hbm, 70, rfl⟩
abbrev main_call1_call0_v1 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_cst_9 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_cst_10 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32 : BitVec 32 := 0#32
  let c8_i32 : BitVec 32 := 8#32
  let v8 : BitVec 32 := Scalar.addi c0_i32 c8_i32
  let c1_i32 : BitVec 32 := 1#32
  ⟨c0_i32, v8, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c256_i32 : BitVec 32 := 256#32
  let v12 : BitVec 32 := Scalar.muli arg7 c256_i32
  v12
def k0_off1 (k0_t1 : Fin k0_t1_loop.trips) : Fin 2 → Nat :=
  let c0_i32 : BitVec 32 := 0#32
  let c1_i32 : BitVec 32 := 1#32
  let arg7 : BitVec 32 := Scf.iv c0_i32 c1_i32 k0_t1
  let c256_i32 : BitVec 32 := 256#32
  let v12 : BitVec 32 := Scalar.muli arg7 c256_i32
  let v13 : BitVec 32 := v12
  let v14 : Index := Scalar.indexCast v13
  let c0_9 : Index := 0#32
  ![v14.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S8x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S_S16x4096 : S_.BroadcastsInDim S16x4096 (![] : Fin 0 → Fin S16x4096.rank)
  bcast_S_S2048 : S_.BroadcastsInDim S2048 (![] : Fin 0 → Fin S2048.rank)
  natLt_1_32 : 1 < 32
  bcast_S2048_S2048x1_0 : S2048.BroadcastsInDim S2048x1 (![0] : Fin 1 → Fin S2048x1.rank)
  concatenates_S2048x504_S2048x8_S2048x512_d1 : Shape.Concatenates [S2048x504, S2048x8] S2048x512 1
  reducesTo_S2048x512_S2048_d1 : S2048x512.ReducesTo [1] S2048
  h_S_ : 0 < S_.numel
  bcast_S_S2048x1 : S_.BroadcastsInDim S2048x1 (![] : Fin 0 → Fin S2048x1.rank)
  bcast_S2048x1_S2048x512_0_1 : S2048x1.BroadcastsInDim S2048x512 (![0, 1] : Fin 2 → Fin S2048x512.rank)
  bcast_S512_S1x512_1 : S512.BroadcastsInDim S1x512 (![1] : Fin 1 → Fin S1x512.rank)
  bcast_S1x512_S2048x512_0_1 : S1x512.BroadcastsInDim S2048x512 (![0, 1] : Fin 2 → Fin S2048x512.rank)
  bcast_S_S2048x512 : S_.BroadcastsInDim S2048x512 (![] : Fin 0 → Fin S2048x512.rank)
  bitsLt_bf16_f32 : FTy.bits .bf16 < FTy.bits .f32
  inb_S8x256_S8x256_0_0 : ∀ a, (![0, 0] : Fin 2 → Nat) a + S8x256.size a ≤ S8x256.size a
  h_S8x256 : 0 < S8x256.numel
  shapeCasts_S8x256_S8x256 : S8x256.ShapeCasts S8x256
  shapeCasts_S8x256_S8x256x1 : S8x256.ShapeCasts S8x256x1
  iota_S8x256x256_d2_w32 : S8x256x256.Iotas .tc 32 [2]
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  h_S256x512 : 0 < S256x512.numel
  shapeCasts_S256x512_S256x512 : S256x512.ShapeCasts S256x512
  broadcasts_S8x256x1_S8x256x256 : S8x256x1.Broadcasts S8x256x256
  shapeCasts_S8x256x256_S2048x256 : S8x256x256.ShapeCasts S2048x256
  shapeCasts_S2048x512_S8x256x512 : S2048x512.ShapeCasts S8x256x512
  inb_S8x256x512_S8x256x512_0_0_0 : ∀ a, (![0, 0, 0] : Fin 3 → Nat) a + S8x256x512.size a ≤ S8x256x512.size a
  h_S8x256x512 : 0 < S8x256x512.numel
  gather_S5x8_S2048x1_S2048x8_1_0_n_n_0_1_18_wf : GatherDims.WF S5x8 S2048x1 S2048x8 [1] [0] [] [0] [] 1 ![1, 8]
  dot_S2048x256_S256x512_S2048x512_1_0_0_1_n_n_wf : DotDims.WF S2048x256 S256x512 S2048x512 [1] [0] [0] [1] [] []
  hrank0 : 0 < grid0.rank
  k0_t1_ok : k0_t1_loop.OK
  k0_mult1_dvd : ∀ k0_t1 : Fin k0_t1_loop.trips, 256 ∣ (k0_mult1 k0_t1).toNat
  k0_off1_inb : ∀ k0_t1 : Fin k0_t1_loop.trips, ∀ a, (k0_off1 k0_t1) a + S256x512.size a ≤ S2048x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256.size a ≤ S16x4096.size a
  hwx0_0 : ∀ i : grid0.Coords, EltTy.bits .i32 = 32 ∨ (Rect.block (s := S16x4096) S8x256.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S2048x512.size a
  hwx0_1 : ∀ i : grid0.Coords, EltTy.bits .bf16 = 32 ∨ (Rect.block (s := S2048x512) S2048x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x512.size a ≤ S2048x512.size a
  hwx0_2 : ∀ i : grid0.Coords, EltTy.bits .bf16 = 32 ∨ (Rect.block (s := S2048x512) S2048x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x256x512.size a ≤ S16x4096x512.size a
  hwx0_3 : ∀ i : grid0.Coords, EltTy.bits .f32 = 32 ∨ (Rect.block (s := S16x4096x512) S8x256x512.size (cc0_transform_3 i) (hinb0_3 i)).WholeWords (EltTy.packing .f32)

variable [Facts₀]

def gather_S5x8_S2048x1_S2048x8_1_0_n_n_0_1_18 : GatherDims S5x8 S2048x1 S2048x8 where
  offsetDims := [1]
  collapsedSliceDims := [0]
  operandBatchingDims := []
  startIndicesBatchingDims := []
  startIndexMap := [0]
  indexVectorDim := 1
  sliceSizes := ![1, 8]
  wf := gather_S5x8_S2048x1_S2048x8_1_0_n_n_0_1_18_wf
def dot_S2048x256_S256x512_S2048x512_1_0_0_1_n_n : DotDims S2048x256 S256x512 S2048x512 where
  lhsContracting := [1]
  rhsContracting := [0]
  lhsNonContracting := [0]
  rhsNonContracting := [1]
  lhsBatch := []
  rhsBatch := []
  wf := dot_S2048x256_S256x512_S2048x512_1_0_0_1_n_n_wf

abbrev win0_0 : Pipeline.Window sig grid0 :=
  Pipeline.Window.ofSpec (Memref.whole main_v0) S8x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v45) S2048x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v48) S2048x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v49) S8x256x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x4096 : Shape := ⟨2, ![16, 4096]⟩
abbrev S2048x504 : Shape := ⟨2, ![2048, 504]⟩
abbrev S5x8 : Shape := ⟨2, ![5, 8]⟩
abbrev S512 : Shape := ⟨1, ![512]⟩
abbrev S5 : Shape := ⟨1, ![5]⟩
abbrev S_ : Shape := ⟨0, ![]⟩
abbrev S16x4096x1 : Shape := ⟨3, ![16, 4096, 1]⟩
abbrev S16x4096x504 : Shape := ⟨3, ![16, 4096, 504]⟩
abbrev S1x1x5 : Shape := ⟨3, ![1, 1, 5]⟩
abbrev S16x4096x5 : Shape := ⟨3, ![16, 4096, 5]⟩
abbrev S16x4096x8 : Shape := ⟨3, ![16, 4096, 8]⟩
abbrev S16x4096x512 : Shape := ⟨3, ![16, 4096, 512]⟩
abbrev S1x1x512 : Shape := ⟨3, ![1, 1, 512]⟩

abbrev nBuf : Space → Nat
  | .hbm => 89
  | .vmem => 0
  | .smem => 0
  | _ => 0

abbrev bufTy : (tb : Table) → Fin (tcTables nBuf tb) → BufTy
  | .hbm, ⟨0, _⟩ => ⟨S16x4096, .i32⟩
  | .hbm, ⟨1, _⟩ => ⟨S2048x504, .f32⟩
  | .hbm, ⟨2, _⟩ => ⟨S5x8, .f32⟩
  | .hbm, ⟨3, _⟩ => ⟨S512, .f32⟩
  | .hbm, ⟨4, _⟩ => ⟨S512, .f32⟩
  | .hbm, ⟨5, _⟩ => ⟨S5, .i32⟩
  | .hbm, ⟨6, _⟩ => ⟨S5, .i32⟩
  | .hbm, ⟨7, _⟩ => ⟨S_, .i32⟩
  | .hbm, ⟨8, _⟩ => ⟨S16x4096, .i32⟩
  | .hbm, ⟨9, _⟩ => ⟨S16x4096, .i1⟩
  | .hbm, ⟨10, _⟩ => ⟨S_, .i32⟩
  | .hbm, ⟨11, _⟩ => ⟨S16x4096, .i32⟩
  | .hbm, ⟨12, _⟩ => ⟨S16x4096, .i32⟩
  | .hbm, ⟨13, _⟩ => ⟨S16x4096, .i32⟩
  | .hbm, ⟨14, _⟩ => ⟨S16x4096x1, .i32⟩
  | .hbm, ⟨15, _⟩ => ⟨S16x4096x504, .f32⟩
  | .hbm, ⟨16, _⟩ => ⟨S16x4096x1, .i32⟩
  | .hbm, ⟨17, _⟩ => ⟨S1x1x5, .i32⟩
  | .hbm, ⟨18, _⟩ => ⟨S16x4096x5, .i32⟩
  | .hbm, ⟨19, _⟩ => ⟨S16x4096x5, .i32⟩
  | .hbm, ⟨20, _⟩ => ⟨S16x4096x5, .i1⟩
  | .hbm, ⟨21, _⟩ => ⟨S16x4096x1, .i32⟩
  | .hbm, ⟨22, _⟩ => ⟨S1x1x5, .i32⟩
  | .hbm, ⟨23, _⟩ => ⟨S16x4096x5, .i32⟩
  | .hbm, ⟨24, _⟩ => ⟨S16x4096x5, .i32⟩
  | .hbm, ⟨25, _⟩ => ⟨S16x4096x5, .i1⟩
  | .hbm, ⟨26, _⟩ => ⟨S16x4096x5, .i1⟩
  | .hbm, ⟨27, _⟩ => ⟨S16x4096x5, .i32⟩
  | .hbm, ⟨28, _⟩ => ⟨S_, .i1⟩
  | .hbm, ⟨29, _⟩ => ⟨S_, .i32⟩
  | .hbm, ⟨30, _⟩ => ⟨S16x4096, .i1⟩
  | .hbm, ⟨31, _⟩ => ⟨S16x4096, .i32⟩
  | .hbm, ⟨32, _⟩ => ⟨S_, .i32⟩
  | .hbm, ⟨33, _⟩ => ⟨S16x4096, .i32⟩
  | .hbm, ⟨34, _⟩ => ⟨S16x4096, .i1⟩
  | .hbm, ⟨35, _⟩ => ⟨S_, .i32⟩
  | .hbm, ⟨36, _⟩ => ⟨S16x4096, .i32⟩
  | .hbm, ⟨37, _⟩ => ⟨S16x4096, .i32⟩
  | .hbm, ⟨38, _⟩ => ⟨S16x4096, .i32⟩
  | .hbm, ⟨39, _⟩ => ⟨S16x4096x1, .i32⟩
  | .hbm, ⟨40, _⟩ => ⟨S16x4096x8, .f32⟩
  | .hbm, ⟨41, _⟩ => ⟨S16x4096x512, .f32⟩
  | .hbm, ⟨42, _⟩ => ⟨S_, .f32⟩
  | .hbm, ⟨43, _⟩ => ⟨S16x4096, .f32⟩
  | .hbm, ⟨44, _⟩ => ⟨S16x4096x1, .f32⟩
  | .hbm, ⟨45, _⟩ => ⟨S_, .f32⟩
  | .hbm, ⟨46, _⟩ => ⟨S16x4096x1, .f32⟩
  | .hbm, ⟨47, _⟩ => ⟨S16x4096x1, .f32⟩
  | .hbm, ⟨48, _⟩ => ⟨S_, .i32⟩
  | .hbm, ⟨49, _⟩ => ⟨S_, .f32⟩
  | .hbm, ⟨50, _⟩ => ⟨S16x4096, .f32⟩
  | .hbm, ⟨51, _⟩ => ⟨S16x4096x1, .f32⟩
  | .hbm, ⟨52, _⟩ => ⟨S_, .f32⟩
  | .hbm, ⟨53, _⟩ => ⟨S16x4096x1, .f32⟩
  | .hbm, ⟨54, _⟩ => ⟨S16x4096x1, .f32⟩
  | .hbm, ⟨55, _⟩ => ⟨S16x4096x512, .f32⟩
  | .hbm, ⟨56, _⟩ => ⟨S16x4096x512, .f32⟩
  | .hbm, ⟨57, _⟩ => ⟨S16x4096x512, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S16x4096, .f32⟩
  | .hbm, ⟨63, _⟩ => ⟨S16x4096x1, .f32⟩
  | .hbm, ⟨64, _⟩ => ⟨S16x4096x1, .f32⟩
  | .hbm, ⟨65, _⟩ => ⟨S16x4096x1, .f32⟩
  | .hbm, ⟨66, _⟩ => ⟨S_, .f32⟩
  | .hbm, ⟨67, _⟩ => ⟨S_, .i1⟩
  | .hbm, ⟨68, _⟩ => ⟨S_, .f32⟩
  | .hbm, ⟨69, _⟩ => ⟨S_, .f32⟩
  | .hbm, ⟨70, _⟩ => ⟨S16x4096x1, .f32⟩
  | .hbm, ⟨71, _⟩ => ⟨S16x4096x1, .f32⟩
  | .hbm, ⟨72, _⟩ => ⟨S16x4096x512, .f32⟩
  | .hbm, ⟨73, _⟩ => ⟨S16x4096x512, .f32⟩
  | .hbm, ⟨74, _⟩ => ⟨S_, .f32⟩
  | .hbm, ⟨75, _⟩ => ⟨S16x4096x1, .f32⟩
  | .hbm, ⟨76, _⟩ => ⟨S16x4096x1, .f32⟩
  | .hbm, ⟨77, _⟩ => ⟨S16x4096x1, .f32⟩
  | .hbm, ⟨78, _⟩ => ⟨S16x4096x512, .f32⟩
  | .hbm, ⟨79, _⟩ => ⟨S16x4096x512, .f32⟩
  | .hbm, ⟨80, _⟩ => ⟨S1x1x512, .f32⟩
  | .hbm, ⟨81, _⟩ => ⟨S16x4096x512, .f32⟩
  | .hbm, ⟨82, _⟩ => ⟨S16x4096x512, .f32⟩
  | .hbm, ⟨83, _⟩ => ⟨S1x1x512, .f32⟩
  | .hbm, ⟨84, _⟩ => ⟨S16x4096x512, .f32⟩
  | .hbm, ⟨85, _⟩ => ⟨S16x4096x512, .f32⟩
  | .hbm, ⟨86, _⟩ => ⟨S_, .f32⟩
  | .hbm, ⟨87, _⟩ => ⟨S16x4096x512, .f32⟩
  | .hbm, ⟨88, _⟩ => ⟨S16x4096x512, .f32⟩
  | _, _ => ⟨S16x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_v0 : Ref sig .tc := ⟨.hbm, 8, rfl⟩
abbrev main_v1 : Ref sig .tc := ⟨.hbm, 9, rfl⟩
abbrev main_c_2 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_c : Ref sig .tc := ⟨.hbm, 28, rfl⟩
abbrev main_call0_c_0 : Ref sig .tc := ⟨.hbm, 29, rfl⟩
abbrev main_call0_v1_0 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst : Ref sig .tc := ⟨.hbm, 42, rfl⟩
abbrev main_v27 : Ref sig .tc := ⟨.hbm, 43, rfl⟩
abbrev main_v28 : Ref sig .tc := ⟨.hbm, 44, rfl⟩
abbrev main_cst_5 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_call1_cst : Ref sig .tc := ⟨.hbm, 49, rfl⟩
abbrev main_call1_v0 : Ref sig .tc := ⟨.hbm, 50, rfl⟩
abbrev main_call1_v1 : Ref sig .tc := ⟨.hbm, 51, rfl⟩
abbrev main_call1_cst_0 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_v5 : Ref sig .tc := ⟨.hbm, 56, rfl⟩
abbrev main_call1_v6 : Ref sig .tc := ⟨.hbm, 57, rfl⟩
abbrev main_call1_v7 : Ref sig .tc := ⟨.hbm, 58, rfl⟩
abbrev main_call1_cst_1 : Ref sig .tc := ⟨.hbm, 59, rfl⟩
abbrev main_call1_v8 : Ref sig .tc := ⟨.hbm, 60, rfl⟩
abbrev main_call1_cst_2 : Ref sig .tc := ⟨.hbm, 61, rfl⟩
abbrev main_call1_v9 : Ref sig .tc := ⟨.hbm, 62, rfl⟩
abbrev main_call1_v10 : Ref sig .tc := ⟨.hbm, 63, rfl⟩
abbrev main_call1_v11 : Ref sig .tc := ⟨.hbm, 64, rfl⟩
abbrev main_call1_v12 : Ref sig .tc := ⟨.hbm, 65, rfl⟩
abbrev main_call1_cst_3 : Ref sig .tc := ⟨.hbm, 66, rfl⟩
abbrev main_call1_v13 : Ref sig .tc := ⟨.hbm, 67, rfl⟩
abbrev main_call1_cst_4 : Ref sig .tc := ⟨.hbm, 68, rfl⟩
abbrev main_call1_call0_v0 : Ref sig .tc := ⟨.hbm, 69, rfl⟩
abbrev main_call1_call0_v1 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_cst_7 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_cst_8 : Ref sig .tc := ⟨.hbm, 86, rfl⟩
abbrev main_v45 : Ref sig .tc := ⟨.hbm, 87, rfl⟩
abbrev main_v46 : Ref sig .tc := ⟨.hbm, 88, rfl⟩

abbrev nD : Nat := 1
abbrev τ : Topo := Topo.v7x

variable {F : FTy → Type} [FloatOps F]

class Facts₀ : Prop where
  bcast_S_S16x4096 : S_.BroadcastsInDim S16x4096 (![] : Fin 0 → Fin S16x4096.rank)
  bcast_S16x4096_S16x4096x1_0_1 : S16x4096.BroadcastsInDim S16x4096x1 (![0, 1] : Fin 2 → Fin S16x4096x1.rank)
  bcast_S5_S1x1x5_2 : S5.BroadcastsInDim S1x1x5 (![2] : Fin 1 → Fin S1x1x5.rank)
  bcast_S16x4096x1_S16x4096x5_0_1_2 : S16x4096x1.BroadcastsInDim S16x4096x5 (![0, 1, 2] : Fin 3 → Fin S16x4096x5.rank)
  bcast_S1x1x5_S16x4096x5_0_1_2 : S1x1x5.BroadcastsInDim S16x4096x5 (![0, 1, 2] : Fin 3 → Fin S16x4096x5.rank)
  reducesTo_S16x4096x5_S16x4096_d2 : S16x4096x5.ReducesTo [2] S16x4096
  h_S_ : 0 < S_.numel
  concatenates_S16x4096x504_S16x4096x8_S16x4096x512_d2 : Shape.Concatenates [S16x4096x504, S16x4096x8] S16x4096x512 2
  reducesTo_S16x4096x512_S16x4096_d2 : S16x4096x512.ReducesTo [2] S16x4096
  bcast_S_S16x4096x1 : S_.BroadcastsInDim S16x4096x1 (![] : Fin 0 → Fin S16x4096x1.rank)
  bcast_S16x4096x1_S16x4096x512_0_1_2 : S16x4096x1.BroadcastsInDim S16x4096x512 (![0, 1, 2] : Fin 3 → Fin S16x4096x512.rank)
  bcast_S512_S1x1x512_2 : S512.BroadcastsInDim S1x1x512 (![2] : Fin 1 → Fin S1x1x512.rank)
  bcast_S1x1x512_S16x4096x512_0_1_2 : S1x1x512.BroadcastsInDim S16x4096x512 (![0, 1, 2] : Fin 3 → Fin S16x4096x512.rank)
  bcast_S_S16x4096x512 : S_.BroadcastsInDim S16x4096x512 (![] : Fin 0 → Fin S16x4096x512.rank)
  gather_S2048x504_S16x4096x1_S16x4096x504_2_0_n_n_0_2_1504_wf : GatherDims.WF S2048x504 S16x4096x1 S16x4096x504 [2] [0] [] [0] [] 2 ![1, 504]
  gather_S5x8_S16x4096x1_S16x4096x8_2_0_n_n_0_2_18_wf : GatherDims.WF S5x8 S16x4096x1 S16x4096x8 [2] [0] [] [0] [] 2 ![1, 8]

variable [Facts₀]

def gather_S2048x504_S16x4096x1_S16x4096x504_2_0_n_n_0_2_1504 : GatherDims S2048x504 S16x4096x1 S16x4096x504 where
  offsetDims := [2]
  collapsedSliceDims := [0]
  operandBatchingDims := []
  startIndicesBatchingDims := []
  startIndexMap := [0]
  indexVectorDim := 2
  sliceSizes := ![1, 504]
  wf := gather_S2048x504_S16x4096x1_S16x4096x504_2_0_n_n_0_2_1504_wf
def reducer_argmax_i1_i32 : BitVec 1 × BitVec 32 → BitVec 1 × BitVec 32 → BitVec 1 × BitVec 32 :=
  fun a b =>
    let v2 := IntOp.cmpi .ugt a.1 b.1
    let v3 := IntOp.cmpi .ne a.1 a.1
    let v4 := IntOp.ori v2 v3
    let v5 := IntOp.cmpi .eq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)
def gather_S5x8_S16x4096x1_S16x4096x8_2_0_n_n_0_2_18 : GatherDims S5x8 S16x4096x1 S16x4096x8 where
  offsetDims := [2]
  collapsedSliceDims := [0]
  operandBatchingDims := []
  startIndicesBatchingDims := []
  startIndexMap := [0]
  indexVectorDim := 2
  sliceSizes := ![1, 8]
  wf := gather_S5x8_S16x4096x1_S16x4096x8_2_0_n_n_0_2_18_wf

class Facts : Prop extends Facts₀ where

variable [Facts]
-- ==== Proof.KBodyRun.lean ====
import proofs.«426015_j33715493274183_3_alg».proof.Proof.Gen.KernelIdeal.Frame
import Idealize.ShloMosaic.Lib.Pipeline.Value

noncomputable section

namespace Cert.KernelIdeal.BodyValue

open Cert.KernelIdeal Cert.KernelIdeal.Gen Idealize.ShloMosaic Idealize.ShloMosaic.TcCoe
open Idealize.ShloMosaic.Tactic

set_option maxRecDepth 16384

variable {F : FTy → Type} [FloatOps F]

/-- The zero offsets of a rank-2 rectangle. -/
theorem zero2 : (![0, 0] : Fin S2048x512.rank → Nat) = fun _ => 0 := by
  funext a; match a with | ⟨0, _⟩ => rfl | ⟨1, _⟩ => rfl

/-- The zero offsets of the ids block's rectangle. -/
theorem zero2i : (![0, 0] : Fin S8x256.rank → Nat) = fun _ => 0 := by
  funext a; match a with | ⟨0, _⟩ => rfl | ⟨1, _⟩ => rfl

/-- The zero offsets of a rank-3 rectangle. -/
theorem zero3 : (![0, 0, 0] : Fin S8x256x512.rank → Nat) = fun _ => 0 := by
  funext a; match a with | ⟨0, _⟩ => rfl | ⟨1, _⟩ => rfl | ⟨2, _⟩ => rfl

/-- ONE TRIP of the accumulation loop stores one piece: over the whole accumulator, the trip's sum of the two
    products of the one-hot rows with the trip's 256 rows of each table, added to what the accumulator held. -/
theorem trip_piece (𝒱 : Variants) (bd : Option 𝒱.V) (c : Dev nD) (i : grid0.Coords) (arg2 : Memref sig .tc .vmem S8x256 .i32) (harg2 : arg2.IsWhole)
    (arg3 : Memref sig .tc .vmem S2048x512 .bf16) (harg3 : arg3.IsWhole) (arg4 : Memref sig .tc .vmem S2048x512 .bf16) (harg4 : arg4.IsWhole)
    (arg5 : Memref sig .tc .vmem S8x256x512 .f32) (harg5 : arg5.IsWhole) (arg6 : Memref sig .tc .vmem S2048x512 .f32) (harg6 : arg6.IsWhole)
    (v0 : Vec F S8x256 .i32) (X3 : BufTy.Contents (Elt F) arg3.view.ty) (X4 : BufTy.Contents (Elt F) arg4.view.ty)
    (k : Fin k0_t1_loop.trips) (f : BufTy.Contents (Elt F) arg6.view.ty) :
    tripL_k0_t1 (F := F) 𝒱 c bd i arg2 harg2 arg3 harg3 arg4 harg4 arg5 harg5 arg6 harg6 v0 X3 X4 k f
      = [⟨(Rect.unit (s := S2048x512) ![0, 0] S2048x512.size inb_S2048x512_S2048x512_0_0),
          k0_pay2 v0 k (View.readAt (Elt F) arg3.view (Rect.unit (s := S2048x512) (k0_off1 k) S256x512.size (k0_off1_inb k)).toLoadRect X3)
            (View.readAt (Elt F) arg4.view (Rect.unit (s := S2048x512) (k0_off1 k) S256x512.size (k0_off1_inb k)).toLoadRect X4)
            (View.readAt (Elt F) arg6.view (Rect.unit (s := S2048x512) ![0, 0] S2048x512.size inb_S2048x512_S2048x512_0_0).toLoadRect f)⟩] := by
  unfold tripL_k0_t1 trip_k0_t1
  dsimp only

/-- The piece the body's first store leaves: zeros over the whole accumulator. -/
abbrev zeroPiece : View.Piece (Elt F) S2048x512 .f32 := ⟨(Rect.unit (s := S2048x512) ![0, 0] S2048x512.size inb_S2048x512_S2048x512_0_0), k0_pay1 (F := F)⟩

/-- THE ACCUMULATOR AFTER `k` TRIPS, read whole: the zero store and then the pieces of the first `k` trips, written
    over whatever the buffer held. -/
def accAt (c : Dev nD) (i : grid0.Coords) (arg2 : Memref sig .tc .vmem S8x256 .i32) (harg2 : arg2.IsWhole)
    (arg3 : Memref sig .tc .vmem S2048x512 .bf16) (harg3 : arg3.IsWhole) (arg4 : Memref sig .tc .vmem S2048x512 .bf16) (harg4 : arg4.IsWhole)
    (arg5 : Memref sig .tc .vmem S8x256x512 .f32) (harg5 : arg5.IsWhole) (arg6 : Memref sig .tc .vmem S2048x512 .f32) (harg6 : arg6.IsWhole)
    (v0 : Vec F S8x256 .i32) (X3 : BufTy.Contents (Elt F) arg3.view.ty) (X4 : BufTy.Contents (Elt F) arg4.view.ty) (k : ℕ) :
    Vec F S2048x512 .f32 :=
  View.readAt (Elt F) arg6.view (Rect.unit (s := S2048x512) ![0, 0] S2048x512.size inb_S2048x512_S2048x512_0_0).toLoadRect
    (arg6.view.writes (Elt F) arg6.view.junk
      (pb_k0_t1 (F := F) Variants.none c none i arg2 harg2 arg3 harg3 arg4 harg4 arg5 harg5 arg6 harg6 v0 X3 X4
          (arg6.view.writes (Elt F) arg6.view.junk [zeroPiece]) k ++ [zeroPiece]))

/-- A whole read after writes whose LAST piece is a whole store reads that store's payload. -/
theorem readAt_whole_cons (v : View sig .tc .vmem S2048x512 .f32) (w : S2048x512.Idx → Elt F .f32)
    (L : List (View.Piece (Elt F) S2048x512 .f32)) :
    View.readAt (Elt F) v (Rect.unit (s := S2048x512) ![0, 0] S2048x512.size inb_S2048x512_S2048x512_0_0).toLoadRect
      (v.writes (Elt F) v.junk ((⟨(Rect.unit (s := S2048x512) ![0, 0] S2048x512.size inb_S2048x512_S2048x512_0_0), w⟩ : View.Piece (Elt F) S2048x512 .f32) :: L)) = w := by
  rw [View.readAt_eq_ld, View.read_writes_eq_canon _ _ _ (fun y => ⟨_, List.mem_cons_self .., View.mem_set_unit_zero zero2 inb_S2048x512_S2048x512_0_0 y⟩),
    View.canon_cons_unit_zero zero2, View.ld_unit_zero zero2]

/-- Before any trip the accumulator holds zeros. -/
theorem accAt_zero (c : Dev nD) (i : grid0.Coords) (arg2 : Memref sig .tc .vmem S8x256 .i32) (harg2 : arg2.IsWhole)
    (arg3 : Memref sig .tc .vmem S2048x512 .bf16) (harg3 : arg3.IsWhole) (arg4 : Memref sig .tc .vmem S2048x512 .bf16) (harg4 : arg4.IsWhole)
    (arg5 : Memref sig .tc .vmem S8x256x512 .f32) (harg5 : arg5.IsWhole) (arg6 : Memref sig .tc .vmem S2048x512 .f32) (harg6 : arg6.IsWhole)
    (v0 : Vec F S8x256 .i32) (X3 : BufTy.Contents (Elt F) arg3.view.ty) (X4 : BufTy.Contents (Elt F) arg4.view.ty) :
    accAt c i arg2 harg2 arg3 harg3 arg4 harg4 arg5 harg5 arg6 harg6 v0 X3 X4 0 = k0_pay1 (F := F) := by
  unfold accAt
  rw [pb_k0_t1.eq_1, List.nil_append]
  exact readAt_whole_cons arg6.view _ []

/-- Trip `k` adds its two products to what the accumulator held. -/
theorem accAt_succ (c : Dev nD) (i : grid0.Coords) (arg2 : Memref sig .tc .vmem S8x256 .i32) (harg2 : arg2.IsWhole)
    (arg3 : Memref sig .tc .vmem S2048x512 .bf16) (harg3 : arg3.IsWhole) (arg4 : Memref sig .tc .vmem S2048x512 .bf16) (harg4 : arg4.IsWhole)
    (arg5 : Memref sig .tc .vmem S8x256x512 .f32) (harg5 : arg5.IsWhole) (arg6 : Memref sig .tc .vmem S2048x512 .f32) (harg6 : arg6.IsWhole)
    (v0 : Vec F S8x256 .i32) (X3 : BufTy.Contents (Elt F) arg3.view.ty) (X4 : BufTy.Contents (Elt F) arg4.view.ty)
    (k : Fin k0_t1_loop.trips) :
    accAt c i arg2 harg2 arg3 harg3 arg4 harg4 arg5 harg5 arg6 harg6 v0 X3 X4 (k.val + 1)
      = k0_pay2 v0 k (View.readAt (Elt F) arg3.view (Rect.unit (s := S2048x512) (k0_off1 k) S256x512.size (k0_off1_inb k)).toLoadRect X3)
          (View.readAt (Elt F) arg4.view (Rect.unit (s := S2048x512) (k0_off1 k) S256x512.size (k0_off1_inb k)).toLoadRect X4)
          (accAt c i arg2 harg2 arg3 harg3 arg4 harg4 arg5 harg5 arg6 harg6 v0 X3 X4 k.val) := by
  unfold accAt
  rw [pb_k0_t1_succ, trip_piece, List.append_assoc, List.singleton_append, readAt_whole_cons, ← View.writes_append]

/-- WHAT THE BODY LEAVES IN ITS OUTPUT BLOCK: the accumulator after all the trips, re-laid as `[8, 256, 512]`. -/
theorem out_eq_acc (c : Dev nD) (i : grid0.Coords) (arg2 : Memref sig .tc .vmem S8x256 .i32) (harg2 : arg2.IsWhole)
    (arg3 : Memref sig .tc .vmem S2048x512 .bf16) (harg3 : arg3.IsWhole) (arg4 : Memref sig .tc .vmem S2048x512 .bf16) (harg4 : arg4.IsWhole)
    (arg5 : Memref sig .tc .vmem S8x256x512 .f32) (harg5 : arg5.IsWhole) (arg6 : Memref sig .tc .vmem S2048x512 .f32) (harg6 : arg6.IsWhole)
    (x0 : Vec F S8x256 .i32) (x1 : Vec F S2048x512 .bf16) (x2 : Vec F S2048x512 .bf16) :
    out0_A_3 (F := F) c i arg2 harg2 arg3 harg3 arg4 harg4 arg5 harg5 arg6 harg6 x0 x1 x2
      = k0_pay3 (accAt c i arg2 harg2 arg3 harg3 arg4 harg4 arg5 harg5 arg6 harg6 x0 (harg3.unread x1) (harg4.unread x2) k0_t1_loop.trips) := by
  unfold out0_A_3
  rw [View.read_writes_eq_canon _ _ _ (cover0_A_3 c i arg2 harg2 arg3 harg3 arg4 harg4 arg5 harg5 arg6 harg6 x0 x1 x2)]
  unfold kernelRun0_A
  dsimp only
  sl_unfold_words
  rw [View.canon_unit_zero zero3]
  have e : View.readAt (Elt F) arg2.view (Rect.unit (s := S8x256) ![0, 0] S8x256.size inb_S8x256_S8x256_0_0).toLoadRect (harg2.unread x0) = x0 := by
    rw [View.readAt_eq_ld, harg2.read_unread, View.ld_unit_zero zero2i]
  rw [e]
  rfl

end Cert.KernelIdeal.BodyValue

end
-- ==== Proof.OneHot.lean ====
/-
  Selecting one row of a table by a sum against a one-hot row.

  Row `r` of the kernel's one-hot matrix for trip `k` has, in column `j` of 256, the number 1 when the id of row `r` less
  `256·k` (computed on 32-bit words) equals `j`, and 0 otherwise.  Summed against any column `h` of 256 extended reals it
  therefore picks `h (id − 256·k)` when the id lies in the trip's range `[256·k, 256·k + 256)` and gives 0 otherwise:
  every other product is `0 · h j = 0` on the extended reals, whatever `h j` is.
-/
import Idealize.ShloMosaic.PureOps.Ideal
import Idealize.ShloMosaic.Lib.ValueIdx
import Idealize.ShloMosaic.Lib.Scf

noncomputable section

namespace Cert.EmbedNorm

open Idealize.ShloMosaic

/-- The one-hot entry: the word comparison `w = j`, widened to 32 bits and read as a signed integer, as an extended
    real. -/
def ohv (w : BitVec 32) (j : Fin 256) : EReal :=
  ((((IntOp.cmpi .eq w (BitVec.ofNat 32 j.val)).setWidth 32).toInt : ℝ) : EReal)

/-- A word equals the word of a column number below 256 exactly when its value is that number. -/
theorem word_eq_iff (w : BitVec 32) (j : Fin 256) : w = BitVec.ofNat 32 j.val ↔ w.toNat = j.val := by
  have hj : j.val % 2 ^ 32 = j.val := Nat.mod_eq_of_lt (by have := j.isLt; omega)
  constructor
  · rintro rfl
    rw [BitVec.toNat_ofNat, hj]
  · intro e
    apply BitVec.eq_of_toNat_eq
    rw [BitVec.toNat_ofNat, hj, e]

/-- The one-hot entry is 1 where the word is the column's and 0 elsewhere. -/
theorem ohv_eq (w : BitVec 32) (j : Fin 256) : ohv w j = if w = BitVec.ofNat 32 j.val then 1 else 0 := by
  unfold ohv
  by_cases hw : w = BitVec.ofNat 32 j.val
  · have hc : IntOp.cmpi .eq w (BitVec.ofNat 32 j.val) = 1#1 := by
      simp only [IntOp.cmpi, hw, beq_self_eq_true]; rfl
    have h1 : ((1#1 : BitVec 1).setWidth 32).toInt = 1 := by decide
    rw [if_pos hw, hc, h1, Int.cast_one, EReal.coe_one]
  · have hc : IntOp.cmpi .eq w (BitVec.ofNat 32 j.val) = 0#1 := by
      have : (w == BitVec.ofNat 32 j.val) = false := by simpa using hw
      simp only [IntOp.cmpi, this]; rfl
    have h0 : ((0#1 : BitVec 1).setWidth 32).toInt = 0 := by decide
    rw [if_neg hw, hc, h0, Int.cast_zero, EReal.coe_zero]

/-- THE SELECTION SUM: against a one-hot row the sum picks the entry the word names, or nothing. -/
theorem sum_ohv (w : BitVec 32) (h : Fin 256 → EReal) :
    ∑ j : Fin 256, ohv w j * h j = if hw : w.toNat < 256 then h ⟨w.toNat, hw⟩ else 0 := by
  split_ifs with hw
  · -- the one column whose number is the word's value contributes `1 · h`; every other column `0 · h j = 0`
    rw [Finset.sum_eq_single (⟨w.toNat, hw⟩ : Fin 256)]
    · rw [ohv_eq, if_pos ((word_eq_iff w ⟨w.toNat, hw⟩).2 rfl), one_mul]
    · intro j _ hj
      rw [ohv_eq, if_neg (fun he => hj (Fin.ext ((word_eq_iff w j).1 he).symm)), zero_mul]
    · intro hn
      exact absurd (Finset.mem_univ _) hn
  · -- no column's number is the word's value: every product is `0 · h j = 0`
    refine Finset.sum_eq_zero fun j _ => ?_
    rw [ohv_eq, if_neg (fun he => hw (by rw [(word_eq_iff w j).1 he]; exact j.isLt)), zero_mul]

/-- The trip's shift as a word: the loop counter `0 + k·1` times 256 is the word `256·k`. -/
theorem shift_word (k : Nat) (hk : k < 8) :
    Scalar.muli (Scf.iv (0#32 : BitVec 32) 1#32 k) 256#32 = BitVec.ofNat 32 (256 * k) := by
  show (0#32 + BitVec.ofNat 32 k * 1#32) * 256#32 = BitVec.ofNat 32 (256 * k)
  apply BitVec.eq_of_toNat_eq
  simp only [BitVec.toNat_mul, BitVec.toNat_add, BitVec.toNat_ofNat]
  omega

/-- An id below 2048 less the word `256·k` is below 256 exactly when the id lies in chunk `k`, and is then the id's
    position in the chunk. -/
theorem sub_chunk (x : BitVec 32) (hx : x.toNat < 2048) (k : Nat) (hk : k < 8) :
    ((x - BitVec.ofNat 32 (256 * k)).toNat < 256 ↔ x.toNat / 256 = k)
      ∧ (x.toNat / 256 = k → (x - BitVec.ofNat 32 (256 * k)).toNat = x.toNat % 256) := by
  -- the word difference is `(2³² − 256·k + x) mod 2³²`: `x − 256·k` when `x ≥ 256·k`, and at least `2³² − 2048` otherwise
  rw [BitVec.toNat_sub, BitVec.toNat_ofNat]
  omega

end Cert.EmbedNorm

end
-- ==== Proof.KBodyMatmul.lean ====
import proofs.«426015_j33715493274183_3_alg».proof.Proof.Gen.KernelIdeal.Frame
import proofs.«426015_j33715493274183_3_alg».proof.Proof.OneHot
import Idealize.ShloMosaic.PureOps.Ideal.Laws
import Idealize.ShloMosaic.Lib.Pipeline.Value
import Idealize.ShloMosaic.Lib.ValueLayout

noncomputable section

namespace Cert.KernelIdeal.BodyValue

open Cert.KernelIdeal Cert.KernelIdeal.Gen Idealize.ShloMosaic Idealize.ShloMosaic.TcCoe Idealize.ShloMosaic.ValueIdx Cert.EmbedNorm

/-- The id of row `r` of the block's 2048 flattened rows: the block's entry `(r / 256, r % 256)`. -/
def idOf (x0 : Vec Ideal S8x256 .i32) (r : Fin 2048) : BitVec 32 :=
  x0 (ix2 (⟨r.val / 256, by have := r.isLt; omega⟩ : Fin 8) (⟨r.val % 256, Nat.mod_lt _ (by norm_num)⟩ : Fin 256))

/-- The left operand's index on its row axis is the result's row. -/
theorem dotLhs_row (j : S2048x512.Idx) (k : dot_S2048x256_S256x512_S2048x512_1_0_0_1_n_n.contr.Idx) :
    (dot_S2048x256_S256x512_S2048x512_1_0_0_1_n_n.lhsIdx j k (0 : Fin S2048x256.rank)).val = (j 0).val := by
  unfold DotDims.lhsIdx
  rw [dif_neg (show ¬(0 : Fin S2048x256.rank) ∈ dot_S2048x256_S256x512_S2048x512_1_0_0_1_n_n.lhsBatch by decide),
    dif_pos (show (0 : Fin S2048x256.rank) ∈ dot_S2048x256_S256x512_S2048x512_1_0_0_1_n_n.lhsNonContracting by decide)]
  rfl

/-- The left operand's index on its column axis is the contracted position. -/
theorem dotLhs_col (j : S2048x512.Idx) (k : dot_S2048x256_S256x512_S2048x512_1_0_0_1_n_n.contr.Idx) :
    (dot_S2048x256_S256x512_S2048x512_1_0_0_1_n_n.lhsIdx j k (1 : Fin S2048x256.rank)).val = (k ⟨0, by decide⟩).val :=
  DotDims.lhsIdx_val_of_single dot_S2048x256_S256x512_S2048x512_1_0_0_1_n_n (cl := (1 : Fin S2048x256.rank)) rfl j k

/-- The right operand's index on its row axis is the contracted position. -/
theorem dotRhs_row (j : S2048x512.Idx) (k : dot_S2048x256_S256x512_S2048x512_1_0_0_1_n_n.contr.Idx) :
    (dot_S2048x256_S256x512_S2048x512_1_0_0_1_n_n.rhsIdx j k (0 : Fin S256x512.rank)).val = (k ⟨0, by decide⟩).val :=
  DotDims.rhsIdx_val_of_single dot_S2048x256_S256x512_S2048x512_1_0_0_1_n_n (cr := (0 : Fin S256x512.rank)) rfl j k

/-- The right operand's index on its column axis is the result's column. -/
theorem dotRhs_col (j : S2048x512.Idx) (k : dot_S2048x256_S256x512_S2048x512_1_0_0_1_n_n.contr.Idx) :
    (dot_S2048x256_S256x512_S2048x512_1_0_0_1_n_n.rhsIdx j k (1 : Fin S256x512.rank)).val = (j 1).val := by
  unfold DotDims.rhsIdx
  rw [dif_neg (show ¬(1 : Fin S256x512.rank) ∈ dot_S2048x256_S256x512_S2048x512_1_0_0_1_n_n.rhsBatch by decide),
    dif_pos (show (1 : Fin S256x512.rank) ∈ dot_S2048x256_S256x512_S2048x512_1_0_0_1_n_n.rhsNonContracting by decide)]
  rfl

/-- The kernel's matrix product into a zero accumulator, read at `(r, d)`: the sum over the 256 contracted positions. -/
theorem matmul_rows (lhs : FVec Ideal S2048x256 .bf16) (rhs : FVec Ideal S256x512 .bf16) (r : Fin 2048) (d : Fin 512) :
    matmul dot_S2048x256_S256x512_S2048x512_1_0_0_1_n_n none lhs rhs (constant (F := Ideal) S2048x512 .f32 0x00000000#32) (ix2 r d)
      = ∑ q : Fin 256, lhs (ix2 r q) * rhs (ix2 q d) := by
  show FloatOps.matmul dot_S2048x256_S256x512_S2048x512_1_0_0_1_n_n none lhs rhs (constant (F := Ideal) S2048x512 .f32 0x00000000#32) (ix2 r d) = _
  rw [Ideal.matmul_constant_zero_apply,
    ← Equiv.sum_comp (contrEquiv1 dot_S2048x256_S256x512_S2048x512_1_0_0_1_n_n 256 rfl rfl).symm]
  refine Finset.sum_congr rfl fun q _ => ?_
  have hk := contrEquiv1_symm_val dot_S2048x256_S256x512_S2048x512_1_0_0_1_n_n 256 rfl rfl q
  have hl : dot_S2048x256_S256x512_S2048x512_1_0_0_1_n_n.lhsIdx (ix2 r d)
      ((contrEquiv1 dot_S2048x256_S256x512_S2048x512_1_0_0_1_n_n 256 rfl rfl).symm q) = ix2 r q := by
    funext ax; apply Fin.ext
    match ax with
    | ⟨0, _⟩ => exact dotLhs_row _ _
    | ⟨1, _⟩ => exact (dotLhs_col _ _).trans hk
  have hr : dot_S2048x256_S256x512_S2048x512_1_0_0_1_n_n.rhsIdx (ix2 r d)
      ((contrEquiv1 dot_S2048x256_S256x512_S2048x512_1_0_0_1_n_n 256 rfl rfl).symm q) = ix2 q d := by
    funext ax; apply Fin.ext
    match ax with
    | ⟨0, _⟩ => exact (dotRhs_row _ _).trans hk
    | ⟨1, _⟩ => exact dotRhs_col _ _
  rw [hl, hr]

/-- The block's ids with a trailing unit axis added, as the kernel lays them out for the comparison: entry `(b, t, 0)` is
    the id at `(b, t)` (the two layouts have the same row-major order). -/
theorem idsColumn_apply (x0 : Vec Ideal S8x256 .i32) (h1 : S8x256.ShapeCasts S8x256) (h2 : S8x256.ShapeCasts S8x256x1)
    (b : Fin 8) (t : Fin 256) (z : Fin 1) :
    (shapeCast S8x256x1 (shapeCast S8x256 x0 h1) h2) (ix3 b t z) = x0 (ix2 b t) := by
  rw [shapeCast_self]
  refine shapeCast_apply _ _ _ _ ?_
  rw [Shape.rowMajor_val_two, Shape.rowMajor_val_three]
  show b.val * 256 + t.val = (b.val * 256 + t.val) * 1 + z.val
  have := z.isLt; omega

/-- THE ONE-HOT MATRIX AT AN ENTRY. Row `r` of the 2048 flattened rows is the block's position `(r / 256, r % 256)`; there
    the kernel compares the id less the shift `s` (the ids' column broadcast along the new axis) with the column number
    (the iota along that axis), widens the bit and converts it: the one-hot entry of `idOf x0 r - s` at column `q`. -/
theorem oneHot_apply (x0 : Vec Ideal S8x256 .i32) (s : BitVec 32)
    (h1 : S8x256.ShapeCasts S8x256) (h2 : S8x256.ShapeCasts S8x256x1) (hb : S8x256x1.Broadcasts S8x256x256)
    (hi : S8x256x256.Iotas .tc 32 [2]) (hn : 1 < 32) (hbits : FTy.bits .bf16 < FTy.bits .f32)
    (h3 : S8x256x256.ShapeCasts S2048x256) (r : Fin 2048) (q : Fin 256) :
    (shapeCast S2048x256 (truncf .bf16 (sitofp (F := Ideal) .f32 (extui 32 (cmpi .eq
        (broadcastTo S8x256x256 (subi (shapeCast S8x256x1 (shapeCast S8x256 x0 h1) h2) (broadcast S8x256x1 s)) hb)
        (iota .tc S8x256x256 32 [2] hi)) hn)) hbits) h3 : FVec Ideal S2048x256 .bf16) (ix2 r q)
      = ohv (idOf x0 r - s) q := by
  have hr := r.isLt
  refine (shapeCast_apply _ h3 (ix2 r q)
    (ix3 (⟨r.val / 256, by omega⟩ : Fin 8) (⟨r.val % 256, Nat.mod_lt _ (by norm_num)⟩ : Fin 256) q) ?_).trans ?_
  · rw [Shape.rowMajor_val_three, Shape.rowMajor_val_two]
    show (r.val / 256 * 256 + r.val % 256) * 256 + q.val = r.val * 256 + q.val
    omega
  · have hA : broadcastTo S8x256x256 (subi (shapeCast S8x256x1 (shapeCast S8x256 x0 h1) h2) (broadcast S8x256x1 s)) hb
          (ix3 (⟨r.val / 256, by omega⟩ : Fin 8) (⟨r.val % 256, Nat.mod_lt _ (by norm_num)⟩ : Fin 256) q)
        = idOf x0 r - s := by
      refine (broadcastTo_apply _ hb _
        (ix3 (⟨r.val / 256, by omega⟩ : Fin 8) (⟨r.val % 256, Nat.mod_lt _ (by norm_num)⟩ : Fin 256) (0 : Fin 1)) ?_).trans ?_
      · intro a
        match a with
        | ⟨0, _⟩ => rfl
        | ⟨1, _⟩ => rfl
        | ⟨2, _⟩ => rfl
      · show (shapeCast S8x256x1 (shapeCast S8x256 x0 h1) h2)
            (ix3 (⟨r.val / 256, by omega⟩ : Fin 8) (⟨r.val % 256, Nat.mod_lt _ (by norm_num)⟩ : Fin 256) (0 : Fin 1)) - s = idOf x0 r - s
        rw [idsColumn_apply]
        rfl
    have hB : iota .tc S8x256x256 32 [2] hi
          (ix3 (⟨r.val / 256, by omega⟩ : Fin 8) (⟨r.val % 256, Nat.mod_lt _ (by norm_num)⟩ : Fin 256) q)
        = BitVec.ofNat 32 q.val := iota_single_apply _ _ _ _ hi _
    show ((((IntOp.cmpi .eq
        (broadcastTo S8x256x256 (subi (shapeCast S8x256x1 (shapeCast S8x256 x0 h1) h2) (broadcast S8x256x1 s)) hb
          (ix3 (⟨r.val / 256, by omega⟩ : Fin 8) (⟨r.val % 256, Nat.mod_lt _ (by norm_num)⟩ : Fin 256) q))
        (iota .tc S8x256x256 32 [2] hi
          (ix3 (⟨r.val / 256, by omega⟩ : Fin 8) (⟨r.val % 256, Nat.mod_lt _ (by norm_num)⟩ : Fin 256) q))).setWidth 32).toInt : ℝ) : EReal) = _
    rw [hA, hB]
    rfl

/-- ONE TRIP'S PAYLOAD read at `(r, d)`: what the accumulator held there, plus the two sums of the one-hot row of `r`
    (the id of `r` less the trip's shift, compared with each column number) against column `d` of the trip's rows of
    each table. -/
theorem pay2_apply (x0 : Vec Ideal S8x256 .i32) (k : Fin k0_t1_loop.trips) (h l : Vec Ideal S256x512 .bf16)
    (acc : Vec Ideal S2048x512 .f32) (r : Fin 2048) (d : Fin 512) :
    k0_pay2 (F := Ideal) x0 k h l acc (ix2 r d)
      = acc (ix2 r d)
        + ((∑ j : Fin 256, ohv (idOf x0 r - Scalar.muli (Scf.iv (0#32 : BitVec 32) 1#32 k.val) 256#32) j * h (ix2 j d))
          + (∑ j : Fin 256, ohv (idOf x0 r - Scalar.muli (Scf.iv (0#32 : BitVec 32) 1#32 k.val) 256#32) j * l (ix2 j d))) := by
  unfold k0_pay2
  dsimp only
  refine (congrFun (shapeCast_self _ _) _).trans ?_
  show acc (ix2 r d) + (matmul (F := Ideal) dot_S2048x256_S256x512_S2048x512_1_0_0_1_n_n none _ _ (constant (F := Ideal) S2048x512 .f32 0x00000000#32) (ix2 r d)
      + matmul (F := Ideal) dot_S2048x256_S256x512_S2048x512_1_0_0_1_n_n none _ _ (constant (F := Ideal) S2048x512 .f32 0x00000000#32) (ix2 r d)) = _
  rw [matmul_rows, matmul_rows]
  congr 1
  congr 1
  · refine Finset.sum_congr rfl fun q _ => ?_
    rw [oneHot_apply, shapeCast_self]
  · refine Finset.sum_congr rfl fun q _ => ?_
    rw [oneHot_apply, shapeCast_self]

end Cert.KernelIdeal.BodyValue

end
-- ==== Proof.KBodyLayout.lean ====
import proofs.«426015_j33715493274183_3_alg».proof.Proof.Gen.KernelIdeal.Frame
import proofs.«426015_j33715493274183_3_alg».proof.Proof.OneHot
import Idealize.ShloMosaic.PureOps.Ideal.Laws
import Idealize.ShloMosaic.Lib.Pipeline.Value
import Idealize.ShloMosaic.Lib.ValueLayout

noncomputable section

namespace Cert.KernelIdeal.BodyValue

open Cert.KernelIdeal Cert.KernelIdeal.Gen Idealize.ShloMosaic Idealize.ShloMosaic.TcCoe Idealize.ShloMosaic.ValueIdx Cert.EmbedNorm

/-- The body's first store writes zeros. -/
theorem pay1_apply (j : S2048x512.Idx) : k0_pay1 (F := Ideal) j = 0 := by
  unfold k0_pay1
  -- a cast to the same shape reads the operand at the same index, and the operand is the zero word everywhere
  refine (shapeCast_apply _ _ j j rfl).trans ?_
  exact Ideal.ofBits_zero_f32

/-- The body's last payload re-lays the accumulator `[2048, 512]` as `[8, 256, 512]`: entry `(b, t, d)` is the
    accumulator's `(256·b + t, d)`. -/
theorem pay3_apply (a : Vec Ideal S2048x512 .f32) (b : Fin 8) (t : Fin 256) (d : Fin 512) :
    k0_pay3 (F := Ideal) a (ix3 b t d)
      = a (ix2 (⟨b.val * 256 + t.val, by have := b.isLt; have := t.isLt; omega⟩ : Fin 2048) d) := by
  unfold k0_pay3
  -- both indices have row-major position `(256·b + t)·512 + d`
  refine shapeCast_apply _ _ _ _ ?_
  rw [Shape.rowMajor_val_two, Shape.rowMajor_val_three]
  rfl

/-- The trip's 256 rows of a table, loaded through the trip's rectangle: entry `(j, d)` is the table's `(256·k + j, d)`. -/
theorem chunk_apply (x : Vec Ideal S2048x512 .bf16) (k : Fin k0_t1_loop.trips) (j : Fin 256) (d : Fin 512) :
    View.ld x (Rect.unit (s := S2048x512) (k0_off1 k) S256x512.size (k0_off1_inb k)) (ix2 j d)
      = x (ix2 (⟨256 * k.val + j.val, by have := j.isLt; have := Nat.lt_of_lt_of_le k.isLt k0_t1_abs.2.1; omega⟩ : Fin 2048) d) := by
  -- a coordinate of the rectangle's index is the offset `(256·k, 0)` plus the coordinate inside
  refine congrArg x (funext fun a => Fin.ext ?_)
  have hoff := k0_off1_eq k
  match a with
  | ⟨0, _⟩ =>
    show k0_off1 k 0 + 1 * j.val = 256 * k.val + j.val
    rw [hoff]
    show 256 * k.val + 1 * j.val = 256 * k.val + j.val
    omega
  | ⟨1, _⟩ =>
    show k0_off1 k 1 + 1 * d.val = d.val
    rw [hoff]
    show 0 + 1 * d.val = d.val
    omega

/-- The loop makes eight trips. -/
theorem trips_eq : k0_t1_loop.trips = 8 := by
  decide

end Cert.KernelIdeal.BodyValue

end
-- ==== Proof.Spec.lean ====
/-
  The function both programs compute, stated once, index by index.

  A token id `v` in `[0, 2048)` has a TYPE, the number of the thresholds 128, 256, 512, 1024 it has reached (a value in
  `[0, 4]`).  Its COMBINED ROW has 512 entries: the 504 entries of row `v` of the token table followed by the 8 entries
  of the row of the type table that its type names.  The row is then NORMALISED: with `μ` the mean of the 512 entries and
  `σ²` the mean of the squared deviations from the mean, entry `d` becomes `((row d − μ) · rsqrt(σ² + ε) · γ d + β d) · s`
  with `ε` and `s` two fixed single-precision constants (kept as their bit patterns: both programs carry the same
  words).  The RESULT at `(b, t, d)` is entry `d` of the normalised combined row of the id `x[b, t]`.
-/
import Idealize.ShloMosaic.PureOps.Ideal
import Idealize.ShloMosaic.Lib.ValueIdx

noncomputable section

namespace Cert.EmbedNorm

open Idealize.ShloMosaic Idealize.ShloMosaic.ValueIdx

/-- ids `[16, 4096]` -/
abbrev SIds : Shape := ⟨2, ![16, 4096]⟩
/-- token table `[2048, 504]` -/
abbrev STok : Shape := ⟨2, ![2048, 504]⟩
/-- type table `[5, 8]` -/
abbrev STyp : Shape := ⟨2, ![5, 8]⟩
/-- scale and shift `[512]` -/
abbrev SVec : Shape := ⟨1, ![512]⟩
/-- the per-id table of normalised rows `[2048, 512]` -/
abbrev STab : Shape := ⟨2, ![2048, 512]⟩
/-- the result `[16, 4096, 512]` -/
abbrev SOut : Shape := ⟨3, ![16, 4096, 512]⟩

/-- The type of the id `v`: how many of the thresholds 128, 256, 512, 1024 it has reached. -/
def typeOf (v : Nat) : Fin 5 :=
  ⟨(if 128 ≤ v then 1 else 0) + (if 256 ≤ v then 1 else 0) + (if 512 ≤ v then 1 else 0) + (if 1024 ≤ v then 1 else 0), by
    split_ifs <;> omega⟩

/-- The combined row of the id `v`: its token row, then the row of the type table its type names. -/
def combRow (tok : STok.Idx → EReal) (typ : STyp.Idx → EReal) (v : Fin 2048) (d : Fin 512) : EReal :=
  if h : d.val < 504 then tok (ix2 v (⟨d.val, h⟩ : Fin 504))
  else typ (ix2 (typeOf v.val) (⟨d.val - 504, by have := d.isLt; omega⟩ : Fin 8))

/-- The constants, as the extended reals their single-precision words denote. -/
def zeroC : EReal := Ideal.ofBits .f32 0x00000000#32
def countC : EReal := Ideal.ofBits .f32 0x44000000#32
def epsC : EReal := Ideal.ofBits .f32 0x3727C5AC#32
def scaleC : EReal := Ideal.ofBits .f32 0x41B504F3#32
def nanC : EReal := Ideal.ofBits .f32 0x7FC00000#32

/-- The mean of a row of 512 entries: the sum from zero, divided by the count. -/
def rowMean (row : Fin 512 → EReal) : EReal := Ideal.div (zeroC + ∑ k : Fin 512, row k) countC

/-- The variance of a row: the mean of the squared deviations from the mean, the divisor being the count less a
    correction of zero (and the quotient taken only when that divisor is positive, as it is). -/
def rowVar (row : Fin 512 → EReal) : EReal :=
  Scalar.select (Ideal.cmp .ogt (countC - (((0#32 : BitVec 32).toInt : ℝ) : EReal)) zeroC)
    (Ideal.div (zeroC + ∑ k : Fin 512, (row k - rowMean row) * (row k - rowMean row))
      (countC - (((0#32 : BitVec 32).toInt : ℝ) : EReal)))
    nanC

/-- A normalised row, entry by entry. -/
def rowNorm (γ β : SVec.Idx → EReal) (row : Fin 512 → EReal) (d : Fin 512) : EReal :=
  ((row d - rowMean row) * Ideal.rsqrt (rowVar row + epsC) * γ (ix1 d) + β (ix1 d)) * scaleC

/-- An extended real that is a real number. -/
def IsReal (a : EReal) : Prop := ∃ r : ℝ, a = (r : EReal)

/-- The id a 32-bit word names (the word's value, for a word below 2048). -/
def vocabOf (w : BitVec 32) : Fin 2048 := ⟨w.toNat % 2048, Nat.mod_lt _ (by norm_num)⟩

/-- Every id lies in `[0, 2048)`. -/
def InRange (x : SIds.Idx → BitVec 32) : Prop := ∀ i, (x i).toNat < 2048

/-- The table of normalised rows, one per id. -/
def table (tok : STok.Idx → EReal) (typ : STyp.Idx → EReal) (γ β : SVec.Idx → EReal) : STab.Idx → EReal :=
  fun i => rowNorm γ β (combRow tok typ (i 0)) (i 1)

/-- What the kernel's region leaves: at `(b, t, d)`, entry `(x[b, t], d)` of the first table plus the same entry of the second. -/
def pickRows {n0 n1 : Nat} (x : (⟨2, ![n0, n1]⟩ : Shape).Idx → BitVec 32) (hi lo : STab.Idx → EReal) :
    (⟨3, ![n0, n1, 512]⟩ : Shape).Idx → EReal :=
  fun i => hi (ix2 (vocabOf (x (ix2 (i 0) (i 1)))) (i 2)) + lo (ix2 (vocabOf (x (ix2 (i 0) (i 1)))) (i 2))

/-- The result: at `(b, t, d)`, entry `d` of the normalised combined row of the id `x[b, t]`. -/
def result (x : SIds.Idx → BitVec 32) (tok : STok.Idx → EReal) (typ : STyp.Idx → EReal) (γ β : SVec.Idx → EReal) :
    SOut.Idx → EReal :=
  fun i => rowNorm γ β (combRow tok typ (vocabOf (x (ix2 (i 0) (i 1))))) (i 2)

end Cert.EmbedNorm

end
-- ==== Proof.KBody.lean ====
import proofs.«426015_j33715493274183_3_alg».proof.Proof.KBodyRun
import proofs.«426015_j33715493274183_3_alg».proof.Proof.KBodyMatmul
import proofs.«426015_j33715493274183_3_alg».proof.Proof.KBodyLayout
import proofs.«426015_j33715493274183_3_alg».proof.Proof.Spec

noncomputable section

namespace Cert.KernelIdeal.BodyValue

open Cert.KernelIdeal Cert.KernelIdeal.Gen Idealize.ShloMosaic Idealize.ShloMosaic.TcCoe Idealize.ShloMosaic.ValueIdx Cert.EmbedNorm

/-- THE ACCUMULATOR AFTER `k` TRIPS, in closed form, for ids below 2048: row `r` holds the sum of the two tables' rows
    named by the id of `r` once the trip whose chunk holds that id has run, and zero before. -/
theorem acc_closed (c : Dev nD) (i : grid0.Coords) (arg2 : Memref sig .tc .vmem S8x256 .i32) (harg2 : arg2.IsWhole)
    (arg3 : Memref sig .tc .vmem S2048x512 .bf16) (harg3 : arg3.IsWhole) (arg4 : Memref sig .tc .vmem S2048x512 .bf16) (harg4 : arg4.IsWhole)
    (arg5 : Memref sig .tc .vmem S8x256x512 .f32) (harg5 : arg5.IsWhole) (arg6 : Memref sig .tc .vmem S2048x512 .f32) (harg6 : arg6.IsWhole)
    (x0 : Vec Ideal S8x256 .i32) (x1 : Vec Ideal S2048x512 .bf16) (x2 : Vec Ideal S2048x512 .bf16)
    (hx : ∀ j, (x0 j).toNat < 2048) :
    ∀ k, k ≤ 8 → ∀ (r : Fin 2048) (d : Fin 512),
      accAt (F := Ideal) c i arg2 harg2 arg3 harg3 arg4 harg4 arg5 harg5 arg6 harg6 x0 (harg3.unread x1) (harg4.unread x2) k (ix2 r d)
        = if (idOf x0 r).toNat / 256 < k then
            x1 (ix2 (vocabOf (idOf x0 r)) d) + x2 (ix2 (vocabOf (idOf x0 r)) d)
          else 0 := by
  intro k
  induction k with
  | zero =>
    intro _ r d
    rw [accAt_zero, pay1_apply, if_neg (Nat.not_lt_zero _)]
  | succ k ih =>
    intro hk r d
    have hk8 : k < 8 := by omega
    have hkt : k < k0_t1_loop.trips := by rw [trips_eq]; exact hk8
    have hs : accAt (F := Ideal) c i arg2 harg2 arg3 harg3 arg4 harg4 arg5 harg5 arg6 harg6 x0 (harg3.unread x1) (harg4.unread x2) (k + 1) = _ :=
      accAt_succ c i arg2 harg2 arg3 harg3 arg4 harg4 arg5 harg5 arg6 harg6 x0 (harg3.unread x1) (harg4.unread x2) ⟨k, hkt⟩
    rw [hs, pay2_apply, ih (by omega) r d]
    simp only [View.readAt_eq_ld, harg3.read_unread, harg4.read_unread]
    rw [sum_ohv, sum_ohv, shift_word k hk8]
    have hxr : (idOf x0 r).toNat < 2048 := hx _
    obtain ⟨h1, h2⟩ := sub_chunk (idOf x0 r) hxr k hk8
    have hv : ∀ (e : (idOf x0 r).toNat / 256 = k) (hw : (idOf x0 r - BitVec.ofNat 32 (256 * k)).toNat < 256),
        (⟨256 * k + (⟨(idOf x0 r - BitVec.ofNat 32 (256 * k)).toNat, hw⟩ : Fin 256).val,
          by omega⟩ : Fin 2048) = vocabOf (idOf x0 r) := by
      intro e hw
      refine Fin.ext ?_
      show 256 * k + (idOf x0 r - BitVec.ofNat 32 (256 * k)).toNat = (idOf x0 r).toNat % 2048
      rw [h2 e]; omega
    by_cases hlt : (idOf x0 r).toNat / 256 < k
    · have hne : ¬ (idOf x0 r).toNat / 256 = k := by omega
      have hw : ¬ (idOf x0 r - BitVec.ofNat 32 (256 * k)).toNat < 256 := fun h => hne (h1.mp h)
      rw [if_pos hlt, dif_neg hw, dif_neg hw, if_pos (by omega), add_zero, add_zero]
    · by_cases heq : (idOf x0 r).toNat / 256 = k
      · have hw : (idOf x0 r - BitVec.ofNat 32 (256 * k)).toNat < 256 := h1.mpr heq
        rw [if_neg hlt, dif_pos hw, dif_pos hw, if_pos (by omega), zero_add]
        refine (congrArg₂ (· + ·) (chunk_apply x1 ⟨k, hkt⟩ ⟨_, hw⟩ d) (chunk_apply x2 ⟨k, hkt⟩ ⟨_, hw⟩ d)).trans ?_
        rw [hv heq hw]
      · have hw : ¬ (idOf x0 r - BitVec.ofNat 32 (256 * k)).toNat < 256 := fun h => heq (h1.mp h)
        rw [if_neg hlt, dif_neg hw, dif_neg hw, if_neg (by omega), add_zero, add_zero]

/-- What one grid point's body leaves in its output block, for a block of ids in range: at `(b, t, d)` the entry
    `(x[b, t], d)` of the first table plus the same entry of the second. -/
theorem out_block (c : Dev nD) (i : grid0.Coords) (arg2 : Memref sig .tc .vmem S8x256 .i32) (harg2 : arg2.IsWhole)
    (arg3 : Memref sig .tc .vmem S2048x512 .bf16) (harg3 : arg3.IsWhole) (arg4 : Memref sig .tc .vmem S2048x512 .bf16) (harg4 : arg4.IsWhole)
    (arg5 : Memref sig .tc .vmem S8x256x512 .f32) (harg5 : arg5.IsWhole) (arg6 : Memref sig .tc .vmem S2048x512 .f32) (harg6 : arg6.IsWhole)
    (x0 : Vec Ideal S8x256 .i32) (x1 : Vec Ideal S2048x512 .bf16) (x2 : Vec Ideal S2048x512 .bf16)
    (hx : ∀ j, (x0 j).toNat < 2048) :
    out0_A_3 (F := Ideal) c i arg2 harg2 arg3 harg3 arg4 harg4 arg5 harg5 arg6 harg6 x0 x1 x2 = pickRows x0 x1 x2 := by
  rw [out_eq_acc]
  funext y
  obtain ⟨b, t, d, rfl⟩ : ∃ (b : Fin 8) (t : Fin 256) (d : Fin 512), y = ix3 b t d := ⟨y 0, y 1, y 2, eq_ix3 y⟩
  rw [pay3_apply, trips_eq, acc_closed c i arg2 harg2 arg3 harg3 arg4 harg4 arg5 harg5 arg6 harg6 x0 x1 x2 hx 8 (Nat.le_refl _)]
  have hid : idOf x0 (⟨b.val * 256 + t.val, by have := b.isLt; have := t.isLt; omega⟩ : Fin 2048) = x0 (ix2 b t) := by
    unfold idOf
    congr 1
    have hb := b.isLt; have ht := t.isLt
    refine congrArg₂ ix2 (Fin.ext ?_) (Fin.ext ?_)
    · show (b.val * 256 + t.val) / 256 = b.val; omega
    · show (b.val * 256 + t.val) % 256 = t.val; omega
  rw [hid, if_pos (by have := hx (ix2 b t); omega)]
  rfl

end Cert.KernelIdeal.BodyValue

end
-- ==== Proof.KernelBlocks.lean ====
import proofs.«426015_j33715493274183_3_alg».proof.Proof.Gen.KernelIdeal.Value
import proofs.«426015_j33715493274183_3_alg».proof.Proof.KBody

noncomputable section

namespace Cert.KernelIdeal.BlockValue

open Cert.KernelIdeal Cert.KernelIdeal.Gen Cert.KernelIdeal.Value Idealize.ShloMosaic Idealize.ShloMosaic.TcCoe Idealize.SL.Sem Idealize.ShloMosaic.ValueIdx Cert.EmbedNorm
open Idealize.ShloMosaic.Pipeline (Dat)

variable (m : (ℓ : Loc nD τ sig) → Buf (Elt Ideal) ℓ) (ρ : Dev nD → PrngReg)

/-- The printed index maps over the 2 × 16 grid, decided once: the ids window moves with the output window on the two
    leading axes; both tables are fetched whole, at block index (0, 0); the output's block index on the last axis is 0;
    and the output's two leading block indices stay inside 2 × 16. -/
theorem idx_facts : ∀ t : Fin cfg0.N,
    win0_0.index t (0 : Fin 2) = win0_3.index t (0 : Fin 3)
    ∧ win0_0.index t (1 : Fin 2) = win0_3.index t (1 : Fin 3)
    ∧ win0_1.index t (0 : Fin 2) = 0 ∧ win0_1.index t (1 : Fin 2) = 0
    ∧ win0_2.index t (0 : Fin 2) = 0 ∧ win0_2.index t (1 : Fin 2) = 0
    ∧ win0_3.index t (2 : Fin 3) = 0
    ∧ win0_3.index t (0 : Fin 3) ≤ 1 ∧ win0_3.index t (1 : Fin 3) ≤ 15 :=
  (by decide +kernel : ∀ t : Fin grid0.N, _)

/-- Every block of the 2 × 16 × 1 box of output blocks is some grid point's. -/
theorem idx_onto : ∀ (q0 : Fin 2) (q1 : Fin 16), ∃ t : Fin cfg0.N, win0_3.index t = ![q0.val, q1.val, 0] :=
  (by decide +kernel : ∀ (q0 : Fin 2) (q1 : Fin 16), ∃ t : Fin grid0.N, win0_3.index t = ![q0.val, q1.val, 0])

/-- The first table's block at any point is the table itself: the block is the whole array at block index (0, 0). -/
theorem hi_whole (c : Dev nD) (t : Fin cfg0.N) : (iblk m c 1 t : Vec Ideal S2048x512 .bf16) = V m c main_v45 := by
  obtain ⟨-, -, e0, e1, -⟩ := idx_facts t
  funext r
  unfold iblk
  rw [View.read_apply]
  show V m c main_v45 (((cfg0.win 1).blk t).view.emb r) = V m c main_v45 r
  congr 1
  funext a; apply Fin.ext
  match a with
  | ⟨0, _⟩ => show win0_1.index t (0 : Fin 2) * 2048 + 1 * (r 0).val = (r 0).val; omega
  | ⟨1, _⟩ => show win0_1.index t (1 : Fin 2) * 512 + 1 * (r 1).val = (r 1).val; omega

/-- The second table's block at any point is the table itself. -/
theorem lo_whole (c : Dev nD) (t : Fin cfg0.N) : (iblk m c 2 t : Vec Ideal S2048x512 .bf16) = V m c main_v48 := by
  obtain ⟨-, -, -, -, e0, e1, -⟩ := idx_facts t
  funext r
  unfold iblk
  rw [View.read_apply]
  show V m c main_v48 (((cfg0.win 2).blk t).view.emb r) = V m c main_v48 r
  congr 1
  funext a; apply Fin.ext
  match a with
  | ⟨0, _⟩ => show win0_2.index t (0 : Fin 2) * 2048 + 1 * (r 0).val = (r 0).val; omega
  | ⟨1, _⟩ => show win0_2.index t (1 : Fin 2) * 512 + 1 * (r 1).val = (r 1).val; omega

/-- The ids block at point `t`, read at `y` inside the block, is the ids array at any index `k` whose coordinates are
    block index × block size + the coordinates of `y`. -/
theorem ids_block (c : Dev nD) (t : Fin cfg0.N) (y : S8x256.Idx) (k : S16x4096.Idx)
    (hk0 : (k 0).val = win0_0.index t (0 : Fin 2) * 8 + (y 0).val)
    (hk1 : (k 1).val = win0_0.index t (1 : Fin 2) * 256 + (y 1).val) :
    (iblk m c 0 t : Vec Ideal S8x256 .i32) y = V m c main_v0 k := by
  unfold iblk
  rw [View.read_apply]
  show V m c main_v0 (((cfg0.win 0).blk t).view.emb y) = V m c main_v0 k
  congr 1
  funext a; apply Fin.ext
  match a with
  | ⟨0, _⟩ => show win0_0.index t (0 : Fin 2) * 8 + 1 * (y 0).val = (k 0).val; omega
  | ⟨1, _⟩ => show win0_0.index t (1 : Fin 2) * 256 + 1 * (y 1).val = (k 1).val; omega

/-- Picking rows through a block of ids, at `y` inside the block, is picking rows through the ids array at the array
    index `k` the block's `y` sits at: the id is the same one and the entry within the row is the same. -/
theorem pick_at (x0 : S8x256.Idx → BitVec 32) (X : S16x4096.Idx → BitVec 32) (H L : S2048x512.Idx → EReal)
    (y : S8x256x512.Idx) (k : S16x4096x512.Idx)
    (hid : x0 (ix2 (y 0) (y 1)) = X (ix2 (k 0) (k 1))) (hd : (y 2).val = (k 2).val) :
    pickRows x0 H L y = pickRows X H L k := by
  have hd' : (y 2 : Fin 512) = k 2 := Fin.ext hd
  show H (ix2 (vocabOf (x0 (ix2 (y 0) (y 1)))) (y 2)) + L (ix2 (vocabOf (x0 (ix2 (y 0) (y 1)))) (y 2))
    = H (ix2 (vocabOf (X (ix2 (k 0) (k 1)))) (k 2)) + L (ix2 (vocabOf (X (ix2 (k 0) (k 1)))) (k 2))
  rw [hid, hd']

/-- WHAT POINT `t` WRITES BACK, for ids in range: block `t` of the rows picked through the whole ids array from the two
    whole tables. -/
theorem flushed_eq (c : Dev nD) (hx : InRange (V m c main_v0)) (t : Fin cfg0.N) :
    (dats m 0 c).flushed 3 t
      = ((cfg0.win 3).blk t).view.read (Elt Ideal) (pickRows (V m c main_v0) (V m c main_v45) (V m c main_v48)) := by
  have hb : ∀ j, ((iblk m c 0 t : Vec Ideal S8x256 .i32) j).toNat < 2048 := fun j => by
    unfold iblk; rw [View.read_apply]; exact hx _
  rw [flushed3_A, BodyValue.out_block c _ _ _ _ _ _ _ _ _ _ _ _ _ _ hb, hi_whole, lo_whole]
  obtain ⟨e0, e1, -, -, -, -, e2, -, -⟩ := idx_facts t
  funext y
  rw [View.read_apply]
  show pickRows (iblk m c 0 t) (V m c main_v45) (V m c main_v48) y
    = pickRows (V m c main_v0) (V m c main_v45) (V m c main_v48) (((cfg0.win 3).blk t).view.emb y)
  refine pick_at _ _ _ _ y _ (ids_block m c t _ _ ?_ ?_) ?_
  · show win0_3.index t (0 : Fin 3) * 8 + 1 * (y 0).val = win0_0.index t (0 : Fin 2) * 8 + (y 0).val; omega
  · show win0_3.index t (1 : Fin 3) * 256 + 1 * (y 1).val = win0_0.index t (1 : Fin 2) * 256 + (y 1).val; omega
  · show (y 2).val = win0_3.index t (2 : Fin 3) * 512 + 1 * (y 2).val; omega

/-- An index of the output array is in point `t`'s block iff each coordinate is in the block's range on its axis. -/
theorem mem_blk (t : Fin cfg0.N) (i : S16x4096x512.Idx) :
    i ∈ ((cfg0.win 3).blk t).view.set ↔ ∀ a : Fin 3, win0_3.index t a * S8x256x512.size a ≤ (i a).val ∧ (i a).val < win0_3.index t a * S8x256x512.size a + S8x256x512.size a := by
  show i ∈ ((View.whole main_v49).slice (win0_3.rect t)).set ↔ _
  rw [View.set_slice_whole, Rect.mem_set_unit]
  exact Iff.rfl

/-- THE BLOCKS COVER THE ARRAY: `(b, s, d)` is in the block of the point whose block index is `(b / 8, s / 256, 0)`. -/
theorem covered (i : S16x4096x512.Idx) :
    ∃ t : Fin cfg0.N, (cfg0.win 3).flush t = true ∧ i ∈ ((cfg0.win 3).blk t).view.set := by
  have hi0 : (i 0).val < 16 := (i 0).isLt
  have hi1 : (i 1).val < 4096 := (i 1).isLt
  have hi2 : (i 2).val < 512 := (i 2).isLt
  obtain ⟨t, ht⟩ := idx_onto ⟨(i 0).val / 8, by omega⟩ ⟨(i 1).val / 256, by omega⟩
  have q0 : win0_3.index t (0 : Fin 3) = (i 0).val / 8 := congrFun ht 0
  have q1 : win0_3.index t (1 : Fin 3) = (i 1).val / 256 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 8 ≤ (i 0).val ∧ (i 0).val < win0_3.index t (0 : Fin 3) * 8 + 8; omega
  | ⟨1, _⟩ => show win0_3.index t (1 : Fin 3) * 256 ≤ (i 1).val ∧ (i 1).val < win0_3.index t (1 : Fin 3) * 256 + 256; omega
  | ⟨2, _⟩ => show win0_3.index t (2 : Fin 3) * 512 ≤ (i 2).val ∧ (i 2).val < win0_3.index t (2 : Fin 3) * 512 + 512; omega

/-- The output array after the region, for ids in range at region entry: at `(b, t, d)` the entry `(x[b, t], d)` of the
    first table operand plus the same entry of the second, `x` the ids operand. -/
theorem final (c : Dev nD) (hx : InRange (V m c main_v0)) :
    (dats m 0 c).arrAt 3 cfg0.N = pickRows (V m c main_v0) (V m c main_v45) (V m c main_v48) :=
  (dats m 0 c).arrAt_eq_of_cover 3 (pickRows (V m c main_v0) (V m c main_v45) (V m c main_v48))
    (fun t _ => flushed_eq m c hx t) covered

end Cert.KernelIdeal.BlockValue

end
-- ==== Proof.KTerm.lean ====
/-
  The arrays the kernel's region is entered with, each as one function of the program's arguments, written operation
  by operation in the order the host performs them: the ids CLIPPED into `[0, 2047]`; the TABLE of 2048 normalised
  rows, one per id (the id's row of the token table, then the row of the type table named by how many of the
  thresholds 128, 256, 512, 1024 the id has reached; then mean, variance about the mean, reciprocal square root, scale,
  shift and a final constant factor); and the table's two halves — the table narrowed to the short format, and what
  is left of the table after that narrowed copy is subtracted, narrowed again.
-/
import proofs.«426015_j33715493274183_3_alg».proof.Proof.Gen.KernelIdeal

noncomputable section

namespace Cert.KernelIdeal.HostValue

open Cert.KernelIdeal Cert.KernelIdeal.Gen Idealize.ShloMosaic

variable {F : FTy → Type} [FloatOps F]

/-- The ids clipped into `[0, 2047]`: first raised to at least 0, then lowered to at most 2047. -/
def clipTerm (x : IVec S16x4096 32) : IVec S16x4096 32 :=
  let w1 : IVec S16x4096 32 := broadcastInDim S16x4096 ![] bcast_S_S16x4096 (id (constantI S_ 32 0#32))
  let w2 : IVec S16x4096 32 := maxsi w1 x
  let w4 : IVec S16x4096 32 := broadcastInDim S16x4096 ![] bcast_S_S16x4096 (id (constantI S_ 32 2047#32))
  minsi w4 w2

/-- The type index of every id `0 … 2047`: how many of the four thresholds it has reached. -/
def typeIdxTerm : IVec S2048 32 :=
  let v1 : IVec S2048 32 := iotaInDim S2048 32 0
  let v3 : IVec S2048 1 := cmpi .sge v1 (broadcastInDim S2048 ![] bcast_S_S2048 (constantI S_ 32 128#32))
  let v4 : IVec S2048 32 := extui 32 v3 natLt_1_32
  let v6 : IVec S2048 1 := cmpi .sge v1 (broadcastInDim S2048 ![] bcast_S_S2048 (constantI S_ 32 256#32))
  let v7 : IVec S2048 32 := extui 32 v6 natLt_1_32
  let v9 : IVec S2048 1 := cmpi .sge v1 (broadcastInDim S2048 ![] bcast_S_S2048 (constantI S_ 32 512#32))
  let v10 : IVec S2048 32 := extui 32 v9 natLt_1_32
  let v12 : IVec S2048 1 := cmpi .sge v1 (broadcastInDim S2048 ![] bcast_S_S2048 (constantI S_ 32 1024#32))
  let v13 : IVec S2048 32 := extui 32 v12 natLt_1_32
  let v14 : IVec S2048 32 := addi v4 v7
  let v15 : IVec S2048 32 := addi v14 v10
  let v16 : IVec S2048 32 := addi v15 v13
  let v17 : IVec S2048 32 := broadcastInDim S2048 ![] bcast_S_S2048 (constantI S_ 32 0#32)
  let v18 : IVec S2048 1 := cmpi .slt v16 v17
  let v19 : IVec S2048 32 := broadcastInDim S2048 ![] bcast_S_S2048 (constantI S_ 32 5#32)
  let v20 : IVec S2048 32 := addi v16 v19
  select v18 v20 v16

/-- The combined rows `[2048, 512]`: the token table, then the gathered type rows. -/
def combTerm (tok : FVec F S2048x504 .f32) (typ : FVec F S5x8 .f32) : FVec F S2048x512 .f32 :=
  let v22 : IVec S2048x1 32 := broadcastInDim S2048x1 ![0] bcast_S2048_S2048x1_0 typeIdxTerm
  let v23 : FVec F S2048x8 .f32 := Host.gather gather_S5x8_S2048x1_S2048x8_1_0_n_n_0_1_18 typ v22
  concatenate S2048x512 1 [⟨S2048x504, tok⟩, ⟨S2048x8, v23⟩] concatenates_S2048x504_S2048x8_S2048x512_d1

/-- The variance of every row about its own mean, as a column `[2048, 1]`. -/
def varTerm (comb : FVec F S2048x512 .f32) : FVec F S2048x1 .f32 :=
  let cst : FVec F S_ .f32 := constant S_ .f32 0x00000000#32
  let v0 : FVec F S2048 .f32 := Host.reduceAdd comb cst reducesTo_S2048x512_S2048_d1 h_S_
  let v1 : FVec F S2048x1 .f32 := broadcastInDim S2048x1 ![0] bcast_S2048_S2048x1_0 v0
  let v2 : FVec F S2048x1 .f32 := broadcastInDim S2048x1 ![] bcast_S_S2048x1 (constant S_ .f32 0x44000000#32)
  let v3 : FVec F S2048x1 .f32 := Host.divf v1 v2
  let v4 : FVec F S2048x512 .f32 := broadcastInDim S2048x512 ![0, 1] bcast_S2048x1_S2048x512_0_1 v3
  let v5 : FVec F S2048x512 .f32 := subf comb v4
  let v6 : FVec F S2048x512 .f32 := mulf v5 v5
  let v7 : FVec F S_ .f32 := sitofp .f32 (constantI S_ 32 0#32)
  let v8 : FVec F S_ .f32 := subf (constant S_ .f32 0x44000000#32) v7
  let v9 : FVec F S2048 .f32 := Host.reduceAdd v6 (constant S_ .f32 0x00000000#32) reducesTo_S2048x512_S2048_d1 h_S_
  let v10 : FVec F S2048x1 .f32 := broadcastInDim S2048x1 ![0] bcast_S2048_S2048x1_0 v9
  let v11 : FVec F S2048x1 .f32 := broadcastInDim S2048x1 ![] bcast_S_S2048x1 v8
  let v12 : FVec F S2048x1 .f32 := Host.divf v10 v11
  let v13 : IVec S_ 1 := cmpf .ogt v8 (constant S_ .f32 0x00000000#32)
  let w1 : FVec F S2048x1 .f32 := broadcastInDim S2048x1 ![] bcast_S_S2048x1 (id (constant S_ .f32 0x7FC00000#32))
  select (broadcastInDim S2048x1 ![] bcast_S_S2048x1 v13) v12 w1

/-- The normalisation of every row of `comb`. -/
def normTerm (comb : FVec F S2048x512 .f32) (γ β : FVec F S512 .f32) : FVec F S2048x512 .f32 :=
  let v25 : FVec F S2048 .f32 := Host.reduceAdd comb (constant S_ .f32 0x00000000#32) reducesTo_S2048x512_S2048_d1 h_S_
  let v26 : FVec F S2048x1 .f32 := broadcastInDim S2048x1 ![0] bcast_S2048_S2048x1_0 v25
  let v27 : FVec F S2048x1 .f32 := broadcastInDim S2048x1 ![] bcast_S_S2048x1 (constant S_ .f32 0x44000000#32)
  let v28 : FVec F S2048x1 .f32 := Host.divf v26 v27
  let v29 : FVec F S2048x1 .f32 := varTerm comb
  let v30 : FVec F S2048x512 .f32 := broadcastInDim S2048x512 ![0, 1] bcast_S2048x1_S2048x512_0_1 v28
  let v31 : FVec F S2048x512 .f32 := subf comb v30
  let v32 : FVec F S2048x1 .f32 := broadcastInDim S2048x1 ![] bcast_S_S2048x1 (constant S_ .f32 0x3727C5AC#32)
  let v33 : FVec F S2048x1 .f32 := addf v29 v32
  let v34 : FVec F S2048x1 .f32 := Host.rsqrt v33
  let v35 : FVec F S2048x512 .f32 := broadcastInDim S2048x512 ![0, 1] bcast_S2048x1_S2048x512_0_1 v34
  let v36 : FVec F S2048x512 .f32 := mulf v31 v35
  let v37 : FVec F S1x512 .f32 := broadcastInDim S1x512 ![1] bcast_S512_S1x512_1 γ
  let v38 : FVec F S2048x512 .f32 := broadcastInDim S2048x512 ![0, 1] bcast_S1x512_S2048x512_0_1 v37
  let v39 : FVec F S2048x512 .f32 := mulf v36 v38
  let v40 : FVec F S1x512 .f32 := broadcastInDim S1x512 ![1] bcast_S512_S1x512_1 β
  let v41 : FVec F S2048x512 .f32 := broadcastInDim S2048x512 ![0, 1] bcast_S1x512_S2048x512_0_1 v40
  let v42 : FVec F S2048x512 .f32 := addf v39 v41
  let v43 : FVec F S2048x512 .f32 := broadcastInDim S2048x512 ![] bcast_S_S2048x512 (constant S_ .f32 0x41B504F3#32)
  mulf v42 v43

/-- The table of normalised rows. -/
def tableTerm (tok : FVec F S2048x504 .f32) (typ : FVec F S5x8 .f32) (γ β : FVec F S512 .f32) : FVec F S2048x512 .f32 :=
  normTerm (combTerm tok typ) γ β

/-- The table narrowed to the short format. -/
def hiTerm (T : FVec F S2048x512 .f32) : FVec F S2048x512 .bf16 := truncf .bf16 T bitsLt_bf16_f32

/-- What is left of the table after its narrowed copy, widened back, is subtracted; narrowed. -/
def loTerm (T : FVec F S2048x512 .f32) : FVec F S2048x512 .bf16 :=
  truncf .bf16 (subf T (extf .f32 (truncf .bf16 T bitsLt_bf16_f32) bitsLt_bf16_f32)) bitsLt_bf16_f32

end Cert.KernelIdeal.HostValue

end
-- ==== Proof.KHostStaged.lean ====
/-
  The arrays the kernel's region is entered with, read off the host's operations STRETCH BY STRETCH.

  The host performs five lines of operations before the region.  What a buffer holds after a line depends only on
  what a few buffers held before it, so each line is read once, over an arbitrary valuation of the buffers before it:
  the last line gives the two narrowed halves of the table from the combined rows, their mean column, their variance
  column and the scale and shift; the line before it gives the variance column from the combined rows; the line before
  that gives the combined rows and their mean column from the two tables; the first two give the clipped ids.  Running
  the five lines one after the other is running their concatenation, so the five readings compose.
-/
import proofs.«426015_j33715493274183_3_alg».proof.Proof.KTerm
import proofs.«426015_j33715493274183_3_alg».proof.Proof.Gen.KernelIdeal.Frame
import Idealize.ShloMosaic.Lib.StableHlo.Run

noncomputable section

namespace Cert.KernelIdeal.HostStaged

open Cert.KernelIdeal Cert.KernelIdeal.Gen Cert.KernelIdeal.HostValue Idealize.ShloMosaic Idealize.ShloMosaic.TcCoe Idealize.SL.Sem

variable {F : FTy → Type} [FloatOps F]

/-- Two lines run one after the other leave what their concatenation leaves. -/
theorem after_append (l₁ l₂ : List (HloOp τ sig (Elt F))) (W : Valuation τ sig (Elt F)) :
    StableHlo.after (l₁ ++ l₂) W = StableHlo.after l₂ (StableHlo.after l₁ W) := by
  induction l₁ generalizing W with
  | nil => rfl
  | cons op l ih => exact ih _

/-! ## The last line: the table's two halves -/

/-- The normalised rows from the combined rows `comb`, their mean column, their variance column and the scale and
    shift: subtract the mean, multiply by the reciprocal square root of the variance plus `ε`, scale, shift, and
    multiply by the final constant. -/
def tail (comb : FVec F S2048x512 .f32) (mean var : FVec F S2048x1 .f32) (γ β : FVec F S512 .f32) : FVec F S2048x512 .f32 :=
  let v30 : FVec F S2048x512 .f32 := broadcastInDim S2048x512 ![0, 1] bcast_S2048x1_S2048x512_0_1 mean
  let v31 : FVec F S2048x512 .f32 := subf comb v30
  let v32 : FVec F S2048x1 .f32 := broadcastInDim S2048x1 ![] bcast_S_S2048x1 (constant S_ .f32 0x3727C5AC#32)
  let v33 : FVec F S2048x1 .f32 := addf var v32
  let v34 : FVec F S2048x1 .f32 := Host.rsqrt v33
  let v35 : FVec F S2048x512 .f32 := broadcastInDim S2048x512 ![0, 1] bcast_S2048x1_S2048x512_0_1 v34
  let v36 : FVec F S2048x512 .f32 := mulf v31 v35
  let v37 : FVec F S1x512 .f32 := broadcastInDim S1x512 ![1] bcast_S512_S1x512_1 γ
  let v38 : FVec F S2048x512 .f32 := broadcastInDim S2048x512 ![0, 1] bcast_S1x512_S2048x512_0_1 v37
  let v39 : FVec F S2048x512 .f32 := mulf v36 v38
  let v40 : FVec F S1x512 .f32 := broadcastInDim S1x512 ![1] bcast_S512_S1x512_1 β
  let v41 : FVec F S2048x512 .f32 := broadcastInDim S2048x512 ![0, 1] bcast_S1x512_S2048x512_0_1 v40
  let v42 : FVec F S2048x512 .f32 := addf v39 v41
  let v43 : FVec F S2048x512 .f32 := broadcastInDim S2048x512 ![] bcast_S_S2048x512 (constant S_ .f32 0x41B504F3#32)
  mulf v42 v43

/-- The last line leaves, in the region's second operand, the narrowed normalised rows. -/
theorem last_hi (W : Valuation τ sig (Elt F)) :
    StableHlo.after (hostOps0_4 (F := F)) W (main_v45 : DevRef τ sig)
      = hiTerm (tail (W (main_v24 : DevRef τ sig)) (W (main_v28 : DevRef τ sig)) (W (main_v29 : DevRef τ sig))
          (W (main_arg3 : DevRef τ sig)) (W (main_arg4 : DevRef τ sig))) := by
  after_results_simp
  rfl

/-- The last line leaves, in the region's third operand, the narrowed remainder of the normalised rows. -/
theorem last_lo (W : Valuation τ sig (Elt F)) :
    StableHlo.after (hostOps0_4 (F := F)) W (main_v48 : DevRef τ sig)
      = loTerm (tail (W (main_v24 : DevRef τ sig)) (W (main_v28 : DevRef τ sig)) (W (main_v29 : DevRef τ sig))
          (W (main_arg3 : DevRef τ sig)) (W (main_arg4 : DevRef τ sig))) := by
  after_results_simp
  rfl

/-! ## The line before it: the variance column -/

/-- The variance column of the combined rows `comb`, the correction read from the word `c8`: the mean of the squared
    deviations from the row's mean, the divisor the count less the correction (the quotient taken only when that
    divisor is positive). -/
def varOf (comb : FVec F S2048x512 .f32) (c8 : IVec S_ 32) : FVec F S2048x1 .f32 :=
  let cst : FVec F S_ .f32 := constant S_ .f32 0x00000000#32
  let v0 : FVec F S2048 .f32 := Host.reduceAdd comb cst reducesTo_S2048x512_S2048_d1 h_S_
  let v1 : FVec F S2048x1 .f32 := broadcastInDim S2048x1 ![0] bcast_S2048_S2048x1_0 v0
  let v2 : FVec F S2048x1 .f32 := broadcastInDim S2048x1 ![] bcast_S_S2048x1 (constant S_ .f32 0x44000000#32)
  let v3 : FVec F S2048x1 .f32 := Host.divf v1 v2
  let v4 : FVec F S2048x512 .f32 := broadcastInDim S2048x512 ![0, 1] bcast_S2048x1_S2048x512_0_1 v3
  let v5 : FVec F S2048x512 .f32 := subf comb v4
  let v6 : FVec F S2048x512 .f32 := mulf v5 v5
  let v7 : FVec F S_ .f32 := sitofp .f32 c8
  let v8 : FVec F S_ .f32 := subf (constant S_ .f32 0x44000000#32) v7
  let v9 : FVec F S2048 .f32 := Host.reduceAdd v6 (constant S_ .f32 0x00000000#32) reducesTo_S2048x512_S2048_d1 h_S_
  let v10 : FVec F S2048x1 .f32 := broadcastInDim S2048x1 ![0] bcast_S2048_S2048x1_0 v9
  let v11 : FVec F S2048x1 .f32 := broadcastInDim S2048x1 ![] bcast_S_S2048x1 v8
  let v12 : FVec F S2048x1 .f32 := Host.divf v10 v11
  let v13 : IVec S_ 1 := cmpf .ogt v8 (constant S_ .f32 0x00000000#32)
  let w1 : FVec F S2048x1 .f32 := broadcastInDim S2048x1 ![] bcast_S_S2048x1 (id (constant S_ .f32 0x7FC00000#32))
  select (broadcastInDim S2048x1 ![] bcast_S_S2048x1 v13) v12 w1

/-- The variance line leaves the variance column of the combined rows it finds. -/
theorem var_v29 (W : Valuation τ sig (Elt F)) :
    StableHlo.after (hostOps0_3 (F := F)) W (main_v29 : DevRef τ sig)
      = varOf (W (main_v24 : DevRef τ sig)) (W (main_c_8 : DevRef τ sig)) := by
  after_results_simp
  rfl

/-- The variance line leaves the combined rows, their mean column, the scale, the shift and the clipped ids as it
    finds them. -/
theorem var_v24 (W : Valuation τ sig (Elt F)) :
    StableHlo.after (hostOps0_3 (F := F)) W (main_v24 : DevRef τ sig) = W (main_v24 : DevRef τ sig) := by
  after_results_simp
theorem var_v28 (W : Valuation τ sig (Elt F)) :
    StableHlo.after (hostOps0_3 (F := F)) W (main_v28 : DevRef τ sig) = W (main_v28 : DevRef τ sig) := by
  after_results_simp
theorem var_arg3 (W : Valuation τ sig (Elt F)) :
    StableHlo.after (hostOps0_3 (F := F)) W (main_arg3 : DevRef τ sig) = W (main_arg3 : DevRef τ sig) := by
  after_results_simp
theorem var_arg4 (W : Valuation τ sig (Elt F)) :
    StableHlo.after (hostOps0_3 (F := F)) W (main_arg4 : DevRef τ sig) = W (main_arg4 : DevRef τ sig) := by
  after_results_simp
theorem var_v0 (W : Valuation τ sig (Elt F)) :
    StableHlo.after (hostOps0_3 (F := F)) W (main_v0 : DevRef τ sig) = W (main_v0 : DevRef τ sig) := by
  after_results_simp

/-- The last line leaves the clipped ids as it finds them. -/
theorem last_v0 (W : Valuation τ sig (Elt F)) :
    StableHlo.after (hostOps0_4 (F := F)) W (main_v0 : DevRef τ sig) = W (main_v0 : DevRef τ sig) := by
  after_results_simp

/-! ## The middle line: the combined rows and their mean column -/

/-- The mean column of the combined rows: each row's sum from zero, divided by the count. -/
def meanCol (comb : FVec F S2048x512 .f32) : FVec F S2048x1 .f32 :=
  let v25 : FVec F S2048 .f32 := Host.reduceAdd comb (constant S_ .f32 0x00000000#32) reducesTo_S2048x512_S2048_d1 h_S_
  let v26 : FVec F S2048x1 .f32 := broadcastInDim S2048x1 ![0] bcast_S2048_S2048x1_0 v25
  let v27 : FVec F S2048x1 .f32 := broadcastInDim S2048x1 ![] bcast_S_S2048x1 (constant S_ .f32 0x44000000#32)
  Host.divf v26 v27

/-- Joining equal token tables to equal type rows gives equal combined rows. -/
theorem concat_congr {a a' : FVec F S2048x504 .f32} {b b' : FVec F S2048x8 .f32} (ha : a = a') (hb : b = b') :
    concatenate S2048x512 1 [⟨S2048x504, a⟩, ⟨S2048x8, b⟩] concatenates_S2048x504_S2048x8_S2048x512_d1
      = concatenate S2048x512 1 [⟨S2048x504, a'⟩, ⟨S2048x8, b'⟩] concatenates_S2048x504_S2048x8_S2048x512_d1 := by
  rw [ha, hb]

/-- The middle line leaves the combined rows of the two tables it finds: the join's two operands are read one by one,
    the token table as found and the type rows gathered at the type indices. -/
theorem comb_v24 (W : Valuation τ sig (Elt F)) :
    StableHlo.after (hostOps0_2 (F := F)) W (main_v24 : DevRef τ sig)
      = combTerm (W (main_arg1 : DevRef τ sig)) (W (main_arg2 : DevRef τ sig)) := by
  after_results_simp
  unfold combTerm
  apply concat_congr
  · after_results_simp
  · after_results_simp
    unfold typeIdxTerm
    rfl

/-- The middle line leaves the mean column of the combined rows it leaves. -/
theorem comb_v28_of_v24 (W : Valuation τ sig (Elt F)) :
    StableHlo.after (hostOps0_2 (F := F)) W (main_v28 : DevRef τ sig)
      = meanCol (StableHlo.after (hostOps0_2 (F := F)) W (main_v24 : DevRef τ sig)) := by
  after_results_simp
  rfl

/-- The middle line leaves the mean column of those combined rows. -/
theorem comb_v28 (W : Valuation τ sig (Elt F)) :
    StableHlo.after (hostOps0_2 (F := F)) W (main_v28 : DevRef τ sig)
      = meanCol (combTerm (W (main_arg1 : DevRef τ sig)) (W (main_arg2 : DevRef τ sig))) := by
  rw [comb_v28_of_v24, comb_v24]

/-- The middle line leaves the correction word zero. -/
theorem comb_c8 (W : Valuation τ sig (Elt F)) :
    StableHlo.after (hostOps0_2 (F := F)) W (main_c_8 : DevRef τ sig) = constantI S_ 32 0#32 := by
  after_results_simp

/-- The middle line leaves the scale, the shift and the clipped ids as it finds them. -/
theorem comb_arg3 (W : Valuation τ sig (Elt F)) :
    StableHlo.after (hostOps0_2 (F := F)) W (main_arg3 : DevRef τ sig) = W (main_arg3 : DevRef τ sig) := by
  after_results_simp
theorem comb_arg4 (W : Valuation τ sig (Elt F)) :
    StableHlo.after (hostOps0_2 (F := F)) W (main_arg4 : DevRef τ sig) = W (main_arg4 : DevRef τ sig) := by
  after_results_simp
theorem comb_v0 (W : Valuation τ sig (Elt F)) :
    StableHlo.after (hostOps0_2 (F := F)) W (main_v0 : DevRef τ sig) = W (main_v0 : DevRef τ sig) := by
  after_results_simp

/-! ## The first two lines: the two bounds, then the clip -/

/-- The ids `x` raised to at least the word `lo`, then lowered to at most the word `hi`. -/
def clipOf (lo hi : IVec S_ 32) (x : IVec S16x4096 32) : IVec S16x4096 32 :=
  let w1 : IVec S16x4096 32 := broadcastInDim S16x4096 ![] bcast_S_S16x4096 (id lo)
  let w2 : IVec S16x4096 32 := maxsi w1 x
  let w4 : IVec S16x4096 32 := broadcastInDim S16x4096 ![] bcast_S_S16x4096 (id hi)
  minsi w4 w2

/-- The clip line leaves the ids it finds clipped between the two bounds it finds. -/
theorem clip_v0 (W : Valuation τ sig (Elt F)) :
    StableHlo.after (hostOps0_1 (F := F)) W (main_v0 : DevRef τ sig)
      = clipOf (W (main_c : DevRef τ sig)) (W (main_c_0 : DevRef τ sig)) (W (main_arg0 : DevRef τ sig)) := by
  after_results_simp
  rfl

/-- The clip line leaves the four float arguments as it finds them. -/
theorem clip_arg1 (W : Valuation τ sig (Elt F)) :
    StableHlo.after (hostOps0_1 (F := F)) W (main_arg1 : DevRef τ sig) = W (main_arg1 : DevRef τ sig) := by
  after_results_simp
theorem clip_arg2 (W : Valuation τ sig (Elt F)) :
    StableHlo.after (hostOps0_1 (F := F)) W (main_arg2 : DevRef τ sig) = W (main_arg2 : DevRef τ sig) := by
  after_results_simp
theorem clip_arg3 (W : Valuation τ sig (Elt F)) :
    StableHlo.after (hostOps0_1 (F := F)) W (main_arg3 : DevRef τ sig) = W (main_arg3 : DevRef τ sig) := by
  after_results_simp
theorem clip_arg4 (W : Valuation τ sig (Elt F)) :
    StableHlo.after (hostOps0_1 (F := F)) W (main_arg4 : DevRef τ sig) = W (main_arg4 : DevRef τ sig) := by
  after_results_simp

/-- The first line leaves the two bounds `0` and `2047`, and every argument as it finds it. -/
theorem consts_c (W : Valuation τ sig (Elt F)) :
    StableHlo.after (hostOps0 (F := F)) W (main_c : DevRef τ sig) = constantI S_ 32 0#32 := by
  after_results_simp
theorem consts_c0 (W : Valuation τ sig (Elt F)) :
    StableHlo.after (hostOps0 (F := F)) W (main_c_0 : DevRef τ sig) = constantI S_ 32 2047#32 := by
  after_results_simp
theorem consts_arg0 (W : Valuation τ sig (Elt F)) :
    StableHlo.after (hostOps0 (F := F)) W (main_arg0 : DevRef τ sig) = W (main_arg0 : DevRef τ sig) := by
  after_results_simp
theorem consts_arg1 (W : Valuation τ sig (Elt F)) :
    StableHlo.after (hostOps0 (F := F)) W (main_arg1 : DevRef τ sig) = W (main_arg1 : DevRef τ sig) := by
  after_results_simp
theorem consts_arg2 (W : Valuation τ sig (Elt F)) :
    StableHlo.after (hostOps0 (F := F)) W (main_arg2 : DevRef τ sig) = W (main_arg2 : DevRef τ sig) := by
  after_results_simp
theorem consts_arg3 (W : Valuation τ sig (Elt F)) :
    StableHlo.after (hostOps0 (F := F)) W (main_arg3 : DevRef τ sig) = W (main_arg3 : DevRef τ sig) := by
  after_results_simp
theorem consts_arg4 (W : Valuation τ sig (Elt F)) :
    StableHlo.after (hostOps0 (F := F)) W (main_arg4 : DevRef τ sig) = W (main_arg4 : DevRef τ sig) := by
  after_results_simp

/-! ## The five lines composed -/

variable (m : (ℓ : Loc nD τ sig) → Buf (Elt F) ℓ)

/-- What the region finds is what the five lines, run one after the other from the launch contents, leave. -/
theorem V_eq (c : Dev nD) (b : Ref sig .tc) :
    V m c b = StableHlo.after hostOps0_4 (StableHlo.after hostOps0_3 (StableHlo.after hostOps0_2
      (StableHlo.after hostOps0_1 (StableHlo.after hostOps0 (fun b => m (c, b)))))) b := by
  dsimp only [V]
  simp only [List.flatten_cons, List.flatten_nil, List.append_nil]
  rw [after_append, after_append, after_append, after_append]

/-- The normalised rows from the combined rows, their mean column and their variance column ARE the normalisation of the
    combined rows. -/
theorem tail_eq (comb : FVec F S2048x512 .f32) (γ β : FVec F S512 .f32) :
    tail comb (meanCol comb) (varOf comb (constantI S_ 32 0#32)) γ β = normTerm comb γ β := rfl

/-- The ids clipped between the words `0` and `2047` are the clipped ids. -/
theorem clipOf_eq (x : IVec S16x4096 32) : clipOf (constantI S_ 32 0#32) (constantI S_ 32 2047#32) x = clipTerm x := rfl

/-- The table of the launch contents on core `c`. -/
abbrev tableOf (c : Dev nD) : FVec F S2048x512 .f32 :=
  tableTerm (m ((c : Thread nD τ).loc main_arg1)) (m ((c : Thread nD τ).loc main_arg2))
    (m ((c : Thread nD τ).loc main_arg3)) (m ((c : Thread nD τ).loc main_arg4))

/-- The region finds, as its first operand's array, the clipped ids. -/
theorem V_ids (c : Dev nD) : V m c main_v0 = clipTerm (m ((c : Thread nD τ).loc main_arg0)) := by
  rw [V_eq, last_v0, var_v0, comb_v0, clip_v0, consts_c, consts_c0, consts_arg0, clipOf_eq]

/-- The region finds, as its second operand's array, the narrowed table. -/
theorem V_hi (c : Dev nD) : V m c main_v45 = hiTerm (tableOf m c) := by
  rw [V_eq, last_hi, var_v24, var_v28, var_v29, var_arg3, var_arg4, comb_v24, comb_v28, comb_c8, comb_arg3, comb_arg4,
    clip_arg1, clip_arg2, clip_arg3, clip_arg4, consts_arg1, consts_arg2, consts_arg3, consts_arg4, tail_eq]
  rfl

/-- The region finds, as its third operand's array, the narrowed remainder. -/
theorem V_lo (c : Dev nD) : V m c main_v48 = loTerm (tableOf m c) := by
  rw [V_eq, last_lo, var_v24, var_v28, var_v29, var_arg3, var_arg4, comb_v24, comb_v28, comb_c8, comb_arg3, comb_arg4,
    clip_arg1, clip_arg2, clip_arg3, clip_arg4, consts_arg1, consts_arg2, consts_arg3, consts_arg4, tail_eq]
  rfl

end Cert.KernelIdeal.HostStaged

end
-- ==== Proof.LibGatherRead.lean ====
/-
  Row, column, vector and batched gathers read at an index given by coordinates.

  A gather reads, for each result index, one operand entry: on every operand axis the position is the clamped start
  (the start-index word for that axis, read as a signed integer and clamped so that the slice fits; zero on an axis the
  start index map does not name) plus the result's coordinate on a batching axis plus the result's coordinate on an
  offset axis.  For the four arrangements below every slice has extent one on the indexed axis, so the clamp is into
  `[0, N - 1]`, and the other coordinates are copied from the result index.
-/
import Idealize.ShloMosaic.PureOps.ShapeOps
import Idealize.ShloMosaic.Lib.ValueIdx

noncomputable section

namespace Cert.LibGatherRead

open Idealize.ShloMosaic Idealize.ShloMosaic.ValueIdx

variable {α : Type}

/-! ## Rows of a table: `table[idx, :]` -/

/-- The dimension numbers of a gather of whole rows: operand `[N, C]`, start indices `[R, 1]`, result `[R, C]`; the
    result's axis 1 is the offset axis, the operand's axis 0 is collapsed and is the one the start index names, and a
    slice is one row `[1, C]`. -/
abbrev rowsDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- A ROW GATHER READ AT `(r, c)`: the operand at row `idx[r, 0]` (read signed, clamped into `[0, N − 1]`) and
    column `c`. -/
theorem gather_rows_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowsDims N C R wf) x idx (ix2 r c)
      = x (ix2 (⟨min (idx (ix2 r (0 : Fin 1))).toInt.toNat (N - 1), by omega⟩ : Fin N) c) := by
  unfold Host.gather
  congr 1
  funext a
  refine Fin.ext ?_
  match a with
  | ⟨0, _⟩ =>
    -- the indexed axis: the clamped start, nothing added
    show (rowsDims N C R wf).start (ix2 r c) idx 0 + (rowsDims N C R wf).batchCoord (ix2 r c) 0
        + (rowsDims N C R wf).offCoord (ix2 r c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N C R wf).startIndexMap from List.mem_singleton.mpr rfl)]
    have hsi : (rowsDims N C R wf).siIdx (ix2 r c) ⟨List.idxOf (0 : Fin 2) (rowsDims N C R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    -- the offset axis: start zero, the result's column
    show (rowsDims N C R wf).start (ix2 r c) idx 1 + (rowsDims N C R wf).batchCoord (ix2 r c) 1
        + (rowsDims N C R wf).offCoord (ix2 r c) 1 = _
    rw [GatherDims.batchCoord_eq_zero _ _ _ List.not_mem_nil]
    unfold GatherDims.start
    rw [dif_neg (show (1 : Fin 2) ∉ (rowsDims N C R wf).startIndexMap from
      fun h => absurd (List.mem_singleton.mp h) (show ¬ ((1 : Fin 2) = 0) by decide))]
    simp only [Nat.add_zero, Nat.zero_add]
    rfl

/-! ## Columns of a table: `table[:, idx]` -/

/-- The dimension numbers of a gather of whole columns: operand `[R, N]`, start indices `[C, 1]`, result `[R, C]`;
    the result's axis 0 is the offset axis, the operand's axis 1 is collapsed and is the one the start index names, and
    a slice is one column `[R, 1]`. -/
abbrev colsDims (N C R : Nat)
    (wf : GatherDims.WF ⟨2, ![R, N]⟩ ⟨2, ![C, 1]⟩ ⟨2, ![R, C]⟩ [0] [1] [] [1] [] 1 ![R, 1]) :
    GatherDims ⟨2, ![R, N]⟩ ⟨2, ![C, 1]⟩ ⟨2, ![R, C]⟩ where
  offsetDims := [0]
  collapsedSliceDims := [1]
  operandBatchingDims := []
  startIndicesBatchingDims := []
  startIndexMap := [1]
  indexVectorDim := 1
  sliceSizes := ![R, 1]
  wf := wf

/-- A COLUMN GATHER READ AT `(r, c)`: the operand at row `r` and column `idx[c, 0]` (read signed, clamped into
    `[0, N − 1]`). -/
theorem gather_cols_apply {N C R w : Nat} (hN : 0 < N)
    (wf : GatherDims.WF ⟨2, ![R, N]⟩ ⟨2, ![C, 1]⟩ ⟨2, ![R, C]⟩ [0] [1] [] [1] [] 1 ![R, 1])
    (x : (⟨2, ![R, N]⟩ : Shape).Idx → α) (idx : IVec ⟨2, ![C, 1]⟩ w) (r : Fin R) (c : Fin C) :
    Host.gather (colsDims N C R wf) x idx (ix2 r c)
      = x (ix2 r (⟨min (idx (ix2 c (0 : Fin 1))).toInt.toNat (N - 1), by omega⟩ : Fin N)) := by
  unfold Host.gather
  congr 1
  funext a
  refine Fin.ext ?_
  match a with
  | ⟨0, _⟩ =>
    -- the offset axis: start zero, the result's row
    show (colsDims N C R wf).start (ix2 r c) idx 0 + (colsDims N C R wf).batchCoord (ix2 r c) 0
        + (colsDims N C R wf).offCoord (ix2 r c) 0 = _
    rw [GatherDims.batchCoord_eq_zero _ _ _ List.not_mem_nil]
    unfold GatherDims.start
    rw [dif_neg (show (0 : Fin 2) ∉ (colsDims N C R wf).startIndexMap from
      fun h => absurd (List.mem_singleton.mp h) (show ¬ ((0 : Fin 2) = 1) by decide))]
    simp only [Nat.add_zero, Nat.zero_add]
    rfl
  | ⟨1, _⟩ =>
    -- the indexed axis: the clamped start, nothing added
    show (colsDims N C R wf).start (ix2 r c) idx 1 + (colsDims N C R wf).batchCoord (ix2 r c) 1
        + (colsDims N C R wf).offCoord (ix2 r c) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colsDims N C R wf).startIndexMap from List.mem_singleton.mpr rfl)]
    have hsi : (colsDims N C R wf).siIdx (ix2 r c) ⟨List.idxOf (1 : Fin 2) (colsDims N C R wf).startIndexMap,
        List.idxOf_lt_length_iff.2 (List.mem_singleton.mpr rfl)⟩ = ix2 c (0 : Fin 1) := by
      funext b; refine Fin.ext ?_
      match b with
      | ⟨0, _⟩ => rfl
      | ⟨1, _⟩ => rfl
    rw [hsi]
    rfl

/-! ## Entries of a vector: `v[idx]` -/

/-- The dimension numbers of a gather of single entries of a vector: operand `[N]`, start indices `[R, 1]`, result
    `[R]`; no offset axis, the operand's only axis is collapsed and is the one the start index names, and a slice is one
    entry. -/
abbrev vecDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- A VECTOR GATHER READ AT `r`: the operand at `idx[r, 0]` (read signed, clamped into `[0, N − 1]`). -/
theorem gather_vec_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (vecDims N R wf) x idx (ix1 r)
      = x (ix1 (⟨min (idx (ix2 r (0 : Fin 1))).toInt.toNat (N - 1), by omega⟩ : Fin N)) := by
  unfold Host.gather
  congr 1
  funext a
  refine Fin.ext ?_
  match a with
  | ⟨0, _⟩ =>
    show (vecDims N R wf).start (ix1 r) idx 0 + (vecDims N R wf).batchCoord (ix1 r) 0
        + (vecDims N R wf).offCoord (ix1 r) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecDims N R wf).startIndexMap from List.mem_singleton.mpr rfl)]
    have hsi : (vecDims N R wf).siIdx (ix1 r) ⟨List.idxOf (0 : Fin 1) (vecDims N R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl

/-! ## One entry of each row, the row given by the batch: `take_along_axis(table, idx, axis = 1)` -/

/-- The dimension numbers of a batched gather of one entry per row: operand `[R, N]`, start indices `[R, 1, 1]`,
    result `[R, 1]`; no offset axis, axis 0 of the operand and of the start indices are the paired batching axes, the
    operand's axis 1 is collapsed and is the one the start index names, and a slice is one entry. -/
abbrev batchedDims (N R : Nat)
    (wf : GatherDims.WF ⟨2, ![R, N]⟩ ⟨3, ![R, 1, 1]⟩ ⟨2, ![R, 1]⟩ [] [1] [0] [1] [0] 2 ![1, 1]) :
    GatherDims ⟨2, ![R, N]⟩ ⟨3, ![R, 1, 1]⟩ ⟨2, ![R, 1]⟩ where
  offsetDims := []
  collapsedSliceDims := [1]
  operandBatchingDims := [0]
  startIndicesBatchingDims := [0]
  startIndexMap := [1]
  indexVectorDim := 2
  sliceSizes := ![1, 1]
  wf := wf

/-- A BATCHED GATHER READ AT `(r, u)`: the operand at row `r` and column `idx[r, 0, 0]` (read signed, clamped into
    `[0, N − 1]`). -/
theorem gather_batched_apply {N R w : Nat} (hN : 0 < N)
    (wf : GatherDims.WF ⟨2, ![R, N]⟩ ⟨3, ![R, 1, 1]⟩ ⟨2, ![R, 1]⟩ [] [1] [0] [1] [0] 2 ![1, 1])
    (x : (⟨2, ![R, N]⟩ : Shape).Idx → α) (idx : IVec ⟨3, ![R, 1, 1]⟩ w) (r : Fin R) (u : Fin 1) :
    Host.gather (batchedDims N R wf) x idx (ix2 r u)
      = x (ix2 r (⟨min (idx (ix3 r (0 : Fin 1) (0 : Fin 1))).toInt.toNat (N - 1), by omega⟩ : Fin N)) := by
  obtain rfl : u = 0 := Subsingleton.elim _ _
  unfold Host.gather
  congr 1
  funext a
  refine Fin.ext ?_
  match a with
  | ⟨0, _⟩ =>
    -- the batching axis: start zero, the result's row, no offset
    show (batchedDims N R wf).start (ix2 r 0) idx 0 + (batchedDims N R wf).batchCoord (ix2 r 0) 0
        + (batchedDims N R wf).offCoord (ix2 r 0) 0 = _
    rw [GatherDims.start_batching _ _ _ _ (List.mem_singleton.mpr rfl),
      GatherDims.offCoord_eq_zero _ _ _ (fun h => ((GatherDims.mem_sKept _ _).mp h).2 (List.mem_singleton.mpr rfl))]
    simp only [Nat.add_zero, Nat.zero_add]
    unfold GatherDims.batchCoord
    rw [dif_pos (show (0 : Fin 2) ∈ (batchedDims N R wf).operandBatchingDims from List.mem_singleton.mpr rfl)]
    rfl
  | ⟨1, _⟩ =>
    -- the indexed axis: the clamped start, nothing added
    show (batchedDims N R wf).start (ix2 r 0) idx 1 + (batchedDims N R wf).batchCoord (ix2 r 0) 1
        + (batchedDims N R wf).offCoord (ix2 r 0) 1 = _
    rw [GatherDims.batchCoord_eq_zero _ _ _ (fun h => absurd (List.mem_singleton.mp h)
        (show ¬ ((1 : Fin 2) = 0) by decide)),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (batchedDims N R wf).startIndexMap from List.mem_singleton.mpr rfl)]
    have hsi : (batchedDims N R wf).siIdx (ix2 r 0) ⟨List.idxOf (1 : Fin 2) (batchedDims N R wf).startIndexMap,
        List.idxOf_lt_length_iff.2 (List.mem_singleton.mpr rfl)⟩ = ix3 r (0 : Fin 1) (0 : Fin 1) := by
      funext b; refine Fin.ext ?_
      match b with
      | ⟨0, _⟩ => rfl
      | ⟨1, _⟩ => rfl
      | ⟨2, _⟩ => rfl
    rw [hsi]
    rfl

end Cert.LibGatherRead

end
-- ==== Proof.KCombRead.lean ====
import proofs.«426015_j33715493274183_3_alg».proof.Proof.KTerm
import proofs.«426015_j33715493274183_3_alg».proof.Proof.Spec
import proofs.«426015_j33715493274183_3_alg».proof.Proof.LibGatherRead
import Idealize.ShloMosaic.Lib.Pipeline.Value
import Idealize.ShloMosaic.Lib.IdealHost

noncomputable section

namespace Cert.KernelIdeal.HostValue

open Cert.KernelIdeal Cert.KernelIdeal.Gen Idealize.ShloMosaic Idealize.ShloMosaic.ValueIdx Cert.EmbedNorm

/-! ## Words -/

/-- A word below 2048 is not negative as a signed word and is at most 2047, so raising it to at least 0 and lowering
    it to at most 2047 leaves it. -/
theorem clip_word (w : BitVec 32) (h : w.toNat < 2048) :
    IntOp.minsi 2047#32 (IntOp.maxsi 0#32 w) = w := by
  have h1 : w.slt 0#32 = false := by
    simp only [BitVec.slt, BitVec.toInt_eq_toNat_cond]
    simp; omega
  have h2 : (2047#32).slt w = false := by
    simp only [BitVec.slt, BitVec.toInt_eq_toNat_cond]
    simp; omega
  unfold IntOp.minsi IntOp.maxsi
  rw [h1]; simp only [Bool.false_eq_true, if_false]; rw [h2]; simp

/-- The signed comparison "the word of `n` is at least the word of `k`", widened to 32 bits, for two small naturals:
    one when `k ≤ n`, zero otherwise. -/
theorem sge_word (n k : Nat) (hn : n < 2048) (hk : k < 2048) :
    (IntOp.cmpi .sge (BitVec.ofNat 32 n) (BitVec.ofNat 32 k)).setWidth 32 = if k ≤ n then 1#32 else 0#32 := by
  have h : (BitVec.ofNat 32 k).sle (BitVec.ofNat 32 n) = decide (k ≤ n) := by
    simp only [BitVec.sle, BitVec.toInt_eq_toNat_cond, BitVec.toNat_ofNat]
    have e1 : k % 2 ^ 32 = k := Nat.mod_eq_of_lt (by omega)
    have e2 : n % 2 ^ 32 = n := Nat.mod_eq_of_lt (by omega)
    rw [e1, e2]
    have c1 : 2 * k < 2 ^ 32 := by omega
    have c2 : 2 * n < 2 ^ 32 := by omega
    rw [if_pos c1, if_pos c2]
    simp
  show (BitVec.ofBool ((BitVec.ofNat 32 k).sle (BitVec.ofNat 32 n))).setWidth 32 = _
  rw [h]
  by_cases c : k ≤ n
  · simp [c]
  · simp [c]

/-- The sum of the four threshold flags is a word in `[0, 4]`, so it is not negative, the correction by 5 is not
    taken, and the word is the count of thresholds reached. -/
theorem typeWord (n : Nat) (e128 e256 e512 e1024 : BitVec 32)
    (h1 : e128 = if 128 ≤ n then 1#32 else 0#32) (h2 : e256 = if 256 ≤ n then 1#32 else 0#32)
    (h3 : e512 = if 512 ≤ n then 1#32 else 0#32) (h4 : e1024 = if 1024 ≤ n then 1#32 else 0#32) :
    Scalar.select (IntOp.cmpi .slt (IntOp.addi (IntOp.addi (IntOp.addi e128 e256) e512) e1024) 0#32)
      (IntOp.addi (IntOp.addi (IntOp.addi (IntOp.addi e128 e256) e512) e1024) 5#32)
      (IntOp.addi (IntOp.addi (IntOp.addi e128 e256) e512) e1024)
      = BitVec.ofNat 32 ((if 128 ≤ n then 1 else 0) + (if 256 ≤ n then 1 else 0) + (if 512 ≤ n then 1 else 0)
          + (if 1024 ≤ n then 1 else 0)) := by
  subst h1 h2 h3 h4
  split_ifs <;> decide

/-- A small natural's word, read signed and clamped into `[0, N − 1]`, is the natural. -/
theorem clamp_small (t N : Nat) (ht : t < N) (hN : N ≤ 2048) :
    min (BitVec.ofNat 32 t).toInt.toNat (N - 1) = t := by
  have e : (BitVec.ofNat 32 t).toInt = (t : Int) := by
    rw [BitVec.toInt_eq_toNat_cond, BitVec.toNat_ofNat, Nat.mod_eq_of_lt (by omega)]
    rw [if_pos (by omega)]
  rw [e, Int.toNat_natCast]; omega

/-! ## The type index -/

/-- The kernel's type index at the id `v` is the word of `typeOf v`. -/
theorem typeIdxTerm_apply (v : Fin 2048) : typeIdxTerm (ix1 v) = BitVec.ofNat 32 (typeOf v.val).val := by
  have h := typeWord v.val _ _ _ _ (sge_word v.val 128 v.isLt (by norm_num)) (sge_word v.val 256 v.isLt (by norm_num))
    (sge_word v.val 512 v.isLt (by norm_num)) (sge_word v.val 1024 v.isLt (by norm_num))
  exact h

/-! ## The combined rows -/

/-- The table's combined rows read at `(v, d)`: entry `d` of the combined row of the id `v`. -/
theorem combTerm_apply (tok : FVec Ideal S2048x504 .f32) (typ : FVec Ideal S5x8 .f32) (v : Fin 2048) (d : Fin 512) :
    combTerm (F := Ideal) tok typ (ix2 v d) = combRow tok typ v d := by
  unfold combRow
  by_cases h : d.val < 504
  · rw [dif_pos h]
    exact concatenate_pair_apply_left (t := S2048x512) (s₁ := S2048x504) (s₂ := S2048x8) 1 tok _
      concatenates_S2048x504_S2048x8_S2048x512_d1 (ix2 v d) rfl (ix2 v (⟨d.val, h⟩ : Fin 504))
      (fun b => by match b with | ⟨0, _⟩ => rfl | ⟨1, _⟩ => rfl)
  · rw [dif_neg h]
    have hd : d.val - 504 < 8 := by have := d.isLt; omega
    -- the second piece, at column `d − 504`
    have hc := concatenate_pair_apply_right (t := S2048x512) (s₁ := S2048x504) (s₂ := S2048x8) 1 tok
      (Host.gather gather_S5x8_S2048x1_S2048x8_1_0_n_n_0_1_18 typ
        (broadcastInDim S2048x1 ![0] bcast_S2048_S2048x1_0 typeIdxTerm))
      concatenates_S2048x504_S2048x8_S2048x512_d1 (ix2 v d) rfl rfl (ix2 v (⟨d.val - 504, hd⟩ : Fin 8))
      (fun b hb => by match b, hb with | ⟨0, _⟩, _ => rfl | ⟨1, _⟩, hb => exact absurd rfl hb)
      (by show d.val - 504 + 504 = d.val; omega)
    refine hc.trans ?_
    -- the gathered row is the row of the type table the type index names
    have hg := Cert.LibGatherRead.gather_rows_apply (N := 5) (C := 8) (R := 2048) (by norm_num)
      gather_S5x8_S2048x1_S2048x8_1_0_n_n_0_1_18_wf typ
      (broadcastInDim S2048x1 ![0] bcast_S2048_S2048x1_0 typeIdxTerm) v (⟨d.val - 504, hd⟩ : Fin 8)
    refine hg.trans ?_
    have hb : broadcastInDim S2048x1 ![0] bcast_S2048_S2048x1_0 typeIdxTerm (ix2 v (0 : Fin 1))
        = typeIdxTerm (ix1 v) :=
      broadcastInDim_apply _ _ _ _ (ix1 v) (fun a => by match a with | ⟨0, _⟩ => exact (if_neg (show ¬ ((2048 : Nat) = 1) by decide)).symm)
    refine congrArg typ ?_
    refine congrArg (fun r : Fin 5 => ix2 r (⟨d.val - 504, hd⟩ : Fin 8)) (Fin.ext ?_)
    show min (broadcastInDim S2048x1 ![0] bcast_S2048_S2048x1_0 typeIdxTerm (ix2 v (0 : Fin 1))).toInt.toNat (5 - 1)
      = (typeOf v.val).val
    rw [hb, typeIdxTerm_apply]
    exact clamp_small _ 5 (typeOf v.val).isLt (by norm_num)

/-- Clipping leaves ids that are in range as they are. -/
theorem clipTerm_eq (x : IVec S16x4096 32) (hx : InRange x) : clipTerm x = x := by
  funext i
  exact clip_word (x i) (hx i)

end Cert.KernelIdeal.HostValue

end
-- ==== Proof.KNormRead.lean ====
import proofs.«426015_j33715493274183_3_alg».proof.Proof.KTerm
import proofs.«426015_j33715493274183_3_alg».proof.Proof.Spec
import Idealize.ShloMosaic.PureOps.Ideal.Laws
import Idealize.ShloMosaic.Lib.Pipeline.Value

noncomputable section

namespace Cert.KernelIdeal.HostValue

open Cert.KernelIdeal Cert.KernelIdeal.Gen Idealize.ShloMosaic Idealize.ShloMosaic.ValueIdx Cert.EmbedNorm

/-! ### Each operation of the chain, read at one index -/

/-- The sum along a row: the initial value plus the 512 entries of row `v`. -/
theorem rowSum_apply (x : FVec Ideal S2048x512 .f32) (c : FVec Ideal S_ .f32) (v : Fin 2048) :
    Host.reduceAdd (F := Ideal) x c reducesTo_S2048x512_S2048_d1 h_S_ (ix1 v) = c ix0 + ∑ k : Fin 512, x (ix2 v k) := by
  show Ideal.hostReduceAdd reducesTo_S2048x512_S2048_d1 x (c (Shape.Idx.first h_S_)) (ix1 v) = _
  rw [Ideal.hostReduceAdd_single reducesTo_S2048x512_S2048_d1 (by decide : Shape.Reduces S2048x512 [1] S2048)]
  congr 1
  · exact congrArg c (eq_ix0 _)
  · refine Finset.sum_congr rfl fun k _ => congrArg x ?_
    funext a
    match a with
    | ⟨0, _⟩ => exact Fin.ext rfl
    | ⟨1, _⟩ => exact Fin.ext rfl

/-- A vector of 2048 entries laid out as a column: entry `(v, 0)` is entry `v`. -/
theorem col_apply {α : Type} (y : S2048.Idx → α) (v : Fin 2048) (z : Fin 1) :
    broadcastInDim S2048x1 ![0] bcast_S2048_S2048x1_0 y (ix2 v z) = y (ix1 v) := by
  refine broadcastInDim_apply _ _ y _ (ix1 v) fun a => ?_
  match a with
  | ⟨0, _⟩ => rfl

/-- A scalar spread over a column: every entry is the scalar. -/
theorem scalarCol_apply {α : Type} (c : S_.Idx → α) (j : S2048x1.Idx) :
    broadcastInDim S2048x1 ![] bcast_S_S2048x1 c j = c ix0 :=
  broadcastInDim_apply _ _ c _ ix0 fun a => a.elim0

/-- A scalar spread over the whole array: every entry is the scalar. -/
theorem scalarAll_apply {α : Type} (c : S_.Idx → α) (j : S2048x512.Idx) :
    broadcastInDim S2048x512 ![] bcast_S_S2048x512 c j = c ix0 :=
  broadcastInDim_apply _ _ c _ ix0 fun a => a.elim0

/-- A column spread along the rows: entry `(v, d)` is the column's entry `(v, 0)`. -/
theorem colAll_apply {α : Type} (y : S2048x1.Idx → α) (v : Fin 2048) (d : Fin 512) :
    broadcastInDim S2048x512 ![0, 1] bcast_S2048x1_S2048x512_0_1 y (ix2 v d) = y (ix2 v (0 : Fin 1)) := by
  refine broadcastInDim_apply _ _ y _ (ix2 v (0 : Fin 1)) fun a => ?_
  match a with
  | ⟨0, _⟩ => rfl
  | ⟨1, _⟩ => rfl

/-- A vector of 512 entries laid out as a row: entry `(0, d)` is entry `d`. -/
theorem row_apply {α : Type} (y : S512.Idx → α) (z : Fin 1) (d : Fin 512) :
    broadcastInDim S1x512 ![1] bcast_S512_S1x512_1 y (ix2 z d) = y (ix1 d) := by
  refine broadcastInDim_apply _ _ y _ (ix1 d) fun a => ?_
  match a with
  | ⟨0, _⟩ => rfl

/-- A row spread down the columns: entry `(v, d)` is the row's entry `(0, d)`. -/
theorem rowAll_apply {α : Type} (y : S1x512.Idx → α) (v : Fin 2048) (d : Fin 512) :
    broadcastInDim S2048x512 ![0, 1] bcast_S1x512_S2048x512_0_1 y (ix2 v d) = y (ix2 (0 : Fin 1) d) := by
  refine broadcastInDim_apply _ _ y _ (ix2 (0 : Fin 1) d) fun a => ?_
  match a with
  | ⟨0, _⟩ => rfl
  | ⟨1, _⟩ => rfl

/-- The host's quotient at an index is the quotient of the entries. -/
theorem hdiv_apply {s : Shape} (x y : FVec Ideal s .f32) (i : s.Idx) : Host.divf (F := Ideal) x y i = Ideal.div (x i) (y i) := rfl

/-- The host's reciprocal square root at an index is that of the entry. -/
theorem hrsqrt_apply {s : Shape} (x : FVec Ideal s .f32) (i : s.Idx) : Host.rsqrt (F := Ideal) x i = Ideal.rsqrt (x i) := rfl

/-- A constant array of words at an index is the word. -/
theorem constI_apply {s : Shape} {w : Nat} (b : BitVec w) (i : s.Idx) : constantI s w b i = b := rfl

/-- The mean column spread along the rows, read at `(v, k)`: the mean of row `v`. -/
theorem meanAll_apply (comb : FVec Ideal S2048x512 .f32) (v : Fin 2048) (k : Fin 512) :
    broadcastInDim S2048x512 ![0, 1] bcast_S2048x1_S2048x512_0_1
        (Host.divf (F := Ideal)
          (broadcastInDim S2048x1 ![0] bcast_S2048_S2048x1_0
            (Host.reduceAdd (F := Ideal) comb (constant (F := Ideal) S_ .f32 0x00000000#32) reducesTo_S2048x512_S2048_d1 h_S_))
          (broadcastInDim S2048x1 ![] bcast_S_S2048x1 (constant (F := Ideal) S_ .f32 0x44000000#32)))
        (ix2 v k)
      = rowMean (fun k => comb (ix2 v k)) := by
  rw [colAll_apply, hdiv_apply, col_apply, scalarCol_apply, rowSum_apply]
  rfl

/-- The variance column read at `(v, 0)`: the variance of row `v`. -/
theorem varTerm_apply (comb : FVec Ideal S2048x512 .f32) (v : Fin 2048) :
    varTerm (F := Ideal) comb (ix2 v (0 : Fin 1)) = rowVar (fun k => comb (ix2 v k)) := by
  unfold varTerm rowVar
  rw [select_apply, scalarCol_apply, scalarCol_apply, hdiv_apply, col_apply, scalarCol_apply, rowSum_apply]
  conv_lhs =>
    arg 2; arg 1; arg 2; arg 2; ext k
    rw [mulf_apply, subf_apply, meanAll_apply]
  rfl

/-- The table's normalisation read at `(v, d)`: entry `d` of the normalised row `v`. -/
theorem normTerm_apply (comb : FVec Ideal S2048x512 .f32) (γ β : FVec Ideal S512 .f32) (v : Fin 2048) (d : Fin 512) :
    normTerm (F := Ideal) comb γ β (ix2 v d) = rowNorm γ β (fun k => comb (ix2 v k)) d := by
  unfold normTerm rowNorm
  simp only [mulf_apply, addf_apply, subf_apply]
  rw [meanAll_apply, scalarAll_apply, rowAll_apply, row_apply, rowAll_apply, row_apply, colAll_apply, hrsqrt_apply, addf_apply,
    varTerm_apply, scalarCol_apply]
  rfl

end Cert.KernelIdeal.HostValue

end
-- ==== Proof.RefTerm.lean ====
/-
  The reference's value as one function of its five arguments, written operation by operation in the order the
  program performs them: first the COMBINED rows (for each token its row of the token table, then the row of the type
  table named by the first range `[start, end)` that holds the token's id), then the NORMALISATION of every row of 512
  entries (mean, variance about the mean, reciprocal square root of the variance plus a constant, scale, shift, and a
  final constant factor).
-/
import proofs.«426015_j33715493274183_3_alg».proof.Proof.Gen.ReferenceIdeal

noncomputable section

namespace Cert.ReferenceIdeal.RefValue

open Cert.ReferenceIdeal Cert.ReferenceIdeal.Gen Idealize.ShloMosaic

variable {F : FTy → Type} [FloatOps F]

/-- The type index of every token: the first of the five ranges that holds its id (zero when none does). -/
def typeIdxTerm (x : IVec S16x4096 32) : IVec S16x4096 32 :=
  let c : IVec S5 32 := fun i => lit0 (S5.rowMajor i)
  let c_0 : IVec S5 32 := fun i => lit1 (S5.rowMajor i)
  let v7 : IVec S16x4096x1 32 := broadcastInDim S16x4096x1 ![0, 1] bcast_S16x4096_S16x4096x1_0_1 x
  let v8 : IVec S1x1x5 32 := broadcastInDim S1x1x5 ![2] bcast_S5_S1x1x5_2 c
  let v9 : IVec S16x4096x5 32 := broadcastInDim S16x4096x5 ![0, 1, 2] bcast_S16x4096x1_S16x4096x5_0_1_2 v7
  let v10 : IVec S16x4096x5 32 := broadcastInDim S16x4096x5 ![0, 1, 2] bcast_S1x1x5_S16x4096x5_0_1_2 v8
  let v11 : IVec S16x4096x5 1 := cmpi .sge v9 v10
  let v12 : IVec S16x4096x1 32 := broadcastInDim S16x4096x1 ![0, 1] bcast_S16x4096_S16x4096x1_0_1 x
  let v13 : IVec S1x1x5 32 := broadcastInDim S1x1x5 ![2] bcast_S5_S1x1x5_2 c_0
  let v14 : IVec S16x4096x5 32 := broadcastInDim S16x4096x5 ![0, 1, 2] bcast_S16x4096x1_S16x4096x5_0_1_2 v12
  let v15 : IVec S16x4096x5 32 := broadcastInDim S16x4096x5 ![0, 1, 2] bcast_S1x1x5_S16x4096x5_0_1_2 v13
  let v16 : IVec S16x4096x5 1 := cmpi .slt v14 v15
  let v17 : IVec S16x4096x5 1 := andi v11 v16
  let a0 : IVec S16x4096x5 32 := iotaInDim S16x4096x5 32 2
  let ac : IVec S_ 1 := constantI S_ 1 0#1
  let ac0 : IVec S_ 32 := constantI S_ 32 0#32
  let v18 : IVec S16x4096 32 := fun j => (Host.reduce2 reducer_argmax_i1_i32 v17 a0 ac ac0 reducesTo_S16x4096x5_S16x4096_d2 h_S_ j).2
  let v19 : IVec S16x4096 32 := broadcastInDim S16x4096 ![] bcast_S_S16x4096 (constantI S_ 32 0#32)
  let v20 : IVec S16x4096 1 := cmpi .slt v18 v19
  let v21 : IVec S16x4096 32 := broadcastInDim S16x4096 ![] bcast_S_S16x4096 (constantI S_ 32 5#32)
  let v22 : IVec S16x4096 32 := addi v18 v21
  select v20 v22 v18

/-- The row index of every token into the token table: its id, a negative id moved up by the table's height. -/
def tokIdxTerm (x : IVec S16x4096 32) : IVec S16x4096 32 :=
  let v0 : IVec S16x4096 32 := broadcastInDim S16x4096 ![] bcast_S_S16x4096 (constantI S_ 32 0#32)
  let v1 : IVec S16x4096 1 := cmpi .slt x v0
  let v2 : IVec S16x4096 32 := broadcastInDim S16x4096 ![] bcast_S_S16x4096 (constantI S_ 32 2048#32)
  let v3 : IVec S16x4096 32 := addi x v2
  select v1 v3 x

/-- The combined rows `[16, 4096, 512]`: gathered token rows, then gathered type rows. -/
def combTerm (x : IVec S16x4096 32) (tok : FVec F S2048x504 .f32) (typ : FVec F S5x8 .f32) : FVec F S16x4096x512 .f32 :=
  let v5 : IVec S16x4096x1 32 := broadcastInDim S16x4096x1 ![0, 1] bcast_S16x4096_S16x4096x1_0_1 (tokIdxTerm x)
  let v6 : FVec F S16x4096x504 .f32 := Host.gather gather_S2048x504_S16x4096x1_S16x4096x504_2_0_n_n_0_2_1504 tok v5
  let v24 : IVec S16x4096x1 32 := broadcastInDim S16x4096x1 ![0, 1] bcast_S16x4096_S16x4096x1_0_1 (typeIdxTerm x)
  let v25 : FVec F S16x4096x8 .f32 := Host.gather gather_S5x8_S16x4096x1_S16x4096x8_2_0_n_n_0_2_18 typ v24
  concatenate S16x4096x512 2 [⟨S16x4096x504, v6⟩, ⟨S16x4096x8, v25⟩] concatenates_S16x4096x504_S16x4096x8_S16x4096x512_d2

/-- The variance of every row about its own mean, as a column `[16, 4096, 1]`. -/
def varTerm (comb : FVec F S16x4096x512 .f32) : FVec F S16x4096x1 .f32 :=
  let cst : FVec F S_ .f32 := constant S_ .f32 0x00000000#32
  let v0 : FVec F S16x4096 .f32 := Host.reduceAdd comb cst reducesTo_S16x4096x512_S16x4096_d2 h_S_
  let v1 : FVec F S16x4096x1 .f32 := broadcastInDim S16x4096x1 ![0, 1] bcast_S16x4096_S16x4096x1_0_1 v0
  let v2 : FVec F S16x4096x1 .f32 := broadcastInDim S16x4096x1 ![] bcast_S_S16x4096x1 (constant S_ .f32 0x44000000#32)
  let v3 : FVec F S16x4096x1 .f32 := Host.divf v1 v2
  let v4 : FVec F S16x4096x512 .f32 := broadcastInDim S16x4096x512 ![0, 1, 2] bcast_S16x4096x1_S16x4096x512_0_1_2 v3
  let v5 : FVec F S16x4096x512 .f32 := subf comb v4
  let v6 : FVec F S16x4096x512 .f32 := mulf v5 v5
  let v7 : FVec F S_ .f32 := sitofp .f32 (constantI S_ 32 0#32)
  let v8 : FVec F S_ .f32 := subf (constant S_ .f32 0x44000000#32) v7
  let v9 : FVec F S16x4096 .f32 := Host.reduceAdd v6 (constant S_ .f32 0x00000000#32) reducesTo_S16x4096x512_S16x4096_d2 h_S_
  let v10 : FVec F S16x4096x1 .f32 := broadcastInDim S16x4096x1 ![0, 1] bcast_S16x4096_S16x4096x1_0_1 v9
  let v11 : FVec F S16x4096x1 .f32 := broadcastInDim S16x4096x1 ![] bcast_S_S16x4096x1 v8
  let v12 : FVec F S16x4096x1 .f32 := Host.divf v10 v11
  let v13 : IVec S_ 1 := cmpf .ogt v8 (constant S_ .f32 0x00000000#32)
  let w1 : FVec F S16x4096x1 .f32 := broadcastInDim S16x4096x1 ![] bcast_S_S16x4096x1 (id (constant S_ .f32 0x7FC00000#32))
  select (broadcastInDim S16x4096x1 ![] bcast_S_S16x4096x1 v13) v12 w1

/-- The normalisation of every row of `comb`. -/
def normTerm (comb : FVec F S16x4096x512 .f32) (γ β : FVec F S512 .f32) : FVec F S16x4096x512 .f32 :=
  let v27 : FVec F S16x4096 .f32 := Host.reduceAdd comb (constant S_ .f32 0x00000000#32) reducesTo_S16x4096x512_S16x4096_d2 h_S_
  let v28 : FVec F S16x4096x1 .f32 := broadcastInDim S16x4096x1 ![0, 1] bcast_S16x4096_S16x4096x1_0_1 v27
  let v29 : FVec F S16x4096x1 .f32 := broadcastInDim S16x4096x1 ![] bcast_S_S16x4096x1 (constant S_ .f32 0x44000000#32)
  let v30 : FVec F S16x4096x1 .f32 := Host.divf v28 v29
  let v31 : FVec F S16x4096x1 .f32 := varTerm comb
  let v32 : FVec F S16x4096x512 .f32 := broadcastInDim S16x4096x512 ![0, 1, 2] bcast_S16x4096x1_S16x4096x512_0_1_2 v30
  let v33 : FVec F S16x4096x512 .f32 := subf comb v32
  let v34 : FVec F S16x4096x1 .f32 := broadcastInDim S16x4096x1 ![] bcast_S_S16x4096x1 (constant S_ .f32 0x3727C5AC#32)
  let v35 : FVec F S16x4096x1 .f32 := addf v31 v34
  let v36 : FVec F S16x4096x1 .f32 := Host.rsqrt v35
  let v37 : FVec F S16x4096x512 .f32 := broadcastInDim S16x4096x512 ![0, 1, 2] bcast_S16x4096x1_S16x4096x512_0_1_2 v36
  let v38 : FVec F S16x4096x512 .f32 := mulf v33 v37
  let v39 : FVec F S1x1x512 .f32 := broadcastInDim S1x1x512 ![2] bcast_S512_S1x1x512_2 γ
  let v40 : FVec F S16x4096x512 .f32 := broadcastInDim S16x4096x512 ![0, 1, 2] bcast_S1x1x512_S16x4096x512_0_1_2 v39
  let v41 : FVec F S16x4096x512 .f32 := mulf v38 v40
  let v42 : FVec F S1x1x512 .f32 := broadcastInDim S1x1x512 ![2] bcast_S512_S1x1x512_2 β
  let v43 : FVec F S16x4096x512 .f32 := broadcastInDim S16x4096x512 ![0, 1, 2] bcast_S1x1x512_S16x4096x512_0_1_2 v42
  let v44 : FVec F S16x4096x512 .f32 := addf v41 v43
  let v45 : FVec F S16x4096x512 .f32 := broadcastInDim S16x4096x512 ![] bcast_S_S16x4096x512 (constant S_ .f32 0x41B504F3#32)
  mulf v44 v45

/-- The reference's result. -/
def outTerm (x : IVec S16x4096 32) (tok : FVec F S2048x504 .f32) (typ : FVec F S5x8 .f32) (γ β : FVec F S512 .f32) :
    FVec F S16x4096x512 .f32 :=
  normTerm (combTerm x tok typ) γ β

end Cert.ReferenceIdeal.RefValue

end
-- ==== Proof.LibGatherRead3.lean ====
/-
  A gather of whole rows of a table by a rank-3 array of start indices, read at an index given by coordinates.

  The operand is a table `[N, C]`, the start indices are `[A, B, 1]` (the last axis is the index vector, of length
  one), and the result is `[A, B, C]`: the result's first two axes are batch axes (they pick the start index), its last
  axis is the offset axis (it runs along the row).  On the operand's axis 0 the position is the start-index word read as
  a signed integer and clamped into `[0, N - 1]` (a slice is one row); on axis 1 it is the result's last coordinate.
-/
import Idealize.ShloMosaic.PureOps.ShapeOps
import Idealize.ShloMosaic.Lib.ValueIdx

noncomputable section

namespace Cert.LibGatherRead3

open Idealize.ShloMosaic Idealize.ShloMosaic.ValueIdx

variable {α : Type}

/-- The dimension numbers of a gather of whole rows by a rank-3 index array: operand `[N, C]`, start indices
    `[A, B, 1]`, result `[A, B, C]`; the result's axis 2 is the offset axis, the operand's axis 0 is collapsed and is
    the one the start index names, the index vector is the start indices' axis 2, and a slice is one row `[1, C]`. -/
abbrev rows3Dims (N C A B : Nat)
    (wf : GatherDims.WF ⟨2, ![N, C]⟩ ⟨3, ![A, B, 1]⟩ ⟨3, ![A, B, C]⟩ [2] [0] [] [0] [] 2 ![1, C]) :
    GatherDims ⟨2, ![N, C]⟩ ⟨3, ![A, B, 1]⟩ ⟨3, ![A, B, C]⟩ where
  offsetDims := [2]
  collapsedSliceDims := [0]
  operandBatchingDims := []
  startIndicesBatchingDims := []
  startIndexMap := [0]
  indexVectorDim := 2
  sliceSizes := ![1, C]
  wf := wf

/-- A ROW GATHER BY A RANK-3 INDEX ARRAY READ AT `(a, b, c)`: the operand at row `idx[a, b, 0]` (read signed,
    clamped into `[0, N − 1]`) and column `c`. -/
theorem gather_rows3_apply {N C A B w : Nat} (hN : 0 < N)
    (wf : GatherDims.WF ⟨2, ![N, C]⟩ ⟨3, ![A, B, 1]⟩ ⟨3, ![A, B, C]⟩ [2] [0] [] [0] [] 2 ![1, C])
    (x : (⟨2, ![N, C]⟩ : Shape).Idx → α) (idx : IVec ⟨3, ![A, B, 1]⟩ w) (a : Fin A) (b : Fin B) (c : Fin C) :
    Host.gather (rows3Dims N C A B wf) x idx (ix3 a b c)
      = x (ix2 (⟨min (idx (ix3 a b (0 : Fin 1))).toInt.toNat (N - 1), by omega⟩ : Fin N) c) := by
  unfold Host.gather
  congr 1
  funext e
  refine Fin.ext ?_
  match e with
  | ⟨0, _⟩ =>
    -- the indexed axis: the clamped start, nothing added
    show (rows3Dims N C A B wf).start (ix3 a b c) idx 0 + (rows3Dims N C A B wf).batchCoord (ix3 a b c) 0
        + (rows3Dims N C A B wf).offCoord (ix3 a b c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rows3Dims N C A B wf).startIndexMap from List.mem_singleton.mpr rfl)]
    have hsi : (rows3Dims N C A B wf).siIdx (ix3 a b c) ⟨List.idxOf (0 : Fin 2) (rows3Dims N C A B wf).startIndexMap,
        List.idxOf_lt_length_iff.2 (List.mem_singleton.mpr rfl)⟩ = ix3 a b (0 : Fin 1) := by
      funext q; refine Fin.ext ?_
      match q with
      | ⟨0, _⟩ => rfl
      | ⟨1, _⟩ => rfl
      | ⟨2, _⟩ => rfl
    rw [hsi]
    rfl
  | ⟨1, _⟩ =>
    -- the offset axis: start zero, the result's last coordinate
    show (rows3Dims N C A B wf).start (ix3 a b c) idx 1 + (rows3Dims N C A B wf).batchCoord (ix3 a b c) 1
        + (rows3Dims N C A B wf).offCoord (ix3 a b c) 1 = _
    rw [GatherDims.batchCoord_eq_zero _ _ _ List.not_mem_nil]
    unfold GatherDims.start
    rw [dif_neg (show (1 : Fin 2) ∉ (rows3Dims N C A B wf).startIndexMap from
      fun h => absurd (List.mem_singleton.mp h) (show ¬ ((1 : Fin 2) = 0) by decide))]
    simp only [Nat.add_zero, Nat.zero_add]
    rfl

end Cert.LibGatherRead3

end
-- ==== Proof.RefCombRead.lean ====
import proofs.«426015_j33715493274183_3_alg».proof.Proof.RefTerm
import proofs.«426015_j33715493274183_3_alg».proof.Proof.Spec
import proofs.«426015_j33715493274183_3_alg».proof.Proof.LibGatherRead3
import Idealize.ShloMosaic.Lib.Pipeline.Value
import Idealize.ShloMosaic.Lib.IdealHost
import Idealize.ShloMosaic.PureOps.Reduce

noncomputable section

namespace Cert.ReferenceIdeal.RefValue

open Cert.ReferenceIdeal Cert.ReferenceIdeal.Gen Idealize.ShloMosaic Idealize.ShloMosaic.ValueIdx Cert.EmbedNorm

/-! ## Words -/

/-- A word below 4096 read as a signed integer is its value. -/
theorem toInt_small (w : BitVec 32) (h : w.toNat < 4096) : w.toInt = (w.toNat : Int) := by
  rw [BitVec.toInt_eq_toNat_cond, if_pos (by omega)]

/-- The word of a natural below 4096 read as a signed integer is the natural. -/
theorem toInt_ofNat_small (c : Nat) (h : c < 4096) : (BitVec.ofNat 32 c).toInt = (c : Int) := by
  rw [toInt_small _ (by rw [BitVec.toNat_ofNat, Nat.mod_eq_of_lt (by omega)]; exact h), BitVec.toNat_ofNat,
    Nat.mod_eq_of_lt (by omega)]

/-- The signed comparison "`w` is at least the word of `c`" for small `w`, `c` is the comparison of the naturals. -/
theorem sge_small (w : BitVec 32) (c : Nat) (hw : w.toNat < 2048) (hc : c < 4096) :
    IntOp.cmpi .sge w (BitVec.ofNat 32 c) = BitVec.ofBool (decide (c ≤ w.toNat)) := by
  show BitVec.ofBool ((BitVec.ofNat 32 c).sle w) = _
  congr 1
  simp only [BitVec.sle, toInt_small w (by omega), toInt_ofNat_small c hc]
  simp

/-- The signed comparison "`w` is below the word of `c`" for small `w`, `c` is the comparison of the naturals. -/
theorem slt_small (w : BitVec 32) (c : Nat) (hw : w.toNat < 2048) (hc : c < 4096) :
    IntOp.cmpi .slt w (BitVec.ofNat 32 c) = BitVec.ofBool (decide (w.toNat < c)) := by
  show BitVec.ofBool (w.slt (BitVec.ofNat 32 c)) = _
  congr 1
  simp only [BitVec.slt, toInt_small w (by omega), toInt_ofNat_small c hc]
  simp

/-- The flag of range `k` at the word `w`: "`w` is at least the range's start and below its end". -/
def flag (w : BitVec 32) (k : Fin 5) : BitVec 1 :=
  IntOp.andi (IntOp.cmpi .sge w (lit0 k)) (IntOp.cmpi .slt w (lit1 k))

/-- The conjunction of two one-bit truth values is set exactly when both are. -/
theorem andi_ofBool (p q : Bool) : IntOp.andi (BitVec.ofBool p) (BitVec.ofBool q) = 1#1 ↔ (p = true ∧ q = true) := by
  cases p <;> cases q <;> decide

/-- For an id below 2048 exactly one range holds it: the one its type names. -/
theorem flag_eq_one_iff (w : BitVec 32) (hw : w.toNat < 2048) (k : Fin 5) :
    flag w k = 1#1 ↔ k = typeOf w.toNat := by
  unfold flag typeOf
  rw [Fin.ext_iff]
  fin_cases k
  · show IntOp.andi (IntOp.cmpi .sge w (BitVec.ofNat 32 0)) (IntOp.cmpi .slt w (BitVec.ofNat 32 128)) = 1#1 ↔ 0 = _
    rw [sge_small w _ hw (by norm_num), slt_small w _ hw (by norm_num), andi_ofBool]
    simp only [decide_eq_true_eq]
    split_ifs <;> first | omega | (simp only [iff_false]; omega)
  · show IntOp.andi (IntOp.cmpi .sge w (BitVec.ofNat 32 128)) (IntOp.cmpi .slt w (BitVec.ofNat 32 256)) = 1#1 ↔ 1 = _
    rw [sge_small w _ hw (by norm_num), slt_small w _ hw (by norm_num), andi_ofBool]
    simp only [decide_eq_true_eq]
    split_ifs <;> first | omega | (simp only [iff_false]; omega)
  · show IntOp.andi (IntOp.cmpi .sge w (BitVec.ofNat 32 256)) (IntOp.cmpi .slt w (BitVec.ofNat 32 512)) = 1#1 ↔ 2 = _
    rw [sge_small w _ hw (by norm_num), slt_small w _ hw (by norm_num), andi_ofBool]
    simp only [decide_eq_true_eq]
    split_ifs <;> first | omega | (simp only [iff_false]; omega)
  · show IntOp.andi (IntOp.cmpi .sge w (BitVec.ofNat 32 512)) (IntOp.cmpi .slt w (BitVec.ofNat 32 1024)) = 1#1 ↔ 3 = _
    rw [sge_small w _ hw (by norm_num), slt_small w _ hw (by norm_num), andi_ofBool]
    simp only [decide_eq_true_eq]
    split_ifs <;> first | omega | (simp only [iff_false]; omega)
  · show IntOp.andi (IntOp.cmpi .sge w (BitVec.ofNat 32 1024)) (IntOp.cmpi .slt w (BitVec.ofNat 32 2048)) = 1#1 ↔ 4 = _
    rw [sge_small w _ hw (by norm_num), slt_small w _ hw (by norm_num), andi_ofBool]
    simp only [decide_eq_true_eq]
    split_ifs <;> first | omega | (simp only [iff_false]; omega)

/-! ## The arg-max fold when exactly one flag is set -/

/-- A one-bit word is clear or set. -/
theorem bit_cases (f : BitVec 1) : f = 0#1 ∨ f = 1#1 := by
  revert f; decide

/-- The arg-max step on two equal set entries keeps the entry. -/
theorem red_11 (K : BitVec 32) : reducer_argmax_i1_i32 (1#1, K) (1#1, K) = (1#1, K) := by
  simp [reducer_argmax_i1_i32, IntOp.cmpi, IntOp.ori, IntOp.andi, Scalar.select, BitVec.slt]

/-- The arg-max step keeps a set entry against a clear one. -/
theorem red_10 (K p : BitVec 32) : reducer_argmax_i1_i32 (1#1, K) (0#1, p) = (1#1, K) := by
  simp [reducer_argmax_i1_i32, IntOp.cmpi, IntOp.ori, IntOp.andi, Scalar.select]

/-- The arg-max step takes a set entry over a clear one. -/
theorem red_01 (m p : BitVec 32) : reducer_argmax_i1_i32 (0#1, m) (1#1, p) = (1#1, p) := by
  simp [reducer_argmax_i1_i32, IntOp.cmpi, IntOp.ori, IntOp.andi, Scalar.select]

/-- The arg-max step on two clear entries leaves a clear flag. -/
theorem red_00 (m p : BitVec 32) : (reducer_argmax_i1_i32 (0#1, m) (0#1, p)).1 = 0#1 := by
  simp [reducer_argmax_i1_i32, IntOp.cmpi, IntOp.ori, IntOp.andi, Scalar.select]

/-- The arg-max fold over any list of entries (flag, position), started from a pair whose flag is clear or that
    already is `(1, K)`: when every set flag in the list sits at position `K` and the list holds a set flag (or the
    start already is `(1, K)`), the fold ends at `(1, K)`, whatever the order of the list. -/
theorem argmax_fold_unique {ι : Type} (fl : ι → BitVec 1) (pos : ι → BitVec 32) (K : BitVec 32) (l : List ι)
    (hB : ∀ i ∈ l, fl i = 1#1 → pos i = K) (acc : BitVec 1 × BitVec 32)
    (hacc : acc.1 = 0#1 ∨ acc = (1#1, K)) (hA : acc = (1#1, K) ∨ ∃ i ∈ l, fl i = 1#1) :
    l.foldl (fun r i => reducer_argmax_i1_i32 r (fl i, pos i)) acc = (1#1, K) := by
  induction l generalizing acc with
  | nil =>
    rcases hA with h | ⟨i, hi, _⟩
    · exact h
    · exact absurd hi (List.not_mem_nil)
  | cons i l ih =>
    rw [List.foldl_cons]
    have hB' : ∀ j ∈ l, fl j = 1#1 → pos j = K := fun j hj => hB j (List.mem_cons_of_mem _ hj)
    rcases hacc with h0 | h1
    · -- the accumulated flag is clear
      obtain ⟨a1, a2⟩ := acc
      simp only at h0; subst h0
      rcases bit_cases (fl i) with f0 | f1
      · rw [f0]
        refine ih hB' _ (Or.inl (red_00 _ _)) (Or.inr ?_)
        rcases hA with h | ⟨j, hj, hfj⟩
        · exact absurd (congrArg Prod.fst h) (show ¬ ((0#1 : BitVec 1) = 1#1) by decide)
        · rcases List.mem_cons.1 hj with rfl | hj'
          · rw [f0] at hfj; exact absurd hfj (by decide)
          · exact ⟨j, hj', hfj⟩
      · rw [f1, red_01, hB i (List.mem_cons_self) f1]
        exact ih hB' _ (Or.inr rfl) (Or.inl rfl)
    · subst h1
      rcases bit_cases (fl i) with f0 | f1
      · rw [f0, red_10]; exact ih hB' _ (Or.inr rfl) (Or.inl rfl)
      · rw [f1, hB i (List.mem_cons_self) f1, red_11]; exact ih hB' _ (Or.inr rfl) (Or.inl rfl)

/-- A select on "the word is negative" keeps a word below 2048. -/
theorem select_nonneg (w : BitVec 32) (hw : w.toNat < 2048) (a : BitVec 32) :
    Scalar.select (IntOp.cmpi .slt w 0#32) a w = w := by
  rw [show (0#32 : BitVec 32) = BitVec.ofNat 32 0 from rfl, slt_small w 0 hw (by norm_num)]
  simp [Scalar.select]

/-- A word below 2048, read signed and clamped into `[0, 2047]`, is its value. -/
theorem clamp_word (w : BitVec 32) (hw : w.toNat < 2048) : min w.toInt.toNat (2048 - 1) = w.toNat % 2048 := by
  rw [toInt_small w (by omega), Int.toNat_natCast, Nat.mod_eq_of_lt hw]; omega

/-- A natural below 5 as a word, read signed and clamped into `[0, 4]`, is the natural. -/
theorem clamp_type (m : Nat) (hm : m < 5) : min (BitVec.ofNat 32 m).toInt.toNat (5 - 1) = m := by
  rw [toInt_ofNat_small m (by omega), Int.toNat_natCast]; omega

/-! ## The flags -/

/-- The flags `[16, 4096, 5]` as the reference computes them: at `(b, t, k)`, "the id `x[b, t]` lies in range `k`". -/
def flagsTerm (x : IVec S16x4096 32) : IVec S16x4096x5 1 :=
  let c : IVec S5 32 := fun i => lit0 (S5.rowMajor i)
  let c_0 : IVec S5 32 := fun i => lit1 (S5.rowMajor i)
  let v7 : IVec S16x4096x1 32 := broadcastInDim S16x4096x1 ![0, 1] bcast_S16x4096_S16x4096x1_0_1 x
  let v8 : IVec S1x1x5 32 := broadcastInDim S1x1x5 ![2] bcast_S5_S1x1x5_2 c
  let v9 : IVec S16x4096x5 32 := broadcastInDim S16x4096x5 ![0, 1, 2] bcast_S16x4096x1_S16x4096x5_0_1_2 v7
  let v10 : IVec S16x4096x5 32 := broadcastInDim S16x4096x5 ![0, 1, 2] bcast_S1x1x5_S16x4096x5_0_1_2 v8
  let v11 : IVec S16x4096x5 1 := cmpi .sge v9 v10
  let v12 : IVec S16x4096x1 32 := broadcastInDim S16x4096x1 ![0, 1] bcast_S16x4096_S16x4096x1_0_1 x
  let v13 : IVec S1x1x5 32 := broadcastInDim S1x1x5 ![2] bcast_S5_S1x1x5_2 c_0
  let v14 : IVec S16x4096x5 32 := broadcastInDim S16x4096x5 ![0, 1, 2] bcast_S16x4096x1_S16x4096x5_0_1_2 v12
  let v15 : IVec S16x4096x5 32 := broadcastInDim S16x4096x5 ![0, 1, 2] bcast_S1x1x5_S16x4096x5_0_1_2 v13
  let v16 : IVec S16x4096x5 1 := cmpi .slt v14 v15
  andi v11 v16

/-- The ids broadcast along a new last axis of five read the id. -/
theorem bcast_ids_apply (x : IVec S16x4096 32) (b : Fin 16) (t : Fin 4096) (k : Fin 5) :
    broadcastInDim S16x4096x5 ![0, 1, 2] bcast_S16x4096x1_S16x4096x5_0_1_2
      (broadcastInDim S16x4096x1 ![0, 1] bcast_S16x4096_S16x4096x1_0_1 x) (ix3 b t k) = x (ix2 b t) := by
  refine (broadcastInDim_apply _ _ _ (ix3 b t k) (ix3 b t (0 : Fin 1))
    (fun a => by match a with | ⟨0, _⟩ => rfl | ⟨1, _⟩ => rfl | ⟨2, _⟩ => rfl)).trans ?_
  exact broadcastInDim_apply _ _ _ (ix3 b t (0 : Fin 1)) (ix2 b t)
    (fun a => by match a with | ⟨0, _⟩ => rfl | ⟨1, _⟩ => rfl)

/-- A vector of five broadcast along two new leading axes reads its entry. -/
theorem bcast_lit_apply (c : IVec S5 32) (b : Fin 16) (t : Fin 4096) (k : Fin 5) :
    broadcastInDim S16x4096x5 ![0, 1, 2] bcast_S1x1x5_S16x4096x5_0_1_2
      (broadcastInDim S1x1x5 ![2] bcast_S5_S1x1x5_2 c) (ix3 b t k) = c (ix1 k) := by
  refine (broadcastInDim_apply _ _ _ (ix3 b t k) (ix3 (0 : Fin 1) (0 : Fin 1) k)
    (fun a => by match a with | ⟨0, _⟩ => rfl | ⟨1, _⟩ => rfl | ⟨2, _⟩ => rfl)).trans ?_
  exact broadcastInDim_apply _ _ _ (ix3 (0 : Fin 1) (0 : Fin 1) k) (ix1 k)
    (fun a => by match a with | ⟨0, _⟩ => rfl)

/-- The flags at `(b, t, k)`. -/
theorem flagsTerm_apply (x : IVec S16x4096 32) (b : Fin 16) (t : Fin 4096) (k : Fin 5) :
    flagsTerm x (ix3 b t k) = flag (x (ix2 b t)) k := by
  have e9 := bcast_ids_apply x b t k
  have e10 := bcast_lit_apply (fun i => lit0 (S5.rowMajor i)) b t k
  have e15 := bcast_lit_apply (fun i => lit1 (S5.rowMajor i)) b t k
  have hk : S5.rowMajor (ix1 k) = k := Fin.ext (Shape.rowMajor_val_one _)
  show IntOp.andi (IntOp.cmpi .sge _ _) (IntOp.cmpi .slt _ _) = _
  rw [e9, e10, e15]
  show IntOp.andi (IntOp.cmpi .sge _ (lit0 (S5.rowMajor (ix1 k)))) (IntOp.cmpi .slt _ (lit1 (S5.rowMajor (ix1 k)))) = _
  rw [hk]
  rfl

/-! ## The type index -/

/-- The reference's arg-max over the five flags, at an id below 2048: the set flag, and the type of the id. -/
theorem reduce_apply (x : IVec S16x4096 32) (hx : InRange x) (b : Fin 16) (t : Fin 4096) :
    Host.reduce2 reducer_argmax_i1_i32 (flagsTerm x) (iotaInDim S16x4096x5 32 2) (constantI S_ 1 0#1)
      (constantI S_ 32 0#32) reducesTo_S16x4096x5_S16x4096_d2 h_S_ (ix2 b t)
      = (1#1, BitVec.ofNat 32 (typeOf (x (ix2 b t)).toNat).val) := by
  have hw := hx (ix2 b t)
  have e : Host.reduce2 reducer_argmax_i1_i32 (flagsTerm x) (iotaInDim S16x4096x5 32 2) (constantI S_ 1 0#1)
      (constantI S_ 32 0#32) reducesTo_S16x4096x5_S16x4096_d2 h_S_ (ix2 b t)
      = Host.reduce reducer_argmax_i1_i32 (fun i => (flagsTerm x i, iotaInDim S16x4096x5 32 2 i))
          (fun i => (constantI S_ 1 0#1 i, constantI S_ 32 0#32 i)) reducesTo_S16x4096x5_S16x4096_d2 h_S_ (ix2 b t) := rfl
  rw [e, Host.reduce_eq_foldl]
  -- an index drops to (b, t) exactly when its first two coordinates are b and t
  have hdrop : ∀ i : S16x4096x5.Idx,
      reducesTo_S16x4096x5_S16x4096_d2.drop i = ix2 b t ↔ (i 0 = b ∧ i 1 = t) := by
    intro i
    have h0 : ((reducesTo_S16x4096x5_S16x4096_d2.drop i) 0 : Nat) = i 0 :=
      Shape.ReducesTo.drop_apply_val_of_eq _ i 0 0
    have h1 : ((reducesTo_S16x4096x5_S16x4096_d2.drop i) 1 : Nat) = i 1 :=
      Shape.ReducesTo.drop_apply_val_of_eq _ i 1 1
    constructor
    · intro e'
      rw [e'] at h0 h1
      exact ⟨Fin.ext h0.symm, Fin.ext h1.symm⟩
    · rintro ⟨e0, e1⟩
      funext a
      match a with
      | ⟨0, _⟩ => exact Fin.ext (h0.trans (congrArg Fin.val e0))
      | ⟨1, _⟩ => exact Fin.ext (h1.trans (congrArg Fin.val e1))
  refine argmax_fold_unique (fun i => flagsTerm x i) (fun i => iotaInDim S16x4096x5 32 2 i) _ _ ?_ _ (Or.inl rfl)
    (Or.inr ⟨ix3 b t (typeOf (x (ix2 b t)).toNat), ?_, ?_⟩)
  · -- a set flag sits at the type of the id
    intro i hi hf
    have hd : reducesTo_S16x4096x5_S16x4096_d2.drop i = ix2 b t := of_decide_eq_true (List.mem_filter.1 hi).2
    obtain ⟨e0, e1⟩ := (hdrop i).1 hd
    obtain ⟨a', b', k, rfl⟩ : ∃ (a' : Fin 16) (b' : Fin 4096) (k : Fin 5), i = ix3 a' b' k :=
      ⟨i 0, i 1, i 2, eq_ix3 i⟩
    have e0' : a' = b := e0
    have e1' : b' = t := e1
    subst e0' e1'
    rw [flagsTerm_apply] at hf
    have hk := (flag_eq_one_iff _ hw k).1 hf
    show BitVec.ofNat 32 k.val = _
    rw [hk]
  · exact List.mem_filter.2 ⟨List.mem_map.2 ⟨S16x4096x5.rowMajor (ix3 b t (typeOf (x (ix2 b t)).toNat)),
      List.mem_finRange _, Equiv.symm_apply_apply _ _⟩, decide_eq_true ((hdrop _).2 ⟨rfl, rfl⟩)⟩
  · show flagsTerm x (ix3 b t (typeOf (x (ix2 b t)).toNat)) = 1#1
    rw [flagsTerm_apply]
    exact (flag_eq_one_iff _ hw _).2 rfl

/-- The reference's type index at `(b, t)`, for ids in range: the word of the type of the id. -/
theorem typeIdxTerm_apply (x : IVec S16x4096 32) (hx : InRange x) (b : Fin 16) (t : Fin 4096) :
    typeIdxTerm x (ix2 b t) = BitVec.ofNat 32 (typeOf (x (ix2 b t)).toNat).val := by
  have hr := reduce_apply x hx b t
  show Scalar.select (IntOp.cmpi .slt (Host.reduce2 reducer_argmax_i1_i32 (flagsTerm x) (iotaInDim S16x4096x5 32 2)
      (constantI S_ 1 0#1) (constantI S_ 32 0#32) reducesTo_S16x4096x5_S16x4096_d2 h_S_ (ix2 b t)).2 0#32)
    (IntOp.addi (Host.reduce2 reducer_argmax_i1_i32 (flagsTerm x) (iotaInDim S16x4096x5 32 2)
      (constantI S_ 1 0#1) (constantI S_ 32 0#32) reducesTo_S16x4096x5_S16x4096_d2 h_S_ (ix2 b t)).2 5#32)
    (Host.reduce2 reducer_argmax_i1_i32 (flagsTerm x) (iotaInDim S16x4096x5 32 2)
      (constantI S_ 1 0#1) (constantI S_ 32 0#32) reducesTo_S16x4096x5_S16x4096_d2 h_S_ (ix2 b t)).2 = _
  rw [hr]
  refine select_nonneg _ ?_ _
  rw [BitVec.toNat_ofNat, Nat.mod_eq_of_lt (by have := (typeOf (x (ix2 b t)).toNat).isLt; omega)]
  have := (typeOf (x (ix2 b t)).toNat).isLt; omega

/-- The reference's token row index at `(b, t)`, for ids in range: the id. -/
theorem tokIdxTerm_apply (x : IVec S16x4096 32) (hx : InRange x) (j : S16x4096.Idx) : tokIdxTerm x j = x j :=
  select_nonneg (x j) (hx j) _

/-! ## The combined rows -/

/-- The reference's combined rows read at `(b, t, d)`, for ids in range: entry `d` of the combined row of the id
    `x[b, t]`. -/
theorem combTerm_apply (x : IVec S16x4096 32) (tok : FVec Ideal S2048x504 .f32) (typ : FVec Ideal S5x8 .f32)
    (hx : InRange x) (b : Fin 16) (t : Fin 4096) (d : Fin 512) :
    combTerm (F := Ideal) x tok typ (ix3 b t d) = combRow tok typ (vocabOf (x (ix2 b t))) d := by
  have hw := hx (ix2 b t)
  unfold combRow
  by_cases h : d.val < 504
  · rw [dif_pos h]
    -- the first piece, at column `d`: a gathered token row
    have hc := concatenate_pair_apply_left (t := S16x4096x512) (s₁ := S16x4096x504) (s₂ := S16x4096x8) 2
      (Host.gather gather_S2048x504_S16x4096x1_S16x4096x504_2_0_n_n_0_2_1504 tok
        (broadcastInDim S16x4096x1 ![0, 1] bcast_S16x4096_S16x4096x1_0_1 (tokIdxTerm x)))
      (Host.gather gather_S5x8_S16x4096x1_S16x4096x8_2_0_n_n_0_2_18 typ
        (broadcastInDim S16x4096x1 ![0, 1] bcast_S16x4096_S16x4096x1_0_1 (typeIdxTerm x)))
      concatenates_S16x4096x504_S16x4096x8_S16x4096x512_d2 (ix3 b t d) rfl (ix3 b t (⟨d.val, h⟩ : Fin 504))
      (fun a => by match a with | ⟨0, _⟩ => rfl | ⟨1, _⟩ => rfl | ⟨2, _⟩ => rfl)
    refine hc.trans ?_
    have hg := Cert.LibGatherRead3.gather_rows3_apply (N := 2048) (C := 504) (A := 16) (B := 4096) (by norm_num)
      gather_S2048x504_S16x4096x1_S16x4096x504_2_0_n_n_0_2_1504_wf tok
      (broadcastInDim S16x4096x1 ![0, 1] bcast_S16x4096_S16x4096x1_0_1 (tokIdxTerm x)) b t (⟨d.val, h⟩ : Fin 504)
    refine hg.trans ?_
    have hb : broadcastInDim S16x4096x1 ![0, 1] bcast_S16x4096_S16x4096x1_0_1 (tokIdxTerm x) (ix3 b t (0 : Fin 1))
        = tokIdxTerm x (ix2 b t) :=
      broadcastInDim_apply _ _ _ (ix3 b t (0 : Fin 1)) (ix2 b t)
        (fun a => by match a with | ⟨0, _⟩ => rfl | ⟨1, _⟩ => rfl)
    refine congrArg tok ?_
    refine congrArg (fun r : Fin 2048 => ix2 r (⟨d.val, h⟩ : Fin 504)) (Fin.ext ?_)
    show min (broadcastInDim S16x4096x1 ![0, 1] bcast_S16x4096_S16x4096x1_0_1 (tokIdxTerm x)
      (ix3 b t (0 : Fin 1))).toInt.toNat (2048 - 1) = (x (ix2 b t)).toNat % 2048
    rw [hb, tokIdxTerm_apply x hx]
    exact clamp_word _ hw
  · rw [dif_neg h]
    have hd : d.val - 504 < 8 := by have := d.isLt; omega
    -- the second piece, at column `d − 504`: a gathered type row
    have hc := concatenate_pair_apply_right (t := S16x4096x512) (s₁ := S16x4096x504) (s₂ := S16x4096x8) 2
      (Host.gather gather_S2048x504_S16x4096x1_S16x4096x504_2_0_n_n_0_2_1504 tok
        (broadcastInDim S16x4096x1 ![0, 1] bcast_S16x4096_S16x4096x1_0_1 (tokIdxTerm x)))
      (Host.gather gather_S5x8_S16x4096x1_S16x4096x8_2_0_n_n_0_2_18 typ
        (broadcastInDim S16x4096x1 ![0, 1] bcast_S16x4096_S16x4096x1_0_1 (typeIdxTerm x)))
      concatenates_S16x4096x504_S16x4096x8_S16x4096x512_d2 (ix3 b t d) rfl rfl (ix3 b t (⟨d.val - 504, hd⟩ : Fin 8))
      (fun a ha => by match a, ha with | ⟨0, _⟩, _ => rfl | ⟨1, _⟩, _ => rfl | ⟨2, _⟩, ha => exact absurd rfl ha)
      (by show d.val - 504 + 504 = d.val; omega)
    refine hc.trans ?_
    have hg := Cert.LibGatherRead3.gather_rows3_apply (N := 5) (C := 8) (A := 16) (B := 4096) (by norm_num)
      gather_S5x8_S16x4096x1_S16x4096x8_2_0_n_n_0_2_18_wf typ
      (broadcastInDim S16x4096x1 ![0, 1] bcast_S16x4096_S16x4096x1_0_1 (typeIdxTerm x)) b t (⟨d.val - 504, hd⟩ : Fin 8)
    refine hg.trans ?_
    have hb : broadcastInDim S16x4096x1 ![0, 1] bcast_S16x4096_S16x4096x1_0_1 (typeIdxTerm x) (ix3 b t (0 : Fin 1))
        = typeIdxTerm x (ix2 b t) :=
      broadcastInDim_apply _ _ _ (ix3 b t (0 : Fin 1)) (ix2 b t)
        (fun a => by match a with | ⟨0, _⟩ => rfl | ⟨1, _⟩ => rfl)
    refine congrArg typ ?_
    refine congrArg (fun r : Fin 5 => ix2 r (⟨d.val - 504, hd⟩ : Fin 8)) (Fin.ext ?_)
    show min (broadcastInDim S16x4096x1 ![0, 1] bcast_S16x4096_S16x4096x1_0_1 (typeIdxTerm x)
      (ix3 b t (0 : Fin 1))).toInt.toNat (5 - 1) = (typeOf ((x (ix2 b t)).toNat % 2048)).val
    rw [hb, typeIdxTerm_apply x hx, Nat.mod_eq_of_lt hw]
    exact clamp_type _ (typeOf (x (ix2 b t)).toNat).isLt

end Cert.ReferenceIdeal.RefValue

end
-- ==== Proof.RefNormRead.lean ====
import proofs.«426015_j33715493274183_3_alg».proof.Proof.RefTerm
import proofs.«426015_j33715493274183_3_alg».proof.Proof.Spec
import Idealize.ShloMosaic.PureOps.Ideal.Laws
import Idealize.ShloMosaic.Lib.Pipeline.Value

noncomputable section

namespace Cert.ReferenceIdeal.RefValue

open Cert.ReferenceIdeal Cert.ReferenceIdeal.Gen Idealize.ShloMosaic Idealize.ShloMosaic.ValueIdx Cert.EmbedNorm

/-! ### Each operation of the chain, read at one index -/

/-- The sum along a row: the initial value plus the 512 entries of row `(b, t)`. -/
theorem rowSum_apply (x : FVec Ideal S16x4096x512 .f32) (c : FVec Ideal S_ .f32) (b : Fin 16) (t : Fin 4096) :
    Host.reduceAdd (F := Ideal) x c reducesTo_S16x4096x512_S16x4096_d2 h_S_ (ix2 b t)
      = c ix0 + ∑ k : Fin 512, x (ix3 b t k) := by
  show Ideal.hostReduceAdd reducesTo_S16x4096x512_S16x4096_d2 x (c (Shape.Idx.first h_S_)) (ix2 b t) = _
  rw [Ideal.hostReduceAdd_single reducesTo_S16x4096x512_S16x4096_d2 (by decide : Shape.Reduces S16x4096x512 [2] S16x4096)]
  congr 1
  · exact congrArg c (eq_ix0 _)
  · refine Finset.sum_congr rfl fun k _ => congrArg x ?_
    funext a
    match a with
    | ⟨0, _⟩ => exact Fin.ext rfl
    | ⟨1, _⟩ => exact Fin.ext rfl
    | ⟨2, _⟩ => exact Fin.ext rfl

/-- An array of `16 × 4096` entries given a last axis of one entry: entry `(b, t, 0)` is entry `(b, t)`. -/
theorem col_apply {α : Type} (y : S16x4096.Idx → α) (b : Fin 16) (t : Fin 4096) (z : Fin 1) :
    broadcastInDim S16x4096x1 ![0, 1] bcast_S16x4096_S16x4096x1_0_1 y (ix3 b t z) = y (ix2 b t) := by
  refine broadcastInDim_apply _ _ y _ (ix2 b t) fun a => ?_
  match a with
  | ⟨0, _⟩ => rfl
  | ⟨1, _⟩ => rfl

/-- A scalar spread over a column: every entry is the scalar. -/
theorem scalarCol_apply {α : Type} (c : S_.Idx → α) (j : S16x4096x1.Idx) :
    broadcastInDim S16x4096x1 ![] bcast_S_S16x4096x1 c j = c ix0 :=
  broadcastInDim_apply _ _ c _ ix0 fun a => a.elim0

/-- A scalar spread over the whole array: every entry is the scalar. -/
theorem scalarAll_apply {α : Type} (c : S_.Idx → α) (j : S16x4096x512.Idx) :
    broadcastInDim S16x4096x512 ![] bcast_S_S16x4096x512 c j = c ix0 :=
  broadcastInDim_apply _ _ c _ ix0 fun a => a.elim0

/-- A column spread along the rows: entry `(b, t, d)` is the column's entry `(b, t, 0)`. -/
theorem colAll_apply {α : Type} (y : S16x4096x1.Idx → α) (b : Fin 16) (t : Fin 4096) (d : Fin 512) :
    broadcastInDim S16x4096x512 ![0, 1, 2] bcast_S16x4096x1_S16x4096x512_0_1_2 y (ix3 b t d) = y (ix3 b t (0 : Fin 1)) := by
  refine broadcastInDim_apply _ _ y _ (ix3 b t (0 : Fin 1)) fun a => ?_
  match a with
  | ⟨0, _⟩ => rfl
  | ⟨1, _⟩ => rfl
  | ⟨2, _⟩ => rfl

/-- A vector of 512 entries laid out as a row: entry `(0, 0, d)` is entry `d`. -/
theorem row_apply {α : Type} (y : S512.Idx → α) (z z' : Fin 1) (d : Fin 512) :
    broadcastInDim S1x1x512 ![2] bcast_S512_S1x1x512_2 y (ix3 z z' d) = y (ix1 d) := by
  refine broadcastInDim_apply _ _ y _ (ix1 d) fun a => ?_
  match a with
  | ⟨0, _⟩ => rfl

/-- A row spread over all the rows: entry `(b, t, d)` is the row's entry `(0, 0, d)`. -/
theorem rowAll_apply {α : Type} (y : S1x1x512.Idx → α) (b : Fin 16) (t : Fin 4096) (d : Fin 512) :
    broadcastInDim S16x4096x512 ![0, 1, 2] bcast_S1x1x512_S16x4096x512_0_1_2 y (ix3 b t d)
      = y (ix3 (0 : Fin 1) (0 : Fin 1) d) := by
  refine broadcastInDim_apply _ _ y _ (ix3 (0 : Fin 1) (0 : Fin 1) d) fun a => ?_
  match a with
  | ⟨0, _⟩ => rfl
  | ⟨1, _⟩ => rfl
  | ⟨2, _⟩ => rfl

/-- The host's quotient at an index is the quotient of the entries. -/
theorem hdiv_apply {s : Shape} (x y : FVec Ideal s .f32) (i : s.Idx) : Host.divf (F := Ideal) x y i = Ideal.div (x i) (y i) := rfl

/-- The host's reciprocal square root at an index is that of the entry. -/
theorem hrsqrt_apply {s : Shape} (x : FVec Ideal s .f32) (i : s.Idx) : Host.rsqrt (F := Ideal) x i = Ideal.rsqrt (x i) := rfl

/-- The mean column spread along the rows, read at `(b, t, k)`: the mean of row `(b, t)`. -/
theorem meanAll_apply (comb : FVec Ideal S16x4096x512 .f32) (b : Fin 16) (t : Fin 4096) (k : Fin 512) :
    broadcastInDim S16x4096x512 ![0, 1, 2] bcast_S16x4096x1_S16x4096x512_0_1_2
        (Host.divf (F := Ideal)
          (broadcastInDim S16x4096x1 ![0, 1] bcast_S16x4096_S16x4096x1_0_1
            (Host.reduceAdd (F := Ideal) comb (constant (F := Ideal) S_ .f32 0x00000000#32) reducesTo_S16x4096x512_S16x4096_d2 h_S_))
          (broadcastInDim S16x4096x1 ![] bcast_S_S16x4096x1 (constant (F := Ideal) S_ .f32 0x44000000#32)))
        (ix3 b t k)
      = rowMean (fun k => comb (ix3 b t k)) := by
  rw [colAll_apply, hdiv_apply, col_apply, scalarCol_apply, rowSum_apply]
  rfl

/-- The variance column read at `(b, t, 0)`: the variance of row `(b, t)`. -/
theorem varTerm_apply (comb : FVec Ideal S16x4096x512 .f32) (b : Fin 16) (t : Fin 4096) :
    varTerm (F := Ideal) comb (ix3 b t (0 : Fin 1)) = rowVar (fun k => comb (ix3 b t k)) := by
  unfold varTerm rowVar
  rw [select_apply, scalarCol_apply, scalarCol_apply, hdiv_apply, col_apply, scalarCol_apply, rowSum_apply]
  conv_lhs =>
    arg 2; arg 1; arg 2; arg 2; ext k
    rw [mulf_apply, subf_apply, meanAll_apply]
  rfl

/-- The reference's normalisation read at `(b, t, d)`: entry `d` of the normalised row `(b, t)`. -/
theorem normTerm_apply (comb : FVec Ideal S16x4096x512 .f32) (γ β : FVec Ideal S512 .f32) (b : Fin 16) (t : Fin 4096) (d : Fin 512) :
    normTerm (F := Ideal) comb γ β (ix3 b t d) = rowNorm γ β (fun k => comb (ix3 b t k)) d := by
  unfold normTerm rowNorm
  simp only [mulf_apply, addf_apply, subf_apply]
  rw [meanAll_apply, scalarAll_apply, rowAll_apply, row_apply, rowAll_apply, row_apply, colAll_apply, hrsqrt_apply, addf_apply,
    varTerm_apply, scalarCol_apply]
  rfl

end Cert.ReferenceIdeal.RefValue

end
-- ==== Proof.SpecLemmas.lean ====
import proofs.«426015_j33715493274183_3_alg».proof.Proof.Spec

noncomputable section

namespace Cert.EmbedNorm

open Idealize.ShloMosaic Idealize.ShloMosaic.ValueIdx

/-! ### The constants, each evaluated once -/

/-- The word of `+0.0` denotes `0`. -/
theorem zeroC_eq : zeroC = 0 := by
  unfold zeroC
  simp [Ideal.ofBits, Ideal.ieee]

/-- The count's word denotes the real `512`. -/
theorem countC_eq : countC = ((512 : ℝ) : EReal) := by
  unfold countC
  simp [Ideal.ofBits, Ideal.ieee, -EReal.coe_mul]; norm_num

/-- The word of `ε` denotes a positive real. -/
theorem epsC_pos : ∃ e : ℝ, 0 < e ∧ epsC = (e : EReal) := by
  unfold epsC
  simp [Ideal.ofBits, Ideal.ieee, -EReal.coe_mul]

/-- The scale's word denotes a real. -/
theorem scaleC_real : ∃ s : ℝ, scaleC = (s : EReal) := by
  unfold scaleC
  simp [Ideal.ofBits, Ideal.ieee, -EReal.coe_mul]

/-- A finite sum of real numbers, taken among the extended reals, is the real sum. -/
theorem coe_sum {ι : Type} (s : Finset ι) (f : ι → ℝ) :
    (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

/-- The mean of a row of reals is the real mean. -/
theorem rowMean_coe (r : Fin 512 → ℝ) :
    rowMean (fun k => (r k : EReal)) = (((∑ k, r k) * (1 / 512) : ℝ) : EReal) := by
  unfold rowMean
  rw [zeroC_eq, zero_add, countC_eq, coe_sum, Ideal.div_coe (by norm_num), ← EReal.coe_mul]

/-- The variance of a row of reals is a nonnegative real: the divisor `512 − 0` is positive, so the quotient is taken,
    and it is a sum of squares times a positive number. -/
theorem rowVar_coe (r : Fin 512 → ℝ) : ∃ v : ℝ, 0 ≤ v ∧ rowVar (fun k => (r k : EReal)) = (v : EReal) := by
  refine ⟨(∑ k, (r k - (∑ k, r k) * (1 / 512)) * (r k - (∑ k, r k) * (1 / 512))) * (1 / 512), ?_, ?_⟩
  · exact mul_nonneg (Finset.sum_nonneg fun k _ => mul_self_nonneg _) (by norm_num)
  · unfold rowVar
    rw [rowMean_coe]
    have h0 : (((0#32 : BitVec 32).toInt : ℝ) : EReal) = 0 := by simp
    rw [h0, sub_zero, zeroC_eq, countC_eq, zero_add]
    have hc : Ideal.cmp .ogt ((512 : ℝ) : EReal) 0 = 1#1 := by
      have : (0 : EReal) < ((512 : ℝ) : EReal) := by exact_mod_cast (by norm_num : (0 : ℝ) < 512)
      simp [Ideal.cmp, this]
    rw [hc]
    simp only [Scalar.select]
    simp only [← EReal.coe_sub, ← EReal.coe_mul]
    rw [coe_sum, Ideal.div_coe (by norm_num), ← EReal.coe_mul, if_pos (by decide)]

/-- A normalised row of real numbers, scaled and shifted by real numbers, consists of real numbers: the variance is a
    nonnegative real, so the reciprocal square root is taken of a positive real. -/
theorem rowNorm_isReal (γ β : SVec.Idx → EReal) (row : Fin 512 → EReal) (hγ : ∀ i, IsReal (γ i)) (hβ : ∀ i, IsReal (β i))
    (hrow : ∀ k, IsReal (row k)) (d : Fin 512) : IsReal (rowNorm γ β row d) := by
  choose r hr using hrow
  obtain rfl : row = fun k => (r k : EReal) := funext hr
  obtain ⟨g, hg⟩ := hγ (ix1 d)
  obtain ⟨b, hb⟩ := hβ (ix1 d)
  obtain ⟨v, hv0, hv⟩ := rowVar_coe r
  obtain ⟨e, he0, he⟩ := epsC_pos
  obtain ⟨s, hs⟩ := scaleC_real
  have hpos : 0 < v + e := by linarith
  unfold rowNorm
  rw [rowMean_coe, hv, he, hg, hb, hs, ← EReal.coe_add, Ideal.rsqrt_coe, if_neg (not_lt.mpr hpos.le), if_neg hpos.ne']
  simp only [← EReal.coe_sub, ← EReal.coe_mul, ← EReal.coe_add]
  exact ⟨_, rfl⟩

/-- A combined row of real tables consists of real numbers. -/
theorem combRow_isReal (tok : STok.Idx → EReal) (typ : STyp.Idx → EReal) (htok : ∀ i, IsReal (tok i)) (htyp : ∀ i, IsReal (typ i))
    (v : Fin 2048) (d : Fin 512) : IsReal (combRow tok typ v d) := by
  unfold combRow
  split_ifs with h
  · exact htok _
  · exact htyp _

/-- Adding to a real number what is left of it after itself is subtracted gives it back. -/
theorem add_sub_self_of_isReal {a : EReal} (h : IsReal a) : a + (a - a) = a := by
  obtain ⟨r, rfl⟩ := h
  rw [← EReal.coe_sub, sub_self, EReal.coe_zero, add_zero]

end Cert.EmbedNorm

end
-- ==== Proof.Bridge.lean ====
import proofs.«426015_j33715493274183_3_alg».proof.Proof.KernelBlocks
import proofs.«426015_j33715493274183_3_alg».proof.Proof.KHostStaged
import proofs.«426015_j33715493274183_3_alg».proof.Proof.KCombRead
import proofs.«426015_j33715493274183_3_alg».proof.Proof.KNormRead
import proofs.«426015_j33715493274183_3_alg».proof.Proof.RefCombRead
import proofs.«426015_j33715493274183_3_alg».proof.Proof.RefNormRead
import proofs.«426015_j33715493274183_3_alg».proof.Proof.SpecLemmas

noncomputable section

/-
  The two programs compute one function.  For ids in `[0, 2048)` and tables of real numbers:

  * the kernel's region is entered with the ids themselves (clipping changes nothing in range), with the table `T` of
    normalised rows narrowed — which on the extended reals changes nothing — and with `T − T` narrowed, and leaves
    `T[x, d] + (T[x, d] − T[x, d])` at `(b, t, d)`, `x` the id at `(b, t)`; every entry of `T` is a real number (a normalised
    row of reals is real: the variance is nonnegative, so the reciprocal square root is taken of a positive number),
    hence this is `T[x, d]`;
  * the reference normalises the combined row of the id `x` itself, which is row `x` of `T`.
-/

namespace Cert.Bridge

open Idealize.ShloMosaic Idealize.ShloMosaic.TcCoe Idealize.SL.Sem Idealize.ShloMosaic.ValueIdx Cert.EmbedNorm

section Kernel
open Cert.KernelIdeal Cert.KernelIdeal.Gen Cert.KernelIdeal.HostValue Cert.KernelIdeal.HostStaged

/-- The kernel's table of normalised rows is the specification's table. -/
theorem tableTerm_eq (tok : FVec Ideal S2048x504 .f32) (typ : FVec Ideal S5x8 .f32) (γ β : FVec Ideal S512 .f32) :
    tableTerm (F := Ideal) tok typ γ β = table tok typ γ β := by
  funext i
  obtain ⟨v, d, rfl⟩ : ∃ (v : Fin 2048) (d : Fin 512), i = ix2 v d := ⟨i 0, i 1, eq_ix2 i⟩
  unfold tableTerm
  rw [normTerm_apply]
  show rowNorm γ β (fun k => combTerm (F := Ideal) tok typ (ix2 v k)) d = rowNorm γ β (combRow tok typ v) d
  congr 1
  funext k
  exact combTerm_apply tok typ v k

/-- THE KERNEL'S RESULT: the output array after the region is the specification's result of the launch contents. -/
theorem kernel_value (m : (ℓ : Loc nD τ sig) → Buf (Elt Ideal) ℓ) (c : Dev nD)
    (hx : InRange (m ((c : Thread nD τ).loc main_arg0)))
    (htok : ∀ i, IsReal (m ((c : Thread nD τ).loc main_arg1) i)) (htyp : ∀ i, IsReal (m ((c : Thread nD τ).loc main_arg2) i))
    (hγ : ∀ i, IsReal (m ((c : Thread nD τ).loc main_arg3) i)) (hβ : ∀ i, IsReal (m ((c : Thread nD τ).loc main_arg4) i)) :
    (dats m 0 c).arrAt 3 cfg0.N
      = result (m ((c : Thread nD τ).loc main_arg0)) (m ((c : Thread nD τ).loc main_arg1))
          (m ((c : Thread nD τ).loc main_arg2)) (m ((c : Thread nD τ).loc main_arg3)) (m ((c : Thread nD τ).loc main_arg4)) := by
  have hV0 : V m c main_v0 = m ((c : Thread nD τ).loc main_arg0) := (V_ids m c).trans (clipTerm_eq _ hx)
  rw [Cert.KernelIdeal.BlockValue.final m c (by rw [hV0]; exact hx), hV0, V_hi, V_lo]
  unfold tableOf
  rw [tableTerm_eq]
  funext i
  show table _ _ _ _ (ix2 (vocabOf (m ((c : Thread nD τ).loc main_arg0) (ix2 (i 0) (i 1)))) (i 2))
      + (table _ _ _ _ (ix2 (vocabOf (m ((c : Thread nD τ).loc main_arg0) (ix2 (i 0) (i 1)))) (i 2))
        - table _ _ _ _ (ix2 (vocabOf (m ((c : Thread nD τ).loc main_arg0) (ix2 (i 0) (i 1)))) (i 2))) = _
  refine (add_sub_self_of_isReal ?_).trans rfl
  exact rowNorm_isReal _ _ _ hγ hβ (fun k => combRow_isReal _ _ htok htyp _ k) _

end Kernel

section Reference
open Cert.ReferenceIdeal Cert.ReferenceIdeal.Gen Cert.ReferenceIdeal.RefValue

/-- THE REFERENCE'S RESULT, for ids in range, is the specification's result. -/
theorem outTerm_eq (x : IVec S16x4096 32) (tok : FVec Ideal S2048x504 .f32) (typ : FVec Ideal S5x8 .f32)
    (γ β : FVec Ideal S512 .f32) (hx : InRange x) :
    outTerm (F := Ideal) x tok typ γ β = result x tok typ γ β := by
  funext i
  obtain ⟨b, t, d, rfl⟩ : ∃ (b : Fin 16) (t : Fin 4096) (d : Fin 512), i = ix3 b t d := ⟨i 0, i 1, i 2, eq_ix3 i⟩
  unfold outTerm
  rw [normTerm_apply]
  show rowNorm γ β (fun k => combTerm (F := Ideal) x tok typ (ix3 b t k)) d
      = rowNorm γ β (combRow tok typ (vocabOf (x (ix2 b t)))) d
  congr 1
  funext k
  exact combTerm_apply x tok typ hx b t k

end Reference

end Cert.Bridge

end
-- ==== Proof.RefRunStaged.lean ====
/-
  The reference's run read back in three stretches.  The operations are one straight line; the line is cut before and
  after the concatenation that forms the combined rows.  Over ANY contents of the buffers: the first stretch leaves the
  gathered token rows and the gathered type rows as functions of the three arguments it reads; the concatenation joins
  the two; the last stretch leaves the result as `normTerm` of the combined rows and the scale and shift; and no
  stretch writes an argument.  The contents after the whole line are each stretch's after the one before, so the
  result is `outTerm` of the launch contents of the five arguments.
-/
import proofs.«426015_j33715493274183_3_alg».proof.Proof.RefTerm
import Idealize.ShloMosaic.Lib.StableHlo.Run

noncomputable section

namespace Cert.ReferenceIdeal.RefStaged

open Cert.ReferenceIdeal Cert.ReferenceIdeal.Gen Cert.ReferenceIdeal.RefValue Idealize.ShloMosaic Idealize.ShloMosaic.TcCoe Idealize.SL.Sem Idealize.ShloMosaic.StableHlo

variable {F : FTy → Type} [FloatOps F]

/-- The first stretch: the token row index and the gathered token rows, the membership mask of the five ranges, its
    arg-max (the first call's operations at the call's buffers), the type row index and the gathered type rows. -/
abbrev preOps : List (HloOp τ sig (Elt F)) :=
  [ -- the two range tables and the token row index
    nullary main_c (fun i => lit0 (S5.rowMajor i)),
    nullary main_c_0 (fun i => lit1 (S5.rowMajor i)),
    nullary main_c_1 (constantI S_ 32 0#32),
    unary main_c_1 main_v0 (broadcastInDim S16x4096 ![] bcast_S_S16x4096),
    binary main_arg0 main_v0 main_v1 (cmpi .slt),
    nullary main_c_2 (constantI S_ 32 2048#32),
    unary main_c_2 main_v2 (broadcastInDim S16x4096 ![] bcast_S_S16x4096),
    binary main_arg0 main_v2 main_v3 addi,
    ternary main_v1 main_v3 main_arg0 main_v4 select,
    unary main_v4 main_v5 (broadcastInDim S16x4096x1 ![0, 1] bcast_S16x4096_S16x4096x1_0_1),
    binary main_arg1 main_v5 main_v6 (fun x i => Host.gather gather_S2048x504_S16x4096x1_S16x4096x504_2_0_n_n_0_2_1504 x i),
    -- the membership mask of the five ranges
    unary main_arg0 main_v7 (broadcastInDim S16x4096x1 ![0, 1] bcast_S16x4096_S16x4096x1_0_1),
    unary main_c main_v8 (broadcastInDim S1x1x5 ![2] bcast_S5_S1x1x5_2),
    unary main_v7 main_v9 (broadcastInDim S16x4096x5 ![0, 1, 2] bcast_S16x4096x1_S16x4096x5_0_1_2),
    unary main_v8 main_v10 (broadcastInDim S16x4096x5 ![0, 1, 2] bcast_S1x1x5_S16x4096x5_0_1_2),
    binary main_v9 main_v10 main_v11 (cmpi .sge),
    unary main_arg0 main_v12 (broadcastInDim S16x4096x1 ![0, 1] bcast_S16x4096_S16x4096x1_0_1),
    unary main_c_0 main_v13 (broadcastInDim S1x1x5 ![2] bcast_S5_S1x1x5_2),
    unary main_v12 main_v14 (broadcastInDim S16x4096x5 ![0, 1, 2] bcast_S16x4096x1_S16x4096x5_0_1_2),
    unary main_v13 main_v15 (broadcastInDim S16x4096x5 ![0, 1, 2] bcast_S1x1x5_S16x4096x5_0_1_2),
    binary main_v14 main_v15 main_v16 (cmpi .slt),
    binary main_v11 main_v16 main_v17 andi,
    -- the arg-max of the mask along the ranges (the first call)
    TRef.nullary main_call0.v0 (iotaInDim S16x4096x5 32 2),
    TRef.nullary main_call0.c (constantI S_ 1 0#1),
    TRef.nullary main_call0.c_0 (constantI S_ 32 0#32),
    TRef.quaternary (.of main_v17 : TRef sig ⟨S16x4096x5, .i1⟩) main_call0.v0 main_call0.c main_call0.c_0 main_call0.v1_0
      (fun x y u v j => (Host.reduce2 reducer_argmax_i1_i32 x y u v reducesTo_S16x4096x5_S16x4096_d2 h_S_ j).1),
    TRef.quaternary (.of main_v17 : TRef sig ⟨S16x4096x5, .i1⟩) main_call0.v0 main_call0.c main_call0.c_0 main_call0.v1_1
      (fun x y u v j => (Host.reduce2 reducer_argmax_i1_i32 x y u v reducesTo_S16x4096x5_S16x4096_d2 h_S_ j).2),
    -- the type row index, the type rows, the combined rows
    nullary main_c_3 (constantI S_ 32 0#32),
    unary main_c_3 main_v19 (broadcastInDim S16x4096 ![] bcast_S_S16x4096),
    binary main_v18 main_v19 main_v20 (cmpi .slt),
    nullary main_c_4 (constantI S_ 32 5#32),
    unary main_c_4 main_v21 (broadcastInDim S16x4096 ![] bcast_S_S16x4096),
    binary main_v18 main_v21 main_v22 addi,
    ternary main_v20 main_v22 main_v18 main_v23 select,
    unary main_v23 main_v24 (broadcastInDim S16x4096x1 ![0, 1] bcast_S16x4096_S16x4096x1_0_1),
    binary main_arg2 main_v24 main_v25 (fun x i => Host.gather gather_S5x8_S16x4096x1_S16x4096x8_2_0_n_n_0_2_18 x i) ]

/-- The second stretch: the concatenation that forms the combined rows. -/
abbrev catOps : List (HloOp τ sig (Elt F)) :=
  [ binary main_v6 main_v25 main_v26
      (fun a b => concatenate S16x4096x512 2 [⟨S16x4096x504, a⟩, ⟨S16x4096x8, b⟩] concatenates_S16x4096x504_S16x4096x8_S16x4096x512_d2) ]

/-- The last stretch: the mean, the variance (the second call's operations at the call's buffers) and the
    normalisation. -/
abbrev normOps : List (HloOp τ sig (Elt F)) :=
  [ -- the mean of every row
    nullary main_cst (constant S_ .f32 0x00000000#32),
    binary main_v26 main_cst main_v27 (fun x v => Host.reduceAdd x v reducesTo_S16x4096x512_S16x4096_d2 h_S_),
    unary main_v27 main_v28 (broadcastInDim S16x4096x1 ![0, 1] bcast_S16x4096_S16x4096x1_0_1),
    nullary main_cst_5 (constant S_ .f32 0x44000000#32),
    unary main_cst_5 main_v29 (broadcastInDim S16x4096x1 ![] bcast_S_S16x4096x1),
    binary main_v28 main_v29 main_v30 Host.divf,
    nullary main_c_6 (constantI S_ 32 0#32),
    -- the variance of every row (the second call)
    TRef.nullary main_call1.cst (constant S_ .f32 0x00000000#32),
    TRef.binary (.of main_v26 : TRef sig ⟨S16x4096x512, .f32⟩) main_call1.cst main_call1.v0
      (fun x v => Host.reduceAdd x v reducesTo_S16x4096x512_S16x4096_d2 h_S_),
    TRef.unary main_call1.v0 main_call1.v1 (broadcastInDim S16x4096x1 ![0, 1] bcast_S16x4096_S16x4096x1_0_1),
    TRef.nullary main_call1.cst_0 (constant S_ .f32 0x44000000#32),
    TRef.unary main_call1.cst_0 main_call1.v2 (broadcastInDim S16x4096x1 ![] bcast_S_S16x4096x1),
    TRef.binary main_call1.v1 main_call1.v2 main_call1.v3 Host.divf,
    TRef.unary main_call1.v3 main_call1.v4 (broadcastInDim S16x4096x512 ![0, 1, 2] bcast_S16x4096x1_S16x4096x512_0_1_2),
    TRef.binary (.of main_v26 : TRef sig ⟨S16x4096x512, .f32⟩) main_call1.v4 main_call1.v5 subf,
    TRef.binary main_call1.v5 main_call1.v5 main_call1.v6 mulf,
    TRef.unary (.of main_c_6 : TRef sig ⟨S_, .i32⟩) main_call1.v7 (sitofp .f32),
    TRef.nullary main_call1.cst_1 (constant S_ .f32 0x44000000#32),
    TRef.binary main_call1.cst_1 main_call1.v7 main_call1.v8 subf,
    TRef.nullary main_call1.cst_2 (constant S_ .f32 0x00000000#32),
    TRef.binary main_call1.v6 main_call1.cst_2 main_call1.v9
      (fun x v => Host.reduceAdd x v reducesTo_S16x4096x512_S16x4096_d2 h_S_),
    TRef.unary main_call1.v9 main_call1.v10 (broadcastInDim S16x4096x1 ![0, 1] bcast_S16x4096_S16x4096x1_0_1),
    TRef.unary main_call1.v8 main_call1.v11 (broadcastInDim S16x4096x1 ![] bcast_S_S16x4096x1),
    TRef.binary main_call1.v10 main_call1.v11 main_call1.v12 Host.divf,
    TRef.nullary main_call1.cst_3 (constant S_ .f32 0x00000000#32),
    TRef.binary main_call1.v8 main_call1.cst_3 main_call1.v13 (cmpf .ogt),
    TRef.nullary main_call1.cst_4 (constant S_ .f32 0x7FC00000#32),
    TRef.unary main_call1.cst_4 main_call1.call0.v0 id,
    TRef.unary main_call1.call0.v0 main_call1.call0.v1 (broadcastInDim S16x4096x1 ![] bcast_S_S16x4096x1),
    TRef.ternary main_call1.v13 main_call1.v12 main_call1.call0.v1 main_call1.call0.v2
      (fun p a b => select (broadcastInDim S16x4096x1 ![] bcast_S_S16x4096x1 p) a b),
    -- the normalisation
    unary main_v30 main_v32 (broadcastInDim S16x4096x512 ![0, 1, 2] bcast_S16x4096x1_S16x4096x512_0_1_2),
    binary main_v26 main_v32 main_v33 subf,
    nullary main_cst_7 (constant S_ .f32 0x3727C5AC#32),
    unary main_cst_7 main_v34 (broadcastInDim S16x4096x1 ![] bcast_S_S16x4096x1),
    binary main_v31 main_v34 main_v35 addf,
    unary main_v35 main_v36 Host.rsqrt,
    unary main_v36 main_v37 (broadcastInDim S16x4096x512 ![0, 1, 2] bcast_S16x4096x1_S16x4096x512_0_1_2),
    binary main_v33 main_v37 main_v38 mulf,
    unary main_arg3 main_v39 (broadcastInDim S1x1x512 ![2] bcast_S512_S1x1x512_2),
    unary main_v39 main_v40 (broadcastInDim S16x4096x512 ![0, 1, 2] bcast_S1x1x512_S16x4096x512_0_1_2),
    binary main_v38 main_v40 main_v41 mulf,
    unary main_arg4 main_v42 (broadcastInDim S1x1x512 ![2] bcast_S512_S1x1x512_2),
    unary main_v42 main_v43 (broadcastInDim S16x4096x512 ![0, 1, 2] bcast_S1x1x512_S16x4096x512_0_1_2),
    binary main_v41 main_v43 main_v44 addf,
    nullary main_cst_8 (constant S_ .f32 0x41B504F3#32),
    unary main_cst_8 main_v45 (broadcastInDim S16x4096x512 ![] bcast_S_S16x4096x512),
    binary main_v44 main_v45 main_v46 mulf ]

/-- The reference's operations in the order it performs them, the three outlined functions' operations listed at
    their calls over the calls' own buffers: the type index's arg-max (five operations), the variance (twenty
    operations) and, inside it, the guarded choice between the quotient and the not-a-number word (three). -/
abbrev refOps : List (HloOp τ sig (Elt F)) :=
  [ -- the two range tables and the token row index
    nullary main_c (fun i => lit0 (S5.rowMajor i)),
    nullary main_c_0 (fun i => lit1 (S5.rowMajor i)),
    nullary main_c_1 (constantI S_ 32 0#32),
    unary main_c_1 main_v0 (broadcastInDim S16x4096 ![] bcast_S_S16x4096),
    binary main_arg0 main_v0 main_v1 (cmpi .slt),
    nullary main_c_2 (constantI S_ 32 2048#32),
    unary main_c_2 main_v2 (broadcastInDim S16x4096 ![] bcast_S_S16x4096),
    binary main_arg0 main_v2 main_v3 addi,
    ternary main_v1 main_v3 main_arg0 main_v4 select,
    unary main_v4 main_v5 (broadcastInDim S16x4096x1 ![0, 1] bcast_S16x4096_S16x4096x1_0_1),
    binary main_arg1 main_v5 main_v6 (fun x i => Host.gather gather_S2048x504_S16x4096x1_S16x4096x504_2_0_n_n_0_2_1504 x i),
    -- the membership mask of the five ranges
    unary main_arg0 main_v7 (broadcastInDim S16x4096x1 ![0, 1] bcast_S16x4096_S16x4096x1_0_1),
    unary main_c main_v8 (broadcastInDim S1x1x5 ![2] bcast_S5_S1x1x5_2),
    unary main_v7 main_v9 (broadcastInDim S16x4096x5 ![0, 1, 2] bcast_S16x4096x1_S16x4096x5_0_1_2),
    unary main_v8 main_v10 (broadcastInDim S16x4096x5 ![0, 1, 2] bcast_S1x1x5_S16x4096x5_0_1_2),
    binary main_v9 main_v10 main_v11 (cmpi .sge),
    unary main_arg0 main_v12 (broadcastInDim S16x4096x1 ![0, 1] bcast_S16x4096_S16x4096x1_0_1),
    unary main_c_0 main_v13 (broadcastInDim S1x1x5 ![2] bcast_S5_S1x1x5_2),
    unary main_v12 main_v14 (broadcastInDim S16x4096x5 ![0, 1, 2] bcast_S16x4096x1_S16x4096x5_0_1_2),
    unary main_v13 main_v15 (broadcastInDim S16x4096x5 ![0, 1, 2] bcast_S1x1x5_S16x4096x5_0_1_2),
    binary main_v14 main_v15 main_v16 (cmpi .slt),
    binary main_v11 main_v16 main_v17 andi,
    -- the arg-max of the mask along the ranges (the first call)
    TRef.nullary main_call0.v0 (iotaInDim S16x4096x5 32 2),
    TRef.nullary main_call0.c (constantI S_ 1 0#1),
    TRef.nullary main_call0.c_0 (constantI S_ 32 0#32),
    TRef.quaternary (.of main_v17 : TRef sig ⟨S16x4096x5, .i1⟩) main_call0.v0 main_call0.c main_call0.c_0 main_call0.v1_0
      (fun x y u v j => (Host.reduce2 reducer_argmax_i1_i32 x y u v reducesTo_S16x4096x5_S16x4096_d2 h_S_ j).1),
    TRef.quaternary (.of main_v17 : TRef sig ⟨S16x4096x5, .i1⟩) main_call0.v0 main_call0.c main_call0.c_0 main_call0.v1_1
      (fun x y u v j => (Host.reduce2 reducer_argmax_i1_i32 x y u v reducesTo_S16x4096x5_S16x4096_d2 h_S_ j).2),
    -- the type row index, the type rows, the combined rows
    nullary main_c_3 (constantI S_ 32 0#32),
    unary main_c_3 main_v19 (broadcastInDim S16x4096 ![] bcast_S_S16x4096),
    binary main_v18 main_v19 main_v20 (cmpi .slt),
    nullary main_c_4 (constantI S_ 32 5#32),
    unary main_c_4 main_v21 (broadcastInDim S16x4096 ![] bcast_S_S16x4096),
    binary main_v18 main_v21 main_v22 addi,
    ternary main_v20 main_v22 main_v18 main_v23 select,
    unary main_v23 main_v24 (broadcastInDim S16x4096x1 ![0, 1] bcast_S16x4096_S16x4096x1_0_1),
    binary main_arg2 main_v24 main_v25 (fun x i => Host.gather gather_S5x8_S16x4096x1_S16x4096x8_2_0_n_n_0_2_18 x i),
    binary main_v6 main_v25 main_v26
      (fun a b => concatenate S16x4096x512 2 [⟨S16x4096x504, a⟩, ⟨S16x4096x8, b⟩] concatenates_S16x4096x504_S16x4096x8_S16x4096x512_d2),
    -- the mean of every row
    nullary main_cst (constant S_ .f32 0x00000000#32),
    binary main_v26 main_cst main_v27 (fun x v => Host.reduceAdd x v reducesTo_S16x4096x512_S16x4096_d2 h_S_),
    unary main_v27 main_v28 (broadcastInDim S16x4096x1 ![0, 1] bcast_S16x4096_S16x4096x1_0_1),
    nullary main_cst_5 (constant S_ .f32 0x44000000#32),
    unary main_cst_5 main_v29 (broadcastInDim S16x4096x1 ![] bcast_S_S16x4096x1),
    binary main_v28 main_v29 main_v30 Host.divf,
    nullary main_c_6 (constantI S_ 32 0#32),
    -- the variance of every row (the second call)
    TRef.nullary main_call1.cst (constant S_ .f32 0x00000000#32),
    TRef.binary (.of main_v26 : TRef sig ⟨S16x4096x512, .f32⟩) main_call1.cst main_call1.v0
      (fun x v => Host.reduceAdd x v reducesTo_S16x4096x512_S16x4096_d2 h_S_),
    TRef.unary main_call1.v0 main_call1.v1 (broadcastInDim S16x4096x1 ![0, 1] bcast_S16x4096_S16x4096x1_0_1),
    TRef.nullary main_call1.cst_0 (constant S_ .f32 0x44000000#32),
    TRef.unary main_call1.cst_0 main_call1.v2 (broadcastInDim S16x4096x1 ![] bcast_S_S16x4096x1),
    TRef.binary main_call1.v1 main_call1.v2 main_call1.v3 Host.divf,
    TRef.unary main_call1.v3 main_call1.v4 (broadcastInDim S16x4096x512 ![0, 1, 2] bcast_S16x4096x1_S16x4096x512_0_1_2),
    TRef.binary (.of main_v26 : TRef sig ⟨S16x4096x512, .f32⟩) main_call1.v4 main_call1.v5 subf,
    TRef.binary main_call1.v5 main_call1.v5 main_call1.v6 mulf,
    TRef.unary (.of main_c_6 : TRef sig ⟨S_, .i32⟩) main_call1.v7 (sitofp .f32),
    TRef.nullary main_call1.cst_1 (constant S_ .f32 0x44000000#32),
    TRef.binary main_call1.cst_1 main_call1.v7 main_call1.v8 subf,
    TRef.nullary main_call1.cst_2 (constant S_ .f32 0x00000000#32),
    TRef.binary main_call1.v6 main_call1.cst_2 main_call1.v9
      (fun x v => Host.reduceAdd x v reducesTo_S16x4096x512_S16x4096_d2 h_S_),
    TRef.unary main_call1.v9 main_call1.v10 (broadcastInDim S16x4096x1 ![0, 1] bcast_S16x4096_S16x4096x1_0_1),
    TRef.unary main_call1.v8 main_call1.v11 (broadcastInDim S16x4096x1 ![] bcast_S_S16x4096x1),
    TRef.binary main_call1.v10 main_call1.v11 main_call1.v12 Host.divf,
    TRef.nullary main_call1.cst_3 (constant S_ .f32 0x00000000#32),
    TRef.binary main_call1.v8 main_call1.cst_3 main_call1.v13 (cmpf .ogt),
    TRef.nullary main_call1.cst_4 (constant S_ .f32 0x7FC00000#32),
    TRef.unary main_call1.cst_4 main_call1.call0.v0 id,
    TRef.unary main_call1.call0.v0 main_call1.call0.v1 (broadcastInDim S16x4096x1 ![] bcast_S_S16x4096x1),
    TRef.ternary main_call1.v13 main_call1.v12 main_call1.call0.v1 main_call1.call0.v2
      (fun p a b => select (broadcastInDim S16x4096x1 ![] bcast_S_S16x4096x1 p) a b),
    -- the normalisation
    unary main_v30 main_v32 (broadcastInDim S16x4096x512 ![0, 1, 2] bcast_S16x4096x1_S16x4096x512_0_1_2),
    binary main_v26 main_v32 main_v33 subf,
    nullary main_cst_7 (constant S_ .f32 0x3727C5AC#32),
    unary main_cst_7 main_v34 (broadcastInDim S16x4096x1 ![] bcast_S_S16x4096x1),
    binary main_v31 main_v34 main_v35 addf,
    unary main_v35 main_v36 Host.rsqrt,
    unary main_v36 main_v37 (broadcastInDim S16x4096x512 ![0, 1, 2] bcast_S16x4096x1_S16x4096x512_0_1_2),
    binary main_v33 main_v37 main_v38 mulf,
    unary main_arg3 main_v39 (broadcastInDim S1x1x512 ![2] bcast_S512_S1x1x512_2),
    unary main_v39 main_v40 (broadcastInDim S16x4096x512 ![0, 1, 2] bcast_S1x1x512_S16x4096x512_0_1_2),
    binary main_v38 main_v40 main_v41 mulf,
    unary main_arg4 main_v42 (broadcastInDim S1x1x512 ![2] bcast_S512_S1x1x512_2),
    unary main_v42 main_v43 (broadcastInDim S16x4096x512 ![0, 1, 2] bcast_S1x1x512_S16x4096x512_0_1_2),
    binary main_v41 main_v43 main_v44 addf,
    nullary main_cst_8 (constant S_ .f32 0x41B504F3#32),
    unary main_cst_8 main_v45 (broadcastInDim S16x4096x512 ![] bcast_S_S16x4096x512),
    binary main_v44 main_v45 main_v46 mulf ]

/-- The line is the three stretches in order. -/
theorem refOps_split : (refOps : List (HloOp τ sig (Elt F))) = (preOps ++ catOps) ++ normOps := rfl

-- eighty-four steps: the comparison recurses once per statement
set_option maxRecDepth 8192 in
/-- @main is that straight line: the three functions' definitions unfold at their calls and sequencing computes,
    so both sides are the same chain of steps. -/
theorem main_eq_refOps (c : Dev nD) : main (F := F) c = seq refOps := rfl

theorem refScopedRefs_eq : (Finset.univ.filter fun b : Ref sig .tc => b.isScoped) = ∅ := by decide
theorem refScopedSems_eq : (Finset.univ.filter fun sm : SemLoc sig => sm.isScoped .tc) = ∅ := by decide

theorem refOps_sub : (refOps : List (HloOp τ sig (Elt F))).Forall fun op => op.bufs ⊆ tcRefs τ sig :=
  ⟨nullary_bufs_sub .., nullary_bufs_sub .., nullary_bufs_sub .., unary_bufs_sub .., binary_bufs_sub .., nullary_bufs_sub ..,
    unary_bufs_sub .., binary_bufs_sub .., ternary_bufs_sub .., unary_bufs_sub .., binary_bufs_sub ..,
    unary_bufs_sub .., unary_bufs_sub .., unary_bufs_sub .., unary_bufs_sub .., binary_bufs_sub .., unary_bufs_sub ..,
    unary_bufs_sub .., unary_bufs_sub .., unary_bufs_sub .., binary_bufs_sub .., binary_bufs_sub ..,
    nullary_bufs_sub .., nullary_bufs_sub .., nullary_bufs_sub .., quaternary_bufs_sub .., quaternary_bufs_sub ..,
    nullary_bufs_sub .., unary_bufs_sub .., binary_bufs_sub .., nullary_bufs_sub .., unary_bufs_sub .., binary_bufs_sub ..,
    ternary_bufs_sub .., unary_bufs_sub .., binary_bufs_sub .., binary_bufs_sub ..,
    nullary_bufs_sub .., binary_bufs_sub .., unary_bufs_sub .., nullary_bufs_sub .., unary_bufs_sub .., binary_bufs_sub ..,
    nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., unary_bufs_sub .., binary_bufs_sub .., nullary_bufs_sub ..,
    binary_bufs_sub .., nullary_bufs_sub .., unary_bufs_sub .., unary_bufs_sub .., ternary_bufs_sub ..,
    unary_bufs_sub .., binary_bufs_sub .., nullary_bufs_sub .., unary_bufs_sub .., binary_bufs_sub .., unary_bufs_sub ..,
    unary_bufs_sub .., binary_bufs_sub .., unary_bufs_sub .., unary_bufs_sub .., binary_bufs_sub .., unary_bufs_sub ..,
    unary_bufs_sub .., binary_bufs_sub .., nullary_bufs_sub .., unary_bufs_sub .., binary_bufs_sub ..⟩

/-- Every weakly fair execution of @main terminates with each buffer at the operations' fold over the launch contents. -/
theorem run_refOps (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after refOps (launchContents m c) (b : DevRef τ sig) :=
  run_seq refScopedRefs_eq refScopedSems_eq defs main (fun _ => refOps) main_eq_refOps (fun _ => refOps_sub) m ρ

/-- The contents after two lines run one after the other: the second's after the first's. -/
theorem after_append (l₁ l₂ : List (HloOp τ sig (Elt F))) (W : Valuation τ sig (Elt F)) :
    after (l₁ ++ l₂) W = after l₂ (after l₁ W) := by
  induction l₁ generalizing W with
  | nil => rfl
  | cons op l ih => simp only [List.cons_append, after_cons, ih]

/-! ## The first stretch, over any contents -/

/-- The gathered token rows after the first stretch. -/
theorem pre_v6 (W : Valuation τ sig (Elt F)) :
    after preOps W (main_v6 : DevRef τ sig)
      = Host.gather gather_S2048x504_S16x4096x1_S16x4096x504_2_0_n_n_0_2_1504 (W (main_arg1 : DevRef τ sig))
          (broadcastInDim S16x4096x1 ![0, 1] bcast_S16x4096_S16x4096x1_0_1 (tokIdxTerm (W (main_arg0 : DevRef τ sig)))) := by
  after_results_simp
  rfl

/-- The gathered type rows after the first stretch. -/
theorem pre_v25 (W : Valuation τ sig (Elt F)) :
    after preOps W (main_v25 : DevRef τ sig)
      = Host.gather gather_S5x8_S16x4096x1_S16x4096x8_2_0_n_n_0_2_18 (W (main_arg2 : DevRef τ sig))
          (broadcastInDim S16x4096x1 ![0, 1] bcast_S16x4096_S16x4096x1_0_1 (typeIdxTerm (W (main_arg0 : DevRef τ sig)))) := by
  after_results_simp
  rfl

/-- The first stretch writes none of the five arguments. -/
theorem pre_args (W : Valuation τ sig (Elt F)) :
    after preOps W (main_arg0 : DevRef τ sig) = W (main_arg0 : DevRef τ sig)
    ∧ after preOps W (main_arg1 : DevRef τ sig) = W (main_arg1 : DevRef τ sig)
    ∧ after preOps W (main_arg2 : DevRef τ sig) = W (main_arg2 : DevRef τ sig)
    ∧ after preOps W (main_arg3 : DevRef τ sig) = W (main_arg3 : DevRef τ sig)
    ∧ after preOps W (main_arg4 : DevRef τ sig) = W (main_arg4 : DevRef τ sig) := by
  refine ⟨?_, ?_, ?_, ?_, ?_⟩ <;> after_results_simp

/-! ## The concatenation, over any contents -/

/-- The combined rows after the concatenation: the two pieces it finds, joined. -/
theorem cat_v26 (W : Valuation τ sig (Elt F)) :
    after catOps W (main_v26 : DevRef τ sig)
      = concatenate S16x4096x512 2 [⟨S16x4096x504, W (main_v6 : DevRef τ sig)⟩, ⟨S16x4096x8, W (main_v25 : DevRef τ sig)⟩]
          concatenates_S16x4096x504_S16x4096x8_S16x4096x512_d2 := by
  after_results

/-- The concatenation writes none of the five arguments. -/
theorem cat_args (W : Valuation τ sig (Elt F)) :
    after catOps W (main_arg0 : DevRef τ sig) = W (main_arg0 : DevRef τ sig)
    ∧ after catOps W (main_arg1 : DevRef τ sig) = W (main_arg1 : DevRef τ sig)
    ∧ after catOps W (main_arg2 : DevRef τ sig) = W (main_arg2 : DevRef τ sig)
    ∧ after catOps W (main_arg3 : DevRef τ sig) = W (main_arg3 : DevRef τ sig)
    ∧ after catOps W (main_arg4 : DevRef τ sig) = W (main_arg4 : DevRef τ sig) := by
  refine ⟨?_, ?_, ?_, ?_, ?_⟩ <;> after_results_simp

/-! ## The last stretch, over any contents -/

/-- The result after the last stretch: the normalisation of the combined rows it finds. -/
theorem norm_v46 (W : Valuation τ sig (Elt F)) :
    after normOps W (main_v46 : DevRef τ sig)
      = normTerm (W (main_v26 : DevRef τ sig)) (W (main_arg3 : DevRef τ sig)) (W (main_arg4 : DevRef τ sig)) := by
  after_results_simp
  rfl

/-- The last stretch writes none of the five arguments. -/
theorem norm_args (W : Valuation τ sig (Elt F)) :
    after normOps W (main_arg0 : DevRef τ sig) = W (main_arg0 : DevRef τ sig)
    ∧ after normOps W (main_arg1 : DevRef τ sig) = W (main_arg1 : DevRef τ sig)
    ∧ after normOps W (main_arg2 : DevRef τ sig) = W (main_arg2 : DevRef τ sig)
    ∧ after normOps W (main_arg3 : DevRef τ sig) = W (main_arg3 : DevRef τ sig)
    ∧ after normOps W (main_arg4 : DevRef τ sig) = W (main_arg4 : DevRef τ sig) := by
  refine ⟨?_, ?_, ?_, ?_, ?_⟩ <;> after_results_simp

/-! ## The whole line -/

/-- The whole line writes none of the five arguments. -/
theorem all_args (W : Valuation τ sig (Elt F)) :
    after refOps W (main_arg0 : DevRef τ sig) = W (main_arg0 : DevRef τ sig)
    ∧ after refOps W (main_arg1 : DevRef τ sig) = W (main_arg1 : DevRef τ sig)
    ∧ after refOps W (main_arg2 : DevRef τ sig) = W (main_arg2 : DevRef τ sig)
    ∧ after refOps W (main_arg3 : DevRef τ sig) = W (main_arg3 : DevRef τ sig)
    ∧ after refOps W (main_arg4 : DevRef τ sig) = W (main_arg4 : DevRef τ sig) := by
  rw [refOps_split, after_append, after_append]
  obtain ⟨n0, n1, n2, n3, n4⟩ := norm_args (after catOps (after preOps W))
  obtain ⟨c0, c1, c2, c3, c4⟩ := cat_args (after preOps W)
  obtain ⟨p0, p1, p2, p3, p4⟩ := pre_args W
  exact ⟨n0.trans (c0.trans p0), n1.trans (c1.trans p1), n2.trans (c2.trans p2), n3.trans (c3.trans p3),
    n4.trans (c4.trans p4)⟩

/-- The result after the whole line, over any contents: `outTerm` of the five arguments' contents. -/
theorem out_v46 (W : Valuation τ sig (Elt F)) :
    after refOps W (main_v46 : DevRef τ sig)
      = outTerm (W (main_arg0 : DevRef τ sig)) (W (main_arg1 : DevRef τ sig)) (W (main_arg2 : DevRef τ sig))
          (W (main_arg3 : DevRef τ sig)) (W (main_arg4 : DevRef τ sig)) := by
  rw [refOps_split, after_append, after_append, norm_v46, cat_v26, pre_v6, pre_v25]
  obtain ⟨c0, c1, c2, c3, c4⟩ := cat_args (after preOps W)
  obtain ⟨p0, p1, p2, p3, p4⟩ := pre_args W
  rw [c3, c4, p3, p4]
  rfl

/-- Every weakly fair execution of the reference terminates with its result at `outTerm` of the arguments and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v46)
          = outTerm (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v46).trans (out_v46 _),
      (h c main_arg0).trans (all_args _).1,
      (h c main_arg1).trans (all_args _).2.1,
      (h c main_arg2).trans (all_args _).2.2.1,
      (h c main_arg3).trans (all_args _).2.2.2.1,
      (h c main_arg4).trans (all_args _).2.2.2.2⟩)
    (run_refOps m ρ)

end Cert.ReferenceIdeal.RefStaged

end
-- ==== Proof.PreDecode.lean ====
import proofs.«426015_j33715493274183_3_alg».proof.Proof.Gen.Pre_finite_inputs
import proofs.«426015_j33715493274183_3_alg».proof.Proof.Spec
import Idealize.ShloMosaic.Lib.ReduceAll
import Idealize.ShloMosaic.Lib.StableHlo.Predicate
import Idealize.ShloMosaic.Lib.Pipeline.Value

noncomputable section

namespace Cert.PreDecode

open Idealize.ShloMosaic Idealize.ShloMosaic.ValueIdx Cert.EmbedNorm

/-- The result of a reduction over every axis has one index. -/
instance : Subsingleton Cert.Pre_finite_inputs.S_.Idx := ⟨fun a b => funext fun d => d.elim0⟩

/-- An extended real whose absolute value `max a (−a)` lies strictly below the word of `+∞` is a real number: both
    infinities have absolute value `+∞`. -/
theorem isReal_of_abs_lt_inf (a : EReal)
    (h : Ideal.cmp .olt (max a (-a)) (Ideal.ofBits .f32 0x7F800000#32) = 1#1) : IsReal a := by
  have htop : Ideal.ofBits .f32 0x7F800000#32 = ⊤ := by simp [Ideal.ofBits, Ideal.ieee]
  rw [htop] at h
  induction a using EReal.rec with
  | bot => simp [Ideal.cmp] at h
  | coe r => exact ⟨r, rfl⟩
  | top => simp [Ideal.cmp] at h

/-- A 32-bit word that is at least `0` and below `2048`, both read signed, has a value below `2048`: a word whose
    signed reading is not negative reads the same unsigned. -/
theorem toNat_lt_of_signed (w : BitVec 32) (h0 : IntOp.cmpi .sge w 0#32 = 1#1) (h1 : IntOp.cmpi .slt w 2048#32 = 1#1) :
    w.toNat < 2048 := by
  have h0' : (0#32 : BitVec 32).sle w = true := (StableHlo.Predicate.ofBool_eq_one_iff _).1 h0
  have h1' : w.slt 2048#32 = true := (StableHlo.Predicate.ofBool_eq_one_iff _).1 h1
  rw [BitVec.sle, decide_eq_true_eq] at h0'
  rw [BitVec.slt, decide_eq_true_eq] at h1'
  have z : (0#32 : BitVec 32).toInt = 0 := by decide
  have c : (2048#32 : BitVec 32).toInt = 2048 := by decide
  rw [z] at h0'
  rw [c] at h1'
  have hw := BitVec.toInt_eq_toNat_cond w
  have hlt := w.isLt
  split_ifs at hw <;> omega

/-- What the precondition says: every id lies in `[0, 2048)` and every entry of the four float arguments is a real
    number. -/
theorem decode [Cert.Pre_finite_inputs.Facts] (x : IVec Cert.Pre_finite_inputs.S16x4096 32)
    (tok : FVec Ideal Cert.Pre_finite_inputs.S2048x504 .f32) (typ : FVec Ideal Cert.Pre_finite_inputs.S5x8 .f32)
    (γ β : FVec Ideal Cert.Pre_finite_inputs.S512 .f32)
    (h : Cert.Pre_finite_inputs.fn (F := Ideal) x tok typ γ β = fun _ => 1#1) :
    InRange x ∧ (∀ i, IsReal (tok i)) ∧ (∀ i, IsReal (typ i)) ∧ (∀ i, IsReal (γ i)) ∧ (∀ i, IsReal (β i)) := by
  have e := congrFun h ValueIdx.ix0
  dsimp only [Cert.Pre_finite_inputs.fn, Cert.Pre_finite_inputs.fn_part1] at e
  simp only [andi, IntOp.andi_eq_one] at e
  obtain ⟨⟨⟨⟨htok, htyp⟩, hγ⟩, hβ⟩, hx⟩ := e
  refine ⟨fun i => ?_, fun i => isReal_of_abs_lt_inf _ (Host.reduce_andi_all _ _ _ _ _ htok i),
    fun i => isReal_of_abs_lt_inf _ (Host.reduce_andi_all _ _ _ _ _ htyp i),
    fun i => isReal_of_abs_lt_inf _ (Host.reduce_andi_all _ _ _ _ _ hγ i),
    fun i => isReal_of_abs_lt_inf _ (Host.reduce_andi_all _ _ _ _ _ hβ i)⟩
  have hi := Host.reduce_andi_all _ _ _ _ _ hx i
  obtain ⟨h0, h1⟩ := IntOp.andi_eq_one.1 hi
  exact toNat_lt_of_signed (x i) h0 h1

end Cert.PreDecode

end
-- ==== Proof.lean ====
/-
  The certificate: a table-lookup embedding with a type embedding appended and a layer normalisation, computed two ways.

  The reference gathers, for every token, its row of the token table and the row of the type table its id's range
  names, joins them into a row of 512 entries and normalises that row.  The kernel normalises the 2048 possible rows
  once, on the host, splits the resulting table `T` into a narrowed copy and a narrowed remainder, and in its region picks
  row `x` of both by a product with a one-hot matrix, chunk of 256 ids by chunk, adding the two products into an
  accumulator.  Over the extended reals narrowing is the identity, so the remainder is `T − T`, which is zero because
  every entry of `T` is a real number when the inputs are; the one-hot product picks exactly row `x`; and row `x` of
  `T` is the normalised combined row of the id `x`.  The claim holds for ids in `[0, 2048)`, the range of the token table
  they index: outside it the reference clamps the row index but takes type zero, and the two programs differ.

  The frames of the two kernel programs are the generated ones; the reference's frame is its run (written by hand,
  the program calling outlined functions) with the result forgotten; nothing was rewritten by the ideal pass, so
  `preserves` is `True`.
-/
import proofs.«426015_j33715493274183_3_alg».proof.Defs
import proofs.«426015_j33715493274183_3_alg».proof.Proof.Gen.Kernel.Frame
import proofs.«426015_j33715493274183_3_alg».proof.Proof.Gen.KernelIdeal.Value
import proofs.«426015_j33715493274183_3_alg».proof.Proof.Gen.Pre_finite_inputs
import proofs.«426015_j33715493274183_3_alg».proof.Proof.Bridge
import proofs.«426015_j33715493274183_3_alg».proof.Proof.RefRunStaged
import proofs.«426015_j33715493274183_3_alg».proof.Proof.PreDecode

noncomputable section

namespace Cert.Proof

open Idealize.ShloMosaic Idealize.ShloMosaic.TcCoe Idealize.SL.Sem Cert.EmbedNorm

theorem frame_k : Cert.frame_Kernel := fun m ρ _ => Cert.Kernel.Gen.frame m ρ

theorem frame_ki : Cert.frame_KernelIdeal := fun m ρ _ => Cert.KernelIdeal.Gen.frame m ρ

/-- The reference's frame: its run, the result forgotten. -/
theorem frame_ri : Cert.frame_ReferenceIdeal := fun m ρ _ =>
  (θ_run Cert.ReferenceIdeal.defs _ _).mono (fun _ h c => (h c).2) (Cert.ReferenceIdeal.RefStaged.run (F := Ideal) m ρ)

/-- Both programs end with the specification's result of the (shared) arguments. -/
theorem algebraic : Cert.algebraic_KernelIdeal_ReferenceIdeal := by
  intro m ρ m' ρ' hpre hagree
  refine ⟨fun c => result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · refine (θ_run Cert.KernelIdeal.defs _ _).mono (fun r h c => ⟨(h c).1.trans ?_, (h c).2⟩)
      (Cert.KernelIdeal.Value.run_blocks (F := Ideal) m ρ)
    obtain ⟨hx, htok, htyp, hγ, hβ⟩ := Cert.PreDecode.decode _ _ _ _ _ (hpre c)
    exact Cert.Bridge.kernel_value m c hx htok htyp hγ hβ
  · refine (θ_run Cert.ReferenceIdeal.defs _ _).mono (fun r h c => ⟨(h c).1.trans ?_, (h c).2⟩)
      (Cert.ReferenceIdeal.RefStaged.run (F := Ideal) m' ρ')
    obtain ⟨hx, -, -, -, -⟩ := Cert.PreDecode.decode _ _ _ _ _ (hpre c)
    rw [(hagree c).1, (hagree c).2.1, (hagree c).2.2.1, (hagree c).2.2.2.1, (hagree c).2.2.2.2]
    exact Cert.Bridge.outTerm_eq _ _ _ _ _ hx

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
